-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1000x6 : Shape := ⟨3, ![1, 1000, 6]⟩
abbrev S1x1000x10 : Shape := ⟨3, ![1, 1000, 10]⟩
abbrev S1x1000x256x512 : Shape := ⟨4, ![1, 1000, 256, 512]⟩
abbrev S1x1000x258x512 : Shape := ⟨4, ![1, 1000, 258, 512]⟩
abbrev S_ : Shape := ⟨0, ![]⟩

class Facts : Prop where
  bcast_S_S1x1000x6 : S_.BroadcastsInDim S1x1000x6 (![] : Fin 0 → Fin S1x1000x6.rank)
  bcast_S_S1x1000x10 : S_.BroadcastsInDim S1x1000x10 (![] : Fin 0 → Fin S1x1000x10.rank)
  reducesTo_S1x1000x10_S_d0_1_2 : S1x1000x10.ReducesTo [0, 1, 2] S_
  h_S_ : 0 < S_.numel
  bcast_S_S1x1000x256x512 : S_.BroadcastsInDim S1x1000x256x512 (![] : Fin 0 → Fin S1x1000x256x512.rank)
  reducesTo_S1x1000x256x512_S_d0_1_2_3 : S1x1000x256x512.ReducesTo [0, 1, 2, 3] S_
  bcast_S_S1x1000x258x512 : S_.BroadcastsInDim S1x1000x258x512 (![] : Fin 0 → Fin S1x1000x258x512.rank)
  reducesTo_S1x1000x258x512_S_d0_1_2_3 : S1x1000x258x512.ReducesTo [0, 1, 2, 3] S_
  reducesTo_S1x1000x6_S_d0_1_2 : S1x1000x6.ReducesTo [0, 1, 2] S_

variable [Facts]

def fn_part1 {F : FTy → Type} [FloatOps F] (main_arg0 : IVec S1x1000x6 32) (main_arg3 : FVec F S1x1000x258x512 .f32) (main_v11 : IVec S1x1000x6 1) (main_v15 : IVec S_ 1) (main_v16 : FVec F S1x1000x256x512 .f32) (main_cst_4 : FVec F S_ .f32) : IVec S_ 1 :=
  let main_v17 : FVec F S1x1000x256x512 .f32 := broadcastInDim S1x1000x256x512 ![] bcast_S_S1x1000x256x512 main_cst_4
  let main_v18 : IVec S1x1000x256x512 1 := cmpf .olt main_v16 main_v17
  let main_c_5 : IVec S_ 1 := constantI S_ 1 1#1
  let main_v19 : IVec S_ 1 := (fun x v => Host.reduce IntOp.andi x v reducesTo_S1x1000x256x512_S_d0_1_2_3 h_S_) main_v18 main_c_5
  let main_v20 : IVec S_ 1 := andi main_v15 main_v19
  let main_v21 : FVec F S1x1000x258x512 .f32 := Host.absf main_arg3
  let main_cst_6 : FVec F S_ .f32 := constant S_ .f32 0x7F800000#32
  let main_v22 : FVec F S1x1000x258x512 .f32 := broadcastInDim S1x1000x258x512 ![] bcast_S_S1x1000x258x512 main_cst_6
  let main_v23 : IVec S1x1000x258x512 1 := cmpf .olt main_v21 main_v22
  let main_c_7 : IVec S_ 1 := constantI S_ 1 1#1
  let main_v24 : IVec S_ 1 := (fun x v => Host.reduce IntOp.andi x v reducesTo_S1x1000x258x512_S_d0_1_2_3 h_S_) main_v23 main_c_7
  let main_v25 : IVec S_ 1 := andi main_v20 main_v24
  let main_c_8 : IVec S_ 32 := constantI S_ 32 256#32
  let main_v26 : IVec S1x1000x6 32 := broadcastInDim S1x1000x6 ![] bcast_S_S1x1000x6 main_c_8
  let main_v27 : IVec S1x1000x6 1 := cmpi .slt main_arg0 main_v26
  let main_v28 : IVec S1x1000x6 1 := andi main_v11 main_v27
  let main_c_9 : IVec S_ 1 := constantI S_ 1 1#1
  let main_v29 : IVec S_ 1 := (fun x v => Host.reduce IntOp.andi x v reducesTo_S1x1000x6_S_d0_1_2 h_S_) main_v28 main_c_9
  let main_v30 : IVec S_ 1 := andi main_v25 main_v29
  main_v30

def fn {F : FTy → Type} [FloatOps F] (main_arg0 : IVec S1x1000x6 32) (main_arg1 : FVec F S1x1000x10 .f32) (main_arg2 : FVec F S1x1000x256x512 .f32) (main_arg3 : FVec F S1x1000x258x512 .f32) : IVec S_ 1 :=
  let main_v0 : IVec S1x1000x6 32 := iotaInDim S1x1000x6 32 2
  let main_c : IVec S_ 32 := constantI S_ 32 0#32
  let main_v1 : IVec S1x1000x6 32 := broadcastInDim S1x1000x6 ![] bcast_S_S1x1000x6 main_c
  let main_v2 : IVec S1x1000x6 1 := cmpi .eq main_v0 main_v1
  let main_c_0 : IVec S_ 32 := constantI S_ 32 3#32
  let main_v3 : IVec S1x1000x6 32 := broadcastInDim S1x1000x6 ![] bcast_S_S1x1000x6 main_c_0
  let main_v4 : IVec S1x1000x6 1 := cmpi .eq main_v0 main_v3
  let main_v5 : IVec S1x1000x6 1 := ori main_v2 main_v4
  let main_c_1 : IVec S_ 32 := constantI S_ 32 0#32
  let main_v6 : IVec S1x1000x6 32 := broadcastInDim S1x1000x6 ![] bcast_S_S1x1000x6 main_c_1
  let main_v7 : IVec S1x1000x6 1 := cmpi .sge main_arg0 main_v6
  let main_c_2 : IVec S_ 32 := constantI S_ 32 4294967294#32
  let main_v8 : IVec S1x1000x6 32 := broadcastInDim S1x1000x6 ![] bcast_S_S1x1000x6 main_c_2
  let main_v9 : IVec S1x1000x6 1 := cmpi .sge main_arg0 main_v8
  let main_v10 : IVec S1x1000x6 1 := andi main_v5 main_v9
  let main_v11 : IVec S1x1000x6 1 := ori main_v7 main_v10
  let main_v12 : FVec F S1x1000x10 .f32 := Host.absf main_arg1
  let main_cst : FVec F S_ .f32 := constant S_ .f32 0x7F800000#32
  let main_v13 : FVec F S1x1000x10 .f32 := broadcastInDim S1x1000x10 ![] bcast_S_S1x1000x10 main_cst
  let main_v14 : IVec S1x1000x10 1 := cmpf .olt main_v12 main_v13
  let main_c_3 : IVec S_ 1 := constantI S_ 1 1#1
  let main_v15 : IVec S_ 1 := (fun x v => Host.reduce IntOp.andi x v reducesTo_S1x1000x10_S_d0_1_2 h_S_) main_v14 main_c_3
  let main_v16 : FVec F S1x1000x256x512 .f32 := Host.absf main_arg2
  let main_cst_4 : FVec F S_ .f32 := constant S_ .f32 0x7F800000#32
  fn_part1 (F := F) main_arg0 main_arg3 main_v11 main_v15 main_v16 main_cst_4
-- ==== Kernel.lean ====
abbrev S1x1000x6 : Shape := ⟨3, ![1, 1000, 6]⟩
abbrev S1x1000x10 : Shape := ⟨3, ![1, 1000, 10]⟩
abbrev S1x1000x256x512 : Shape := ⟨4, ![1, 1000, 256, 512]⟩
abbrev S1x1000x258x512 : Shape := ⟨4, ![1, 1000, 258, 512]⟩
abbrev S1000x6 : Shape := ⟨2, ![1000, 6]⟩
abbrev S1000x10 : Shape := ⟨2, ![1000, 10]⟩
abbrev S1000x256x512 : Shape := ⟨3, ![1000, 256, 512]⟩
abbrev S1000x258x512 : Shape := ⟨3, ![1000, 258, 512]⟩
abbrev S1000 : Shape := ⟨1, ![1000]⟩
abbrev S_ : Shape := ⟨0, ![]⟩
abbrev S1000x1 : Shape := ⟨2, ![1000, 1]⟩
abbrev S256000x1x512 : Shape := ⟨3, ![256000, 1, 512]⟩
abbrev S258000x1x512 : Shape := ⟨3, ![258000, 1, 512]⟩
abbrev S1000x1x10 : Shape := ⟨3, ![1000, 1, 10]⟩
abbrev S1000x1x3082 : Shape := ⟨3, ![1000, 1, 3082]⟩
abbrev S1x1x512 : Shape := ⟨3, ![1, 1, 512]⟩
abbrev S1 : Shape := ⟨1, ![1]⟩
abbrev S1x1x10 : Shape := ⟨3, ![1, 1, 10]⟩
abbrev S1x1x3082 : Shape := ⟨3, ![1, 1, 3082]⟩
abbrev S1x512 : Shape := ⟨2, ![1, 512]⟩
abbrev S1x10 : Shape := ⟨2, ![1, 10]⟩
abbrev S1x3082 : Shape := ⟨2, ![1, 3082]⟩
abbrev S1x1000x3082 : Shape := ⟨3, ![1, 1000, 3082]⟩

abbrev nBuf : Space → Nat
  | .hbm => 50
  | .vmem => 16
  | .smem => 6
  | _ => 0

abbrev bufTy : (tb : Table) → Fin (tcTables nBuf tb) → BufTy
  | .hbm, ⟨0, _⟩ => ⟨S1x1000x6, .i32⟩
  | .hbm, ⟨1, _⟩ => ⟨S1x1000x10, .f32⟩
  | .hbm, ⟨2, _⟩ => ⟨S1x1000x256x512, .f32⟩
  | .hbm, ⟨3, _⟩ => ⟨S1x1000x258x512, .f32⟩
  | .hbm, ⟨4, _⟩ => ⟨S1000x6, .i32⟩
  | .hbm, ⟨5, _⟩ => ⟨S1000x10, .f32⟩
  | .hbm, ⟨6, _⟩ => ⟨S1000x256x512, .f32⟩
  | .hbm, ⟨7, _⟩ => ⟨S1000x258x512, .f32⟩
  | .hbm, ⟨8, _⟩ => ⟨S1000, .i32⟩
  | .hbm, ⟨9, _⟩ => ⟨S_, .i32⟩
  | .hbm, ⟨10, _⟩ => ⟨S1000, .i32⟩
  | .hbm, ⟨11, _⟩ => ⟨S1000, .i32⟩
  | .hbm, ⟨12, _⟩ => ⟨S1000x1, .i32⟩
  | .hbm, ⟨13, _⟩ => ⟨S1000, .i32⟩
  | .hbm, ⟨14, _⟩ => ⟨S_, .i32⟩
  | .hbm, ⟨15, _⟩ => ⟨S1000, .i32⟩
  | .hbm, ⟨16, _⟩ => ⟨S1000, .i32⟩
  | .hbm, ⟨17, _⟩ => ⟨S1000x1, .i32⟩
  | .hbm, ⟨18, _⟩ => ⟨S1000, .i32⟩
  | .hbm, ⟨19, _⟩ => ⟨S_, .i32⟩
  | .hbm, ⟨20, _⟩ => ⟨S1000, .i32⟩
  | .hbm, ⟨21, _⟩ => ⟨S1000, .i32⟩
  | .hbm, ⟨22, _⟩ => ⟨S1000x1, .i32⟩
  | .hbm, ⟨23, _⟩ => ⟨S1000, .i32⟩
  | .hbm, ⟨24, _⟩ => ⟨S_, .i32⟩
  | .hbm, ⟨25, _⟩ => ⟨S1000, .i32⟩
  | .hbm, ⟨26, _⟩ => ⟨S1000, .i32⟩
  | .hbm, ⟨27, _⟩ => ⟨S1000x1, .i32⟩
  | .hbm, ⟨28, _⟩ => ⟨S1000, .i32⟩
  | .hbm, ⟨29, _⟩ => ⟨S_, .i32⟩
  | .hbm, ⟨30, _⟩ => ⟨S1000, .i32⟩
  | .hbm, ⟨31, _⟩ => ⟨S1000, .i32⟩
  | .hbm, ⟨32, _⟩ => ⟨S1000x1, .i32⟩
  | .hbm, ⟨33, _⟩ => ⟨S1000, .i32⟩
  | .hbm, ⟨34, _⟩ => ⟨S_, .i32⟩
  | .hbm, ⟨35, _⟩ => ⟨S1000, .i32⟩
  | .hbm, ⟨36, _⟩ => ⟨S1000, .i32⟩
  | .hbm, ⟨37, _⟩ => ⟨S_, .i32⟩
  | .hbm, ⟨38, _⟩ => ⟨S1000, .i32⟩
  | .hbm, ⟨39, _⟩ => ⟨S1000, .i32⟩
  | .hbm, ⟨40, _⟩ => ⟨S1000x1, .i32⟩
  | .hbm, ⟨41, _⟩ => ⟨S1000, .i32⟩
  | .hbm, ⟨42, _⟩ => ⟨S_, .i32⟩
  | .hbm, ⟨43, _⟩ => ⟨S1000, .i32⟩
  | .hbm, ⟨44, _⟩ => ⟨S1000, .i32⟩
  | .hbm, ⟨45, _⟩ => ⟨S256000x1x512, .f32⟩
  | .hbm, ⟨46, _⟩ => ⟨S258000x1x512, .f32⟩
  | .hbm, ⟨47, _⟩ => ⟨S1000x1x10, .f32⟩
  | .hbm, ⟨48, _⟩ => ⟨S1000x1x3082, .f32⟩
  | .hbm, ⟨49, _⟩ => ⟨S1x1000x3082, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x10, .f32⟩
  | .local _ .vmem, ⟨13, _⟩ => ⟨S1x1x10, .f32⟩
  | .local _ .vmem, ⟨14, _⟩ => ⟨S1x1x3082, .f32⟩
  | .local _ .vmem, ⟨15, _⟩ => ⟨S1x1x3082, .f32⟩
  | .local _ .smem, ⟨0, _⟩ => ⟨S1000, .i32⟩
  | .local _ .smem, ⟨1, _⟩ => ⟨S1000, .i32⟩
  | .local _ .smem, ⟨2, _⟩ => ⟨S1000, .i32⟩
  | .local _ .smem, ⟨3, _⟩ => ⟨S1000, .i32⟩
  | .local _ .smem, ⟨4, _⟩ => ⟨S1000, .i32⟩
  | .local _ .smem, ⟨5, _⟩ => ⟨S1000, .i32⟩
  | _, _ => ⟨S1x1000x6, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_3 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_4 : Ref sig .tc := ⟨.hbm, 34, rfl⟩
abbrev main_v29 : Ref sig .tc := ⟨.hbm, 35, rfl⟩
abbrev main_v30 : Ref sig .tc := ⟨.hbm, 36, rfl⟩
abbrev main_c_5 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_6 : Ref sig .tc := ⟨.hbm, 42, rfl⟩
abbrev main_v36 : Ref sig .tc := ⟨.hbm, 43, rfl⟩
abbrev main_v37 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v9 : Ref sig .tc := ⟨.smem, 0, rfl⟩
abbrev main_v14 : Ref sig .tc := ⟨.smem, 1, rfl⟩
abbrev main_v19 : Ref sig .tc := ⟨.smem, 2, rfl⟩
abbrev main_v24 : Ref sig .tc := ⟨.smem, 3, rfl⟩
abbrev main_v31 : Ref sig .tc := ⟨.smem, 4, rfl⟩
abbrev main_v38 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![1000], ![false]⟩

abbrev pre0 : Pipeline.Prefetch sig := ⟨6, ![main_v9.idx, main_v14.idx, main_v19.idx, main_v24.idx, main_v31.idx, main_v38.idx], fun | 0 => main_v9.names | 1 => main_v14.names | 2 => main_v19.names | 3 => main_v24.names | 4 => main_v31.names | 5 => main_v38.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 4 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S1000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 5 (Rect.unit (s := S1000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3082 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1x1000x6_S1000x6 : S1x1000x6.ShapeCasts S1000x6
  shapeCasts_S1x1000x10_S1000x10 : S1x1000x10.ShapeCasts S1000x10
  shapeCasts_S1x1000x256x512_S1000x256x512 : S1x1000x256x512.ShapeCasts S1000x256x512
  shapeCasts_S1x1000x258x512_S1000x258x512 : S1x1000x258x512.ShapeCasts S1000x258x512
  bcast_S_S1000 : S_.BroadcastsInDim S1000 (![] : Fin 0 → Fin S1000.rank)
  slices_S1000x6_S1000x1_0_1 : S1000x6.Slices ![0, 1] S1000x1
  shapeCasts_S1000x1_S1000 : S1000x1.ShapeCasts S1000
  slices_S1000x6_S1000x1_0_2 : S1000x6.Slices ![0, 2] S1000x1
  slices_S1000x6_S1000x1_0_4 : S1000x6.Slices ![0, 4] S1000x1
  slices_S1000x6_S1000x1_0_5 : S1000x6.Slices ![0, 5] S1000x1
  slices_S1000x6_S1000x1_0_0 : S1000x6.Slices ![0, 0] S1000x1
  slices_S1000x6_S1000x1_0_3 : S1000x6.Slices ![0, 3] S1000x1
  shapeCasts_S1000x256x512_S256000x1x512 : S1000x256x512.ShapeCasts S256000x1x512
  shapeCasts_S1000x258x512_S258000x1x512 : S1000x258x512.ShapeCasts S258000x1x512
  shapeCasts_S1000x10_S1000x1x10 : S1000x10.ShapeCasts S1000x1x10
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  concatenates_S1x512_S1x512_S1x512_S1x512_S1x512_S1x512_S1x10_S1x3082_d1 : Shape.Concatenates [S1x512, S1x512, S1x512, S1x512, S1x512, S1x512, S1x10] S1x3082 1
  inb_S1x1x3082_S1x1x3082_0_0_0 : ∀ a, (![0, 0, 0] : Fin 3 → Nat) a + S1x1x3082.size a ≤ S1x1x3082.size a
  h_S1x1x3082 : 0 < S1x1x3082.numel
  shapeCasts_S1x1x3082_S1x3082 : S1x1x3082.ShapeCasts S1x3082
  shapeCasts_S1x3082_S1x1x3082 : S1x3082.ShapeCasts S1x1x3082
  shapeCasts_S1000x1x3082_S1x1000x3082 : S1000x1x3082.ShapeCasts S1x1000x3082
  hrank0 : 0 < grid0.rank
  k0_off1_inb : ∀ i : grid0.Coords, ∀ a, (k0_off1 i) a + S1.size a ≤ S1000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x10.size a ≤ S1000x1x10.size a
  hwx0_6 : ∀ i : grid0.Coords, EltTy.bits .f32 = 32 ∨ (Rect.block (s := S1000x1x10) S1x1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x3082.size a ≤ S1000x1x3082.size a
  hwx0_7 : ∀ i : grid0.Coords, EltTy.bits .f32 = 32 ∨ (Rect.block (s := S1000x1x3082) S1x1x3082.size (cc0_transform_7 i) (hinb0_7 i)).WholeWords (EltTy.packing .f32)

variable [Facts₀]

abbrev spec0_0 : Pipeline.WinSpec sig grid0.rank :=
  Pipeline.WinSpec.ofSpec (Memref.whole main_v39) S1x1x512.size reads0_0 false false 2 stage0_0 sem0_0 nbuf0_0 hstage0_0

abbrev spec0_1 : Pipeline.WinSpec sig grid0.rank :=
  Pipeline.WinSpec.ofSpec (Memref.whole main_v39) S1x1x512.size reads0_1 false false 2 stage0_1 sem0_1 nbuf0_1 hstage0_1

abbrev spec0_2 : Pipeline.WinSpec sig grid0.rank :=
  Pipeline.WinSpec.ofSpec (Memref.whole main_v39) S1x1x512.size reads0_2 false false 2 stage0_2 sem0_2 nbuf0_2 hstage0_2

abbrev spec0_3 : Pipeline.WinSpec sig grid0.rank :=
  Pipeline.WinSpec.ofSpec (Memref.whole main_v39) S1x1x512.size reads0_3 false false 2 stage0_3 sem0_3 nbuf0_3 hstage0_3

abbrev spec0_4 : Pipeline.WinSpec sig grid0.rank :=
  Pipeline.WinSpec.ofSpec (Memref.whole main_v40) S1x1x512.size reads0_4 false false 2 stage0_4 sem0_4 nbuf0_4 hstage0_4

abbrev spec0_5 : Pipeline.WinSpec sig grid0.rank :=
  Pipeline.WinSpec.ofSpec (Memref.whole main_v40) S1x1x512.size reads0_5 false false 2 stage0_5 sem0_5 nbuf0_5 hstage0_5

abbrev spec0_6 : Pipeline.WinSpec sig grid0.rank :=
  Pipeline.WinSpec.ofSpec (Memref.whole main_v41) S1x1x10.size reads0_6 false false 2 stage0_6 sem0_6 nbuf0_6 hstage0_6

abbrev spec0_7 : Pipeline.WinSpec sig grid0.rank :=
  Pipeline.WinSpec.ofSpec (Memref.whole main_v42) S1x1x3082.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x512.size a ≤ S256000x1x512.size a), EltTy.bits .f32 = 32 ∨ (Rect.block (s := S256000x1x512) S1x1x512.size (cc0_transform_0 k0_off1_inb numel1_S1 pf i) h).WholeWords (EltTy.packing .f32)) ∧
  (∀ i : grid0.Coords, ∃ h : (∀ a, (cc0_transform_1 k0_off1_inb numel1_S1 pf i a + 1) * S1x1x512.size a ≤ S256000x1x512.size a), EltTy.bits .f32 = 32 ∨ (Rect.block (s := S256000x1x512) S1x1x512.size (cc0_transform_1 k0_off1_inb numel1_S1 pf i) h).WholeWords (EltTy.packing .f32)) ∧
  (∀ i : grid0.Coords, ∃ h : (∀ a, (cc0_transform_2 k0_off1_inb numel1_S1 pf i a + 1) * S1x1x512.size a ≤ S256000x1x512.size a), EltTy.bits .f32 = 32 ∨ (Rect.block (s := S256000x1x512) S1x1x512.size (cc0_transform_2 k0_off1_inb numel1_S1 pf i) h).WholeWords (EltTy.packing .f32)) ∧
  (∀ i : grid0.Coords, ∃ h : (∀ a, (cc0_transform_3 k0_off1_inb numel1_S1 pf i a + 1) * S1x1x512.size a ≤ S256000x1x512.size a), EltTy.bits .f32 = 32 ∨ (Rect.block (s := S256000x1x512) S1x1x512.size (cc0_transform_3 k0_off1_inb numel1_S1 pf i) h).WholeWords (EltTy.packing .f32)) ∧
  (∀ i : grid0.Coords, ∃ h : (∀ a, (cc0_transform_4 k0_off1_inb numel1_S1 pf i a + 1) * S1x1x512.size a ≤ S258000x1x512.size a), EltTy.bits .f32 = 32 ∨ (Rect.block (s := S258000x1x512) S1x1x512.size (cc0_transform_4 k0_off1_inb numel1_S1 pf i) h).WholeWords (EltTy.packing .f32)) ∧
  (∀ i : grid0.Coords, ∃ h : (∀ a, (cc0_transform_5 k0_off1_inb numel1_S1 pf i a + 1) * S1x1x512.size a ≤ S258000x1x512.size a), EltTy.bits .f32 = 32 ∨ (Rect.block (s := S258000x1x512) S1x1x512.size (cc0_transform_5 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S1x1000x6 : Shape := ⟨3, ![1, 1000, 6]⟩
abbrev S1x1000x10 : Shape := ⟨3, ![1, 1000, 10]⟩
abbrev S1x1000x256x512 : Shape := ⟨4, ![1, 1000, 256, 512]⟩
abbrev S1x1000x258x512 : Shape := ⟨4, ![1, 1000, 258, 512]⟩
abbrev S1000x6 : Shape := ⟨2, ![1000, 6]⟩
abbrev S1000x10 : Shape := ⟨2, ![1000, 10]⟩
abbrev S1000x256x512 : Shape := ⟨3, ![1000, 256, 512]⟩
abbrev S1000x258x512 : Shape := ⟨3, ![1000, 258, 512]⟩
abbrev S1000 : Shape := ⟨1, ![1000]⟩
abbrev S1000x1 : Shape := ⟨2, ![1000, 1]⟩
abbrev S_ : Shape := ⟨0, ![]⟩
abbrev S1000x2 : Shape := ⟨2, ![1000, 2]⟩
abbrev S1000x512 : Shape := ⟨2, ![1000, 512]⟩
abbrev S1000x3082 : Shape := ⟨2, ![1000, 3082]⟩
abbrev S1x1000x3082 : Shape := ⟨3, ![1, 1000, 3082]⟩

abbrev nBuf : Space → Nat
  | .hbm => 137
  | .vmem => 0
  | .smem => 0
  | _ => 0

abbrev hbmTy0_0 (i : Nat) : BufTy := match i % 128 with
  | 0 => ⟨S1x1000x6, .i32⟩
  | 1 => ⟨S1x1000x10, .f32⟩
  | 2 => ⟨S1x1000x256x512, .f32⟩
  | 3 => ⟨S1x1000x258x512, .f32⟩
  | 4 => ⟨S1000x6, .i32⟩
  | 5 => ⟨S1000x10, .f32⟩
  | 6 => ⟨S1000x256x512, .f32⟩
  | 7 => ⟨S1000x258x512, .f32⟩
  | 8 => ⟨S1000, .i32⟩
  | 9 => ⟨S1000x1, .i32⟩
  | 10 => ⟨S1000, .i32⟩
  | 11 => ⟨S_, .i32⟩
  | 12 => ⟨S1000, .i32⟩
  | 13 => ⟨S1000, .i1⟩
  | 14 => ⟨S_, .i32⟩
  | 15 => ⟨S1000, .i32⟩
  | 16 => ⟨S1000, .i32⟩
  | 17 => ⟨S1000, .i32⟩
  | 18 => ⟨S_, .i32⟩
  | 19 => ⟨S1000, .i32⟩
  | 20 => ⟨S1000, .i1⟩
  | 21 => ⟨S_, .i32⟩
  | 22 => ⟨S1000, .i32⟩
  | 23 => ⟨S1000, .i32⟩
  | 24 => ⟨S1000, .i32⟩
  | 25 => ⟨S1000x1, .i32⟩
  | 26 => ⟨S1000x1, .i32⟩
  | 27 => ⟨S1000x2, .i32⟩
  | 28 => ⟨S1000x512, .f32⟩
  | 29 => ⟨S1000x1, .i32⟩
  | 30 => ⟨S1000, .i32⟩
  | 31 => ⟨S_, .i32⟩
  | 32 => ⟨S1000, .i32⟩
  | 33 => ⟨S1000, .i1⟩
  | 34 => ⟨S_, .i32⟩
  | 35 => ⟨S1000, .i32⟩
  | 36 => ⟨S1000, .i32⟩
  | 37 => ⟨S1000, .i32⟩
  | 38 => ⟨S_, .i32⟩
  | 39 => ⟨S1000, .i32⟩
  | 40 => ⟨S1000, .i1⟩
  | 41 => ⟨S_, .i32⟩
  | 42 => ⟨S1000, .i32⟩
  | 43 => ⟨S1000, .i32⟩
  | 44 => ⟨S1000, .i32⟩
  | 45 => ⟨S1000x1, .i32⟩
  | 46 => ⟨S1000x1, .i32⟩
  | 47 => ⟨S1000x2, .i32⟩
  | 48 => ⟨S1000x512, .f32⟩
  | 49 => ⟨S1000x1, .i32⟩
  | 50 => ⟨S1000, .i32⟩
  | 51 => ⟨S_, .i32⟩
  | 52 => ⟨S1000, .i32⟩
  | 53 => ⟨S1000, .i1⟩
  | 54 => ⟨S_, .i32⟩
  | 55 => ⟨S1000, .i32⟩
  | 56 => ⟨S1000, .i32⟩
  | 57 => ⟨S1000, .i32⟩
  | 58 => ⟨S_, .i32⟩
  | 59 => ⟨S1000, .i32⟩
  | 60 => ⟨S1000, .i1⟩
  | 61 => ⟨S_, .i32⟩
  | 62 => ⟨S1000, .i32⟩
  | 63 => ⟨S1000, .i32⟩
  | 64 => ⟨S1000, .i32⟩
  | 65 => ⟨S1000x1, .i32⟩
  | 66 => ⟨S1000x1, .i32⟩
  | 67 => ⟨S1000x2, .i32⟩
  | 68 => ⟨S1000x512, .f32⟩
  | 69 => ⟨S1000x1, .i32⟩
  | 70 => ⟨S1000, .i32⟩
  | 71 => ⟨S_, .i32⟩
  | 72 => ⟨S1000, .i32⟩
  | 73 => ⟨S1000, .i1⟩
  | 74 => ⟨S_, .i32⟩
  | 75 => ⟨S1000, .i32⟩
  | 76 => ⟨S1000, .i32⟩
  | 77 => ⟨S1000, .i32⟩
  | 78 => ⟨S_, .i32⟩
  | 79 => ⟨S1000, .i32⟩
  | 80 => ⟨S1000, .i1⟩
  | 81 => ⟨S_, .i32⟩
  | 82 => ⟨S1000, .i32⟩
  | 83 => ⟨S1000, .i32⟩
  | 84 => ⟨S1000, .i32⟩
  | 85 => ⟨S1000x1, .i32⟩
  | 86 => ⟨S1000x1, .i32⟩
  | 87 => ⟨S1000x2, .i32⟩
  | 88 => ⟨S1000x512, .f32⟩
  | 89 => ⟨S1000x1, .i32⟩
  | 90 => ⟨S1000, .i32⟩
  | 91 => ⟨S_, .i32⟩
  | 92 => ⟨S1000, .i32⟩
  | 93 => ⟨S1000, .i32⟩
  | 94 => ⟨S_, .i32⟩
  | 95 => ⟨S1000, .i32⟩
  | 96 => ⟨S1000, .i1⟩
  | 97 => ⟨S_, .i32⟩
  | 98 => ⟨S1000, .i32⟩
  | 99 => ⟨S1000, .i32⟩
  | 100 => ⟨S1000, .i32⟩
  | 101 => ⟨S_, .i32⟩
  | 102 => ⟨S1000, .i32⟩
  | 103 => ⟨S1000, .i1⟩
  | 104 => ⟨S_, .i32⟩
  | 105 => ⟨S1000, .i32⟩
  | 106 => ⟨S1000, .i32⟩
  | 107 => ⟨S1000, .i32⟩
  | 108 => ⟨S1000x1, .i32⟩
  | 109 => ⟨S1000x1, .i32⟩
  | 110 => ⟨S1000x2, .i32⟩
  | 111 => ⟨S1000x512, .f32⟩
  | 112 => ⟨S1000x1, .i32⟩
  | 113 => ⟨S1000, .i32⟩
  | 114 => ⟨S_, .i32⟩
  | 115 => ⟨S1000, .i32⟩
  | 116 => ⟨S1000, .i32⟩
  | 117 => ⟨S_, .i32⟩
  | 118 => ⟨S1000, .i32⟩
  | 119 => ⟨S1000, .i1⟩
  | 120 => ⟨S_, .i32⟩
  | 121 => ⟨S1000, .i32⟩
  | 122 => ⟨S1000, .i32⟩
  | 123 => ⟨S1000, .i32⟩
  | 124 => ⟨S_, .i32⟩
  | 125 => ⟨S1000, .i32⟩
  | 126 => ⟨S1000, .i1⟩
  | 127 => ⟨S_, .i32⟩
  | _ => ⟨S1x1000x6, .i32⟩

abbrev hbmTy0_1 (i : Nat) : BufTy := match i % 128 with
  | 0 => ⟨S1000, .i32⟩
  | 1 => ⟨S1000, .i32⟩
  | 2 => ⟨S1000, .i32⟩
  | 3 => ⟨S1000x1, .i32⟩
  | 4 => ⟨S1000x1, .i32⟩
  | 5 => ⟨S1000x2, .i32⟩
  | 6 => ⟨S1000x512, .f32⟩
  | 7 => ⟨S1000x3082, .f32⟩
  | 8 => ⟨S1x1000x3082, .f32⟩
  | _ => ⟨S1x1000x6, .i32⟩

abbrev hbmTy (i : Nat) : BufTy := match i / 128 with
  | 0 => hbmTy0_0 i
  | 1 => hbmTy0_1 i
  | _ => ⟨S1x1000x6, .i32⟩

abbrev bufTy : (tb : Table) → Fin (tcTables nBuf tb) → BufTy
  | .hbm, ⟨i, _⟩ => hbmTy i
  | _, _ => ⟨S1x1000x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_c_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_c_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_9 : Ref sig .tc := ⟨.hbm, 58, rfl⟩
abbrev main_v44 : Ref sig .tc := ⟨.hbm, 59, rfl⟩
abbrev main_v45 : Ref sig .tc := ⟨.hbm, 60, rfl⟩
abbrev main_c_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_11 : Ref sig .tc := ⟨.hbm, 71, rfl⟩
abbrev main_v55 : Ref sig .tc := ⟨.hbm, 72, rfl⟩
abbrev main_v56 : Ref sig .tc := ⟨.hbm, 73, rfl⟩
abbrev main_c_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_13 : Ref sig .tc := ⟨.hbm, 78, rfl⟩
abbrev main_v60 : Ref sig .tc := ⟨.hbm, 79, rfl⟩
abbrev main_v61 : Ref sig .tc := ⟨.hbm, 80, rfl⟩
abbrev main_c_14 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_15 : Ref sig .tc := ⟨.hbm, 91, rfl⟩
abbrev main_v71 : Ref sig .tc := ⟨.hbm, 92, rfl⟩
abbrev main_v72 : Ref sig .tc := ⟨.hbm, 93, rfl⟩
abbrev main_c_16 : Ref sig .tc := ⟨.hbm, 94, rfl⟩
abbrev main_v73 : Ref sig .tc := ⟨.hbm, 95, rfl⟩
abbrev main_v74 : Ref sig .tc := ⟨.hbm, 96, rfl⟩
abbrev main_c_17 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_18 : Ref sig .tc := ⟨.hbm, 101, rfl⟩
abbrev main_v78 : Ref sig .tc := ⟨.hbm, 102, rfl⟩
abbrev main_v79 : Ref sig .tc := ⟨.hbm, 103, rfl⟩
abbrev main_c_19 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_20 : Ref sig .tc := ⟨.hbm, 114, rfl⟩
abbrev main_v89 : Ref sig .tc := ⟨.hbm, 115, rfl⟩
abbrev main_v90 : Ref sig .tc := ⟨.hbm, 116, rfl⟩
abbrev main_c_21 : Ref sig .tc := ⟨.hbm, 117, rfl⟩
abbrev main_v91 : Ref sig .tc := ⟨.hbm, 118, rfl⟩
abbrev main_v92 : Ref sig .tc := ⟨.hbm, 119, rfl⟩
abbrev main_c_22 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_23 : Ref sig .tc := ⟨.hbm, 124, rfl⟩
abbrev main_v96 : Ref sig .tc := ⟨.hbm, 125, rfl⟩
abbrev main_v97 : Ref sig .tc := ⟨.hbm, 126, rfl⟩
abbrev main_c_24 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]

class Facts₀ : Prop where
  shapeCasts_S1x1000x6_S1000x6 : S1x1000x6.ShapeCasts S1000x6
  shapeCasts_S1x1000x10_S1000x10 : S1x1000x10.ShapeCasts S1000x10
  shapeCasts_S1x1000x256x512_S1000x256x512 : S1x1000x256x512.ShapeCasts S1000x256x512
  shapeCasts_S1x1000x258x512_S1000x258x512 : S1x1000x258x512.ShapeCasts S1000x258x512
  slices_S1000x6_S1000x1_0_1 : S1000x6.Slices ![0, 1] S1000x1
  shapeCasts_S1000x1_S1000 : S1000x1.ShapeCasts S1000
  bcast_S_S1000 : S_.BroadcastsInDim S1000 (![] : Fin 0 → Fin S1000.rank)
  bcast_S1000_S1000x1_0 : S1000.BroadcastsInDim S1000x1 (![0] : Fin 1 → Fin S1000x1.rank)
  concatenates_S1000x1_S1000x1_S1000x2_d1 : Shape.Concatenates [S1000x1, S1000x1] S1000x2 1
  slices_S1000x6_S1000x1_0_2 : S1000x6.Slices ![0, 2] S1000x1
  slices_S1000x6_S1000x1_0_4 : S1000x6.Slices ![0, 4] S1000x1
  slices_S1000x6_S1000x1_0_5 : S1000x6.Slices ![0, 5] S1000x1
  slices_S1000x6_S1000x1_0_0 : S1000x6.Slices ![0, 0] S1000x1
  slices_S1000x6_S1000x1_0_3 : S1000x6.Slices ![0, 3] S1000x1
  concatenates_S1000x512_S1000x512_S1000x512_S1000x512_S1000x512_S1000x512_S1000x10_S1000x3082_d1 : Shape.Concatenates [S1000x512, S1000x512, S1000x512, S1000x512, S1000x512, S1000x512, S1000x10] S1000x3082 1
  bcast_S1000x3082_S1x1000x3082_1_2 : S1000x3082.BroadcastsInDim S1x1000x3082 (![1, 2] : Fin 2 → Fin S1x1000x3082.rank)
  gather_S1000x256x512_S1000x2_S1000x512_1_01_n_n_01_1_11512_wf : GatherDims.WF S1000x256x512 S1000x2 S1000x512 [1] [0, 1] [] [0, 1] [] 1 ![1, 1, 512]
  gather_S1000x258x512_S1000x2_S1000x512_1_01_n_n_01_1_11512_wf : GatherDims.WF S1000x258x512 S1000x2 S1000x512 [1] [0, 1] [] [0, 1] [] 1 ![1, 1, 512]

variable [Facts₀]

def gather_S1000x256x512_S1000x2_S1000x512_1_01_n_n_01_1_11512 : GatherDims S1000x256x512 S1000x2 S1000x512 where
  offsetDims := [1]
  collapsedSliceDims := [0, 1]
  operandBatchingDims := []
  startIndicesBatchingDims := []
  startIndexMap := [0, 1]
  indexVectorDim := 1
  sliceSizes := ![1, 1, 512]
  wf := gather_S1000x256x512_S1000x2_S1000x512_1_01_n_n_01_1_11512_wf
def gather_S1000x258x512_S1000x2_S1000x512_1_01_n_n_01_1_11512 : GatherDims S1000x258x512 S1000x2 S1000x512 where
  offsetDims := [1]
  collapsedSliceDims := [0, 1]
  operandBatchingDims := []
  startIndicesBatchingDims := []
  startIndexMap := [0, 1]
  indexVectorDim := 1
  sliceSizes := ![1, 1, 512]
  wf := gather_S1000x258x512_S1000x2_S1000x512_1_01_n_n_01_1_11512_wf

class Facts : Prop extends Facts₀ where

variable [Facts]
-- ==== Proof.Spec.lean ====
/-
  The specification both programs are compared with. The result has one row per position n < 1000, of width
  3082 = 6 * 512 + 10: six rows of width 512 picked out of two tables by the six integer columns of `cand`,
  followed by the ten numeric features of the position.
    segment 0, 1, 2, 3 (columns   0 .. 2047): row cand[n, 1], cand[n, 2], cand[n, 4], cand[n, 5] of the 256-row table at n
    segment 4, 5       (columns 2048 .. 3071): row cand[n, 0] + 2, cand[n, 3] + 2 of the 258-row table at n
    the tail           (columns 3072 .. 3081): the numeric features of n
  The domain on which this is what both programs compute is `Bounds`: every row index lies inside its table.
-/
import Idealize.ShloMosaic.PureOps.Ideal
import Idealize.ShloMosaic.Lib.ValueIdx

noncomputable section

namespace Cert.GatherSpec

open Idealize.ShloMosaic Idealize.ShloMosaic.ValueIdx

abbrev SCand : Shape := ⟨3, ![1, 1000, 6]⟩
abbrev SNum : Shape := ⟨3, ![1, 1000, 10]⟩
abbrev SBlo : Shape := ⟨4, ![1, 1000, 256, 512]⟩
abbrev SAtt : Shape := ⟨4, ![1, 1000, 258, 512]⟩
abbrev SOut : Shape := ⟨3, ![1, 1000, 3082]⟩

/-- The least value a column may take: columns 0 and 3 are used shifted by two, so they may start at -2. -/
def lo (k : Fin 6) : Int := if k.val = 0 ∨ k.val = 3 then -2 else 0

/-- Every row index is inside the table it indexes: columns 1, 2, 4, 5 in [0, 256), columns 0 and 3 in [-2, 256)
    (their rows, shifted by two, in [0, 258)). -/
def Bounds (cand : IVec SCand 32) : Prop :=
  ∀ (n : Fin 1000) (k : Fin 6), lo k ≤ (cand (ix3 0 n k)).toInt ∧ (cand (ix3 0 n k)).toInt < 256

/-- The row of the 256-row table that column `k` names at position `n` (kept inside the table). -/
def rowB (cand : IVec SCand 32) (n : Fin 1000) (k : Fin 6) : Fin 256 :=
  ⟨min (cand (ix3 0 n k)).toInt.toNat 255, by omega⟩

/-- The row of the 258-row table that column `k` names at position `n`: the column's value plus two. -/
def rowA (cand : IVec SCand 32) (n : Fin 1000) (k : Fin 6) : Fin 258 :=
  ⟨min ((cand (ix3 0 n k)).toInt + 2).toNat 257, by omega⟩

/-- The result, entry by entry. -/
def G {α : Type} (cand : IVec SCand 32) (num : SNum.Idx → α) (blo : SBlo.Idx → α) (att : SAtt.Idx → α) : SOut.Idx → α :=
  fun i =>
    let n : Fin 1000 := i 1
    let j : Nat := (i 2).val
    if h0 : j < 512 then blo (ix4 0 n (rowB cand n 1) ⟨j, h0⟩)
    else if h1 : j < 1024 then blo (ix4 0 n (rowB cand n 2) ⟨j - 512, by omega⟩)
    else if h2 : j < 1536 then blo (ix4 0 n (rowB cand n 4) ⟨j - 1024, by omega⟩)
    else if h3 : j < 2048 then blo (ix4 0 n (rowB cand n 5) ⟨j - 1536, by omega⟩)
    else if h4 : j < 2560 then att (ix4 0 n (rowA cand n 0) ⟨j - 2048, by omega⟩)
    else if h5 : j < 3072 then att (ix4 0 n (rowA cand n 3) ⟨j - 2560, by omega⟩)
    else num (ix3 0 n ⟨j - 3072, by have hj : (i 2).val < 3082 := (i 2).isLt; show (i 2).val - 3072 < 10; omega⟩)

end Cert.GatherSpec

end
-- ==== Proof.PreDecode.lean ====
/-
  The integer precondition, read back. The printed precondition ends in an "all" over the [1, 1000, 6] candidate
  table of the element-wise test
      ((c ≥ 0) or ((k = 0 or k = 3) and c ≥ -2)) and (c < 256),
  every comparison signed and k the column number (an iota along the last axis). An "all" that came out 1 met a 1
  at every entry, so at entry (0, n, k) the test holds; read signed it says: c lies in [lo k, 256), where lo k is -2
  for the two shifted columns 0 and 3 and 0 for the others.
-/
import proofs.«402364_j79723182948737_2_alg».proof.Pre_finite_inputs
import proofs.«402364_j79723182948737_2_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- The scalar shape has one index. -/
instance subsingleton_scalar_idx : Subsingleton S_.Idx := ⟨fun a b => funext fun d => d.elim0⟩

/-- A column number below six whose 32-bit word is the word of m < 6 is m. -/
theorem col_of_word (k : Fin 6) (m : Nat) (hm : m < 6) (e : BitVec.ofNat 32 k.val = BitVec.ofNat 32 m) : k.val = m := by
  have h := congrArg BitVec.toNat e
  simp only [BitVec.toNat_ofNat] at h
  have hk := k.isLt
  omega

theorem bounds_of_pre {F : FTy → Type} [FloatOps F] [Cert.Pre_finite_inputs.Facts]
    (c : IVec Cert.Pre_finite_inputs.S1x1000x6 32) (x1 : FVec F Cert.Pre_finite_inputs.S1x1000x10 .f32)
    (x2 : FVec F Cert.Pre_finite_inputs.S1x1000x256x512 .f32) (x3 : FVec F Cert.Pre_finite_inputs.S1x1000x258x512 .f32)
    (h : Cert.Pre_finite_inputs.fn (F := F) c x1 x2 x3 = (fun _ => 1#1)) : Cert.GatherSpec.Bounds c := by
  -- the result word at the scalar's one index, and of its four conjuncts the last: the "all" over the table
  have e := congrFun h ix0
  unfold Cert.Pre_finite_inputs.fn Cert.Pre_finite_inputs.fn_part1 at e
  obtain ⟨-, e29⟩ := IntOp.andi_eq_one.1 e
  unfold Cert.GatherSpec.Bounds
  intro n k
  -- the test at entry (0, n, k)
  have hm := Host.reduce_andi_all _ _ _ _ ix0 e29 (ix3 0 n k)
  obtain ⟨h11, h27⟩ := IntOp.andi_eq_one.1 hm
  -- c < 256
  have hlt : (c (ix3 0 n k)).toInt < (256#32 : BitVec 32).toInt := IntOp.cmpi_slt.1 h27
  have t256 : (256#32 : BitVec 32).toInt = 256 := by decide
  rw [t256] at hlt
  refine ⟨?_, hlt⟩
  -- the lower bound: c ≥ 0, or the column is 0 or 3 and c ≥ -2
  rcases IntOp.ori_eq_one.1 h11 with h7 | h10
  · have hge : (0#32 : BitVec 32).toInt ≤ (c (ix3 0 n k)).toInt := IntOp.cmpi_sge.1 h7
    have t0 : (0#32 : BitVec 32).toInt = 0 := by decide
    rw [t0] at hge
    unfold Cert.GatherSpec.lo
    split <;> omega
  · obtain ⟨h5, h9⟩ := IntOp.andi_eq_one.1 h10
    have hge : (4294967294#32 : BitVec 32).toInt ≤ (c (ix3 0 n k)).toInt := IntOp.cmpi_sge.1 h9
    have t2 : (4294967294#32 : BitVec 32).toInt = -2 := by decide
    rw [t2] at hge
    have hk : k.val = 0 ∨ k.val = 3 := by
      rcases IntOp.ori_eq_one.1 h5 with h2 | h4
      · exact Or.inl (col_of_word k 0 (by omega) (IntOp.cmpi_eq.1 h2))
      · exact Or.inr (col_of_word k 3 (by omega) (IntOp.cmpi_eq.1 h4))
    unfold Cert.GatherSpec.lo
    rw [if_pos hk]
    exact hge

end Cert.PreDecode

end
-- ==== Proof.LibGatherRows2.lean ====
/-
  A gather of whole rows out of a stack of tables, read at an index, for any extents.
  The operand is a stack of M tables, each of N rows of width D; every result row r carries TWO start indices, the
  table and the row inside it, and both leading axes are collapsed: result (r, j) is the operand's entry
  (idx (r, 0), idx (r, 1), j), each start index read signed and clamped into its axis: the indexing x[a, b] of a
  rank-3 array x at two integer vectors a, b, as a gather.
-/
import Idealize.ShloMosaic.PureOps
import Idealize.ShloMosaic.Lib.ValueIdx

noncomputable section

namespace Cert.LibGatherRows2

open Idealize.ShloMosaic Idealize.ShloMosaic.ValueIdx

variable {α : Type}

/-- Axis 2 of a rank-3 operand is not among the axes [0, 1]. -/
private theorem two_notMem : (2 : Fin 3) ∉ ([0, 1] : List (Fin 3)) := by decide
/-- Axis 0 is among the axes [0, 1]. -/
private theorem zero_mem : (0 : Fin 3) ∈ ([0, 1] : List (Fin 3)) := by decide
/-- Axis 1 is among the axes [0, 1]. -/
private theorem one_mem : (1 : Fin 3) ∈ ([0, 1] : List (Fin 3)) := by decide

/-- The dimension numbers of x[a, b]: operand M x N x D, start indices R x 2, result R x D; the two leading axes are
    collapsed and indexed (component 0 of a start index names the table, component 1 the row), the last axis is the
    offset axis, whole rows are sliced. -/
abbrev pairTakeDims (M N D R : Nat)
    (wf : GatherDims.WF ⟨3, ![M, N, D]⟩ ⟨2, ![R, 2]⟩ ⟨2, ![R, D]⟩ [1] [0, 1] [] [0, 1] [] 1 ![1, 1, D]) :
    GatherDims ⟨3, ![M, N, D]⟩ ⟨2, ![R, 2]⟩ ⟨2, ![R, D]⟩ where
  offsetDims := [1]
  collapsedSliceDims := [0, 1]
  operandBatchingDims := []
  startIndicesBatchingDims := []
  startIndexMap := [0, 1]
  indexVectorDim := 1
  sliceSizes := ![1, 1, D]
  wf := wf

/-- The gathered rows read at (r, j): the operand at the two clamped start indices of result row r, column j. -/
theorem gather_pair_apply {M N D R w : Nat} (hM : 0 < M) (hN : 0 < N)
    (wf : GatherDims.WF ⟨3, ![M, N, D]⟩ ⟨2, ![R, 2]⟩ ⟨2, ![R, D]⟩ [1] [0, 1] [] [0, 1] [] 1 ![1, 1, D])
    (x : (⟨3, ![M, N, D]⟩ : Shape).Idx → α) (idx : IVec ⟨2, ![R, 2]⟩ w) (r : Fin R) (j : Fin D) :
    Host.gather (pairTakeDims M N D R wf) x idx (ix2 r j)
      = x (ix3 (⟨min (idx (ix2 r (0 : Fin 2))).toInt.toNat (M - 1), by omega⟩ : Fin M)
            (⟨min (idx (ix2 r (1 : Fin 2))).toInt.toNat (N - 1), by omega⟩ : Fin N) j) := by
  -- the gather reads the operand at its operand index; on each axis that index is
  -- (clamped start) + (batching coordinate) + (offset coordinate): compare axis by axis, as numbers
  unfold Host.gather
  congr 1
  funext a
  refine Fin.ext ?_
  match a with
  | ⟨0, _⟩ =>
    -- axis 0, the tables: collapsed and indexed by component 0. No batching axes and no offset on a collapsed axis
    show (pairTakeDims M N D R wf).start (ix2 r j) idx 0 + (pairTakeDims M N D R wf).batchCoord (ix2 r j) 0
      + (pairTakeDims M N D R wf).offCoord (ix2 r j) 0 = _
    rw [GatherDims.batchCoord_eq_zero _ _ _ List.not_mem_nil,
      GatherDims.offCoord_eq_zero _ _ _ (fun h => ((GatherDims.mem_sKept _ _).mp h).1 zero_mem)]
    simp only [Nat.add_zero]
    unfold GatherDims.start
    rw [dif_pos (show (0 : Fin 3) ∈ (pairTakeDims M N D R wf).startIndexMap from zero_mem)]
    have hsi : (pairTakeDims M N D R wf).siIdx (ix2 r j) ⟨List.idxOf (0 : Fin 3) (pairTakeDims M N D R wf).startIndexMap,
        List.idxOf_lt_length_iff.2 zero_mem⟩ = ix2 r (0 : Fin 2) := by
      funext b; refine Fin.ext ?_
      match b with
      | ⟨0, _⟩ => rfl
      | ⟨1, _⟩ => rfl
    rw [hsi]
    rfl
  | ⟨1, _⟩ =>
    -- axis 1, the rows of a table: collapsed and indexed by component 1
    show (pairTakeDims M N D R wf).start (ix2 r j) idx 1 + (pairTakeDims M N D R wf).batchCoord (ix2 r j) 1
      + (pairTakeDims M N D R wf).offCoord (ix2 r j) 1 = _
    rw [GatherDims.batchCoord_eq_zero _ _ _ List.not_mem_nil,
      GatherDims.offCoord_eq_zero _ _ _ (fun h => ((GatherDims.mem_sKept _ _).mp h).1 one_mem)]
    simp only [Nat.add_zero]
    unfold GatherDims.start
    rw [dif_pos (show (1 : Fin 3) ∈ (pairTakeDims M N D R wf).startIndexMap from one_mem)]
    have hsi : (pairTakeDims M N D R wf).siIdx (ix2 r j) ⟨List.idxOf (1 : Fin 3) (pairTakeDims M N D R wf).startIndexMap,
        List.idxOf_lt_length_iff.2 one_mem⟩ = ix2 r (1 : Fin 2) := by
      funext b; refine Fin.ext ?_
      match b with
      | ⟨0, _⟩ => rfl
      | ⟨1, _⟩ => rfl
    rw [hsi]
    rfl
  | ⟨2, _⟩ =>
    -- axis 2, the columns: the offset axis. Not in the start index map, so the start is 0; no batching axes; it is
    -- the only kept operand axis, paired with the result's offset axis 1, whose coordinate is j
    show (pairTakeDims M N D R wf).start (ix2 r j) idx 2 + (pairTakeDims M N D R wf).batchCoord (ix2 r j) 2
      + (pairTakeDims M N D R wf).offCoord (ix2 r j) 2 = j.val
    rw [GatherDims.batchCoord_eq_zero _ _ _ List.not_mem_nil]
    unfold GatherDims.start
    rw [dif_neg (show (2 : Fin 3) ∉ (pairTakeDims M N D R wf).startIndexMap from two_notMem)]
    unfold GatherDims.offCoord
    rw [dif_pos (show (2 : Fin 3) ∈ (pairTakeDims M N D R wf).sKept from
      (GatherDims.mem_sKept _ _).mpr ⟨two_notMem, List.not_mem_nil⟩)]
    simp only [Nat.zero_add]
    rfl

end Cert.LibGatherRows2

end
-- ==== Proof.RefValue.lean ====
/-
  The reference program computes the specification.
  The reference gathers, for each position n, six rows of width 512 out of two stacks of tables and lays them end to
  end with the ten numeric features of n. Each gather carries two start indices per position, the position itself
  and a table row read off one column of the candidates (shifted by two for the second stack); before the gather
  each start index is wrapped as a negative index would be (v < 0 selects v + extent), and the gather clamps it into
  its axis. On the domain `Bounds` no wrap fires, the shift by two does not overflow, and the clamp is the one the
  specification's `rowB` / `rowA` spell: entry by entry the reference's result is `G`.
  Read from the outside in: the result adds a unit axis to a seven-piece concatenation (`concat7_apply`), each of
  whose first six pieces is a gather (`gather_at`, over the general `gather_pair_apply`) at two start indices read
  out of a two-piece concatenation (`concat2_left` / `concat2_right`) of the wrapped position and the wrapped column.
-/
import proofs.«402364_j79723182948737_2_alg».proof.Proof.Gen.ReferenceIdeal.Read
import proofs.«402364_j79723182948737_2_alg».proof.Proof.Spec
import proofs.«402364_j79723182948737_2_alg».proof.Proof.LibGatherRows2
import Idealize.ShloMosaic.Lib.ValueIdx
import Idealize.ShloMosaic.Lib.Pipeline.Value

noncomputable section

namespace Cert.RefValue

open Idealize.ShloMosaic Idealize.ShloMosaic.ValueIdx Idealize.ShloMosaic.TcCoe Idealize.SL.Sem
open Cert.ReferenceIdeal Cert.GatherSpec Cert.LibGatherRows2

/-! ## Words -/

/-- A position below 1000 written as a 32-bit word reads back, signed, as itself. -/
theorem toInt_ofNat_small (n : Nat) (h : n < 1000) : (BitVec.ofNat 32 n).toInt = (n : Int) := by
  rw [BitVec.toInt_eq_toNat_cond, BitVec.toNat_ofNat]; split <;> omega

/-- The wrap of a negative index, select (v < 0) (v + k) v, leaves a word that is not negative alone. -/
theorem wrap_nonneg (v k : BitVec 32) (h : 0 ≤ v.toInt) :
    Scalar.select (IntOp.cmpi .slt v 0#32) (IntOp.addi v k) v = v := by
  have hc : IntOp.cmpi .slt v 0#32 = 0#1 := by
    have hs : v.slt 0#32 = false := by
      rw [Bool.eq_false_iff]; intro hlt
      rw [BitVec.slt_iff_toInt_lt] at hlt
      have : (0#32 : BitVec 32).toInt = 0 := by decide
      omega
    show BitVec.ofBool (v.slt 0#32) = 0#1
    rw [hs]; rfl
  rw [hc, select_zero]

/-- Adding two to a word whose signed value lies in [-2, 256) adds two to its signed value: no overflow. -/
theorem toInt_add_two (v : BitVec 32) (h0 : -2 ≤ v.toInt) (h1 : v.toInt < 256) : (IntOp.addi v 2#32).toInt = v.toInt + 2 := by
  show (v + 2#32).toInt = v.toInt + 2
  rw [BitVec.toInt_add]
  have : (2#32 : BitVec 32).toInt = 2 := by decide
  rw [this, Int.bmod_def]
  norm_num
  split <;> omega

/-! ## Concatenations read at an index -/

section Concat
variable {α : Type}

/-- The two-piece concatenation of unit columns at (n, 0): the first piece at (n, 0). -/
theorem concat2_left (y0 y1 : (⟨2, ![1000, 1]⟩ : Shape).Idx → α)
    (h : Shape.Concatenates [(⟨2, ![1000, 1]⟩ : Shape), ⟨2, ![1000, 1]⟩] ⟨2, ![1000, 2]⟩ 1) (n : Fin 1000) :
    concatenate (⟨2, ![1000, 2]⟩ : Shape) 1 [⟨⟨2, ![1000, 1]⟩, y0⟩, ⟨⟨2, ![1000, 1]⟩, y1⟩] h (ix2 n (0 : Fin 2))
      = y0 (ix2 n (0 : Fin 1)) :=
  concatenate_pair_apply_left 1 y0 y1 h (ix2 n (0 : Fin 2)) rfl (ix2 n (0 : Fin 1))
    (fun b => by match b with | ⟨0, _⟩ => rfl | ⟨1, _⟩ => rfl)

/-- The two-piece concatenation of unit columns at (n, 1): the second piece at (n, 0). -/
theorem concat2_right (y0 y1 : (⟨2, ![1000, 1]⟩ : Shape).Idx → α)
    (h : Shape.Concatenates [(⟨2, ![1000, 1]⟩ : Shape), ⟨2, ![1000, 1]⟩] ⟨2, ![1000, 2]⟩ 1) (n : Fin 1000) :
    concatenate (⟨2, ![1000, 2]⟩ : Shape) 1 [⟨⟨2, ![1000, 1]⟩, y0⟩, ⟨⟨2, ![1000, 1]⟩, y1⟩] h (ix2 n (1 : Fin 2))
      = y1 (ix2 n (0 : Fin 1)) :=
  concatenate_pair_apply_right 1 y0 y1 h (ix2 n (1 : Fin 2)) rfl rfl (ix2 n (0 : Fin 1))
    (fun b hb => by match b with | ⟨0, _⟩ => rfl | ⟨1, _⟩ => exact absurd rfl hb) rfl

/-- A piece of width 512. -/
abbrev W : Shape := ⟨2, ![1000, 512]⟩
/-- The tail piece, of width 10. -/
abbrev T : Shape := ⟨2, ![1000, 10]⟩
/-- The joined row, of width 3082 = 6 * 512 + 10. -/
abbrev O : Shape := ⟨2, ![1000, 3082]⟩

/-- The seven-piece concatenation along the columns, at (n, j): the piece whose span holds j, at j less the widths
    before it. -/
theorem concat7_apply (y0 y1 y2 y3 y4 y5 : W.Idx → α) (y6 : T.Idx → α)
    (h : Shape.Concatenates [W, W, W, W, W, W, T] O 1) (n : Fin 1000) (j : Fin 3082) :
    concatenate O 1 [⟨W, y0⟩, ⟨W, y1⟩, ⟨W, y2⟩, ⟨W, y3⟩, ⟨W, y4⟩, ⟨W, y5⟩, ⟨T, y6⟩] h (ix2 n j)
      = if h0 : j.val < 512 then y0 (ix2 n ⟨j.val, h0⟩)
        else if h1 : j.val < 1024 then y1 (ix2 n ⟨j.val - 512, by omega⟩)
        else if h2 : j.val < 1536 then y2 (ix2 n ⟨j.val - 1024, by omega⟩)
        else if h3 : j.val < 2048 then y3 (ix2 n ⟨j.val - 1536, by omega⟩)
        else if h4 : j.val < 2560 then y4 (ix2 n ⟨j.val - 2048, by omega⟩)
        else if h5 : j.val < 3072 then y5 (ix2 n ⟨j.val - 2560, by omega⟩)
        else y6 (ix2 n ⟨j.val - 3072, by have := j.isLt; omega⟩) := by
  have hW : ∀ i : W.Idx, (i 0).val = n.val → ∀ b : Fin W.rank, b.cast (rfl : W.rank = O.rank) ≠ (1 : Fin O.rank) →
      (i b).val = ((ix2 n j : O.Idx) (b.cast rfl)).val := by
    intro i h0 b hb
    match b with
    | ⟨0, _⟩ => exact h0
    | ⟨1, _⟩ => exact absurd rfl hb
  have hT : ∀ i : T.Idx, (i 0).val = n.val → ∀ b : Fin T.rank, b.cast (rfl : T.rank = O.rank) ≠ (1 : Fin O.rank) →
      (i b).val = ((ix2 n j : O.Idx) (b.cast rfl)).val := by
    intro i h0 b hb
    match b with
    | ⟨0, _⟩ => exact h0
    | ⟨1, _⟩ => exact absurd rfl hb
  have P := @concatenate_apply_piece α O 1 [⟨W, y0⟩, ⟨W, y1⟩, ⟨W, y2⟩, ⟨W, y3⟩, ⟨W, y4⟩, ⟨W, y5⟩, ⟨T, y6⟩] h (ix2 n j)
  by_cases h0 : j.val < 512
  · rw [dif_pos h0]
    exact P 0 (by show 0 < 7; omega) W y0 rfl rfl 0 rfl (ix2 n ⟨j.val, h0⟩)
      (hW _ rfl) (by show 0 + j.val = j.val; omega)
  rw [dif_neg h0]
  by_cases h1 : j.val < 1024
  · rw [dif_pos h1]
    exact P 1 (by show 1 < 7; omega) W y1 rfl rfl 512 rfl (ix2 n ⟨j.val - 512, by omega⟩)
      (hW _ rfl) (by show 512 + (j.val - 512) = j.val; omega)
  rw [dif_neg h1]
  by_cases h2 : j.val < 1536
  · rw [dif_pos h2]
    exact P 2 (by show 2 < 7; omega) W y2 rfl rfl 1024 rfl (ix2 n ⟨j.val - 1024, by omega⟩)
      (hW _ rfl) (by show 1024 + (j.val - 1024) = j.val; omega)
  rw [dif_neg h2]
  by_cases h3 : j.val < 2048
  · rw [dif_pos h3]
    exact P 3 (by show 3 < 7; omega) W y3 rfl rfl 1536 rfl (ix2 n ⟨j.val - 1536, by omega⟩)
      (hW _ rfl) (by show 1536 + (j.val - 1536) = j.val; omega)
  rw [dif_neg h3]
  by_cases h4 : j.val < 2560
  · rw [dif_pos h4]
    exact P 4 (by show 4 < 7; omega) W y4 rfl rfl 2048 rfl (ix2 n ⟨j.val - 2048, by omega⟩)
      (hW _ rfl) (by show 2048 + (j.val - 2048) = j.val; omega)
  rw [dif_neg h4]
  by_cases h5 : j.val < 3072
  · rw [dif_pos h5]
    exact P 5 (by show 5 < 7; omega) W y5 rfl rfl 2560 rfl (ix2 n ⟨j.val - 2560, by omega⟩)
      (hW _ rfl) (by show 2560 + (j.val - 2560) = j.val; omega)
  rw [dif_neg h5]
  exact P 6 (by show 6 < 7; omega) T y6 rfl rfl 3072 rfl
    (ix2 n ⟨j.val - 3072, by have := j.isLt; omega⟩)
    (hT _ rfl) (by show 3072 + (j.val - 3072) = j.val; omega)

end Concat

/-! ## One gather -/

section Gather
variable {α : Type}

/-- A gather of rows out of a stack of 1000 tables of N rows, at (n, j), when component 0 of position n's start index is
    n itself and component 1 is the word v: table n, row v read signed and clamped, column j. -/
theorem gather_at {N : Nat} (hN : 0 < N)
    (wf : GatherDims.WF ⟨3, ![1000, N, 512]⟩ ⟨2, ![1000, 2]⟩ ⟨2, ![1000, 512]⟩ [1] [0, 1] [] [0, 1] [] 1 ![1, 1, 512])
    (x : (⟨3, ![1000, N, 512]⟩ : Shape).Idx → α) (idx : IVec ⟨2, ![1000, 2]⟩ 32)
    (n : Fin 1000) (j : Fin 512) (v : BitVec 32)
    (h0 : idx (ix2 n (0 : Fin 2)) = BitVec.ofNat 32 n.val) (h1 : idx (ix2 n (1 : Fin 2)) = v) :
    Host.gather (pairTakeDims 1000 N 512 1000 wf) x idx (ix2 n j)
      = x (ix3 n (⟨min v.toInt.toNat (N - 1), by omega⟩ : Fin N) j) := by
  rw [gather_pair_apply (by decide) hN]
  congr 1
  funext a
  match a with
  | ⟨0, _⟩ =>
    refine Fin.ext ?_
    show min (idx (ix2 n (0 : Fin 2))).toInt.toNat (1000 - 1) = n.val
    rw [h0, toInt_ofNat_small _ n.isLt]
    have := n.isLt
    omega
  | ⟨1, _⟩ =>
    refine Fin.ext ?_
    show min (idx (ix2 n (1 : Fin 2))).toInt.toNat (N - 1) = min v.toInt.toNat (N - 1)
    rw [h1]
  | ⟨2, _⟩ => rfl

end Gather

/-! ## The specification at an index given by its coordinates -/

/-- `G` at (a, n, j): which segment column j falls in decides the table, the row and the column read. -/
theorem G_apply {α : Type} (c : IVec SCand 32) (num : SNum.Idx → α) (blo : SBlo.Idx → α) (att : SAtt.Idx → α)
    (a : Fin 1) (n : Fin 1000) (j : Fin 3082) :
    G c num blo att (ix3 a n j)
      = if h0 : j.val < 512 then blo (ix4 (0 : Fin 1) n (rowB c n 1) ⟨j.val, h0⟩)
        else if h1 : j.val < 1024 then blo (ix4 (0 : Fin 1) n (rowB c n 2) ⟨j.val - 512, by omega⟩)
        else if h2 : j.val < 1536 then blo (ix4 (0 : Fin 1) n (rowB c n 4) ⟨j.val - 1024, by omega⟩)
        else if h3 : j.val < 2048 then blo (ix4 (0 : Fin 1) n (rowB c n 5) ⟨j.val - 1536, by omega⟩)
        else if h4 : j.val < 2560 then att (ix4 (0 : Fin 1) n (rowA c n 0) ⟨j.val - 2048, by omega⟩)
        else if h5 : j.val < 3072 then att (ix4 (0 : Fin 1) n (rowA c n 3) ⟨j.val - 2560, by omega⟩)
        else num (ix3 (0 : Fin 1) n ⟨j.val - 3072, by have := j.isLt; omega⟩) := rfl

/-! ## The reference's operations below the gathers, read at an index -/

variable {F : FTy → Type} [FloatOps F]

/-- Every operation of the reference that reads one element of each operand, at an index: the slices, reshapes,
    broadcasts, constants, comparisons, sums and selects that make the start indices. -/
local macro "read_ops" : tactic => `(tactic| simp only [
  Read.val_main_v0_apply, Read.val_main_v4_apply, Read.val_main_v5_apply, Read.val_main_v6_apply,
  Read.val_main_v7_apply, Read.val_main_v8_apply, Read.val_main_v9_apply, Read.val_main_v10_apply,
  Read.val_main_v11_apply, Read.val_main_v12_apply, Read.val_main_v13_apply, Read.val_main_v14_apply,
  Read.val_main_v15_apply, Read.val_main_v16_apply, Read.val_main_v17_apply, Read.val_main_v18_apply,
  Read.val_main_v21_apply, Read.val_main_v22_apply, Read.val_main_v23_apply, Read.val_main_v24_apply,
  Read.val_main_v25_apply, Read.val_main_v26_apply, Read.val_main_v27_apply, Read.val_main_v28_apply,
  Read.val_main_v29_apply, Read.val_main_v30_apply, Read.val_main_v31_apply, Read.val_main_v32_apply,
  Read.val_main_v33_apply, Read.val_main_v34_apply, Read.val_main_v37_apply, Read.val_main_v38_apply,
  Read.val_main_v39_apply, Read.val_main_v40_apply, Read.val_main_v41_apply, Read.val_main_v42_apply,
  Read.val_main_v43_apply, Read.val_main_v44_apply, Read.val_main_v45_apply, Read.val_main_v46_apply,
  Read.val_main_v47_apply, Read.val_main_v48_apply, Read.val_main_v49_apply, Read.val_main_v50_apply,
  Read.val_main_v53_apply, Read.val_main_v54_apply, Read.val_main_v55_apply, Read.val_main_v56_apply,
  Read.val_main_v57_apply, Read.val_main_v58_apply, Read.val_main_v59_apply, Read.val_main_v60_apply,
  Read.val_main_v61_apply, Read.val_main_v62_apply, Read.val_main_v63_apply, Read.val_main_v64_apply,
  Read.val_main_v65_apply, Read.val_main_v66_apply, Read.val_main_v69_apply, Read.val_main_v70_apply,
  Read.val_main_v71_apply, Read.val_main_v72_apply, Read.val_main_v73_apply, Read.val_main_v74_apply,
  Read.val_main_v75_apply, Read.val_main_v76_apply, Read.val_main_v77_apply, Read.val_main_v78_apply,
  Read.val_main_v79_apply, Read.val_main_v80_apply, Read.val_main_v81_apply, Read.val_main_v82_apply,
  Read.val_main_v83_apply, Read.val_main_v84_apply, Read.val_main_v87_apply, Read.val_main_v88_apply,
  Read.val_main_v89_apply, Read.val_main_v90_apply, Read.val_main_v91_apply, Read.val_main_v92_apply,
  Read.val_main_v93_apply, Read.val_main_v94_apply, Read.val_main_v95_apply, Read.val_main_v96_apply,
  Read.val_main_v97_apply, Read.val_main_v98_apply, Read.val_main_v99_apply, Read.val_main_v100_apply,
  Read.val_main_v101_apply, Read.val_main_v102_apply, Read.val_main_c_apply, Read.val_main_c_0_apply,
  Read.val_main_c_1_apply, Read.val_main_c_2_apply, Read.val_main_c_3_apply, Read.val_main_c_4_apply,
  Read.val_main_c_5_apply, Read.val_main_c_6_apply, Read.val_main_c_7_apply, Read.val_main_c_8_apply,
  Read.val_main_c_9_apply, Read.val_main_c_10_apply, Read.val_main_c_11_apply, Read.val_main_c_12_apply,
  Read.val_main_c_13_apply, Read.val_main_c_14_apply, Read.val_main_c_15_apply, Read.val_main_c_16_apply,
  Read.val_main_c_17_apply, Read.val_main_c_18_apply, Read.val_main_c_19_apply, Read.val_main_c_20_apply,
  Read.val_main_c_21_apply, Read.val_main_c_22_apply, Read.val_main_c_23_apply, Read.val_main_c_24_apply])

/-- The row-major reshape of the first stack [1, 1000, 256, 512] to [1000, 256, 512] reads (n, r, j) at (0, n, r, j). -/
theorem tab_idxB (n : Fin 1000) (r : Fin 256) (j : Fin 512) :
    Read.idx_main_v2 (ix3 n r j) = ix4 (0 : Fin 1) n r j := by
  have hn := n.isLt; have hr := r.isLt; have hj := j.isLt
  funext a
  match a with
  | ⟨0, _⟩ => rfl
  | ⟨1, _⟩ => exact Fin.ext (by show ((n.val * 256 + r.val) * 512 + j.val) / 131072 % 1000 = n.val; omega)
  | ⟨2, _⟩ => exact Fin.ext (by show ((n.val * 256 + r.val) * 512 + j.val) / 512 % 256 = r.val; omega)
  | ⟨3, _⟩ => exact Fin.ext (by show ((n.val * 256 + r.val) * 512 + j.val) % 512 = j.val; omega)

/-- The row-major reshape of the second stack [1, 1000, 258, 512] to [1000, 258, 512] reads (n, r, j) at (0, n, r, j). -/
theorem tab_idxA (n : Fin 1000) (r : Fin 258) (j : Fin 512) :
    Read.idx_main_v3 (ix3 n r j) = ix4 (0 : Fin 1) n r j := by
  have hn := n.isLt; have hr := r.isLt; have hj := j.isLt
  funext a
  match a with
  | ⟨0, _⟩ => rfl
  | ⟨1, _⟩ => exact Fin.ext (by show ((n.val * 258 + r.val) * 512 + j.val) / 132096 % 1000 = n.val; omega)
  | ⟨2, _⟩ => exact Fin.ext (by show ((n.val * 258 + r.val) * 512 + j.val) / 512 % 258 = r.val; omega)
  | ⟨3, _⟩ => exact Fin.ext (by show ((n.val * 258 + r.val) * 512 + j.val) % 512 = j.val; omega)

/-- The row-major reshape of the numeric features [1, 1000, 10] to [1000, 10] reads (n, j) at (0, n, j). -/
theorem num_idx (n : Fin 1000) (j : Fin 10) : Read.idx_main_v1 (ix2 n j) = ix3 (0 : Fin 1) n j := by
  have hn := n.isLt; have hj := j.isLt
  funext a
  match a with
  | ⟨0, _⟩ => rfl
  | ⟨1, _⟩ => exact Fin.ext (by show (n.val * 10 + j.val) / 10 % 1000 = n.val; omega)
  | ⟨2, _⟩ => exact Fin.ext (by show (n.val * 10 + j.val) % 10 = j.val; omega)

/-! ## The start indices of a gather, and a gather, for any column

Component 0 of position n's start index is the wrapped iota, component 1 the wrapped column (for the second stack the
column plus two, wrapped). The lemmas here are stated once, for any column k and any array of start indices; the six
gathers of the reference instantiate them below. -/

/-- The wrapped position is the position: it is not negative. -/
theorem wrapped_pos (n : Fin 1000) :
    Scalar.select (IntOp.cmpi .slt (BitVec.ofNat 32 n.val) 0#32) (IntOp.addi (BitVec.ofNat 32 n.val) 1000#32)
      (BitVec.ofNat 32 n.val) = BitVec.ofNat 32 n.val :=
  wrap_nonneg _ _ (by rw [toInt_ofNat_small _ n.isLt]; omega)

/-- A column whose values `Bounds` keeps at or above 0, read at the index i = (0, n, k) and wrapped, is the column. -/
theorem wrapped_col (c : IVec SCand 32) (hB : Bounds c) (n : Fin 1000) (k : Fin 6) (hk : lo k = 0) (i : SCand.Idx)
    (hi : i = ix3 (0 : Fin 1) n k) (e : BitVec 32) :
    Scalar.select (IntOp.cmpi .slt (c i) 0#32) (IntOp.addi (c i) e) (c i) = c (ix3 (0 : Fin 1) n k) := by
  subst hi
  have h := (hB n k).1
  rw [hk] at h
  exact wrap_nonneg _ _ h

/-- A column whose values `Bounds` keeps at or above -2, read at the index i = (0, n, k), shifted by two and wrapped,
    is the column shifted by two: the shifted value is not negative. -/
theorem wrapped_col_shifted (c : IVec SCand 32) (hB : Bounds c) (n : Fin 1000) (k : Fin 6) (hk : lo k = -2)
    (i : SCand.Idx) (hi : i = ix3 (0 : Fin 1) n k) (e : BitVec 32) :
    Scalar.select (IntOp.cmpi .slt (IntOp.addi (c i) 2#32) 0#32) (IntOp.addi (IntOp.addi (c i) 2#32) e)
      (IntOp.addi (c i) 2#32) = IntOp.addi (c (ix3 (0 : Fin 1) n k)) 2#32 := by
  subst hi
  have h := hB n k
  rw [hk] at h
  exact wrap_nonneg _ _ (by rw [toInt_add_two _ h.1 h.2]; omega)

/-- The row-major reshape of the candidates [1, 1000, 6] to [1000, 6] reads an index whose coordinates are n and k at
    (0, n, k). -/
theorem col_idx (k : Fin 6) (i : S1000x6.Idx) (n : Fin 1000) (h0 : (i 0).val = n.val / 1) (h1 : (i 1).val = k.val) :
    Read.idx_main_v0 i = ix3 (0 : Fin 1) n k := by
  have hn := n.isLt; have hk := k.isLt
  funext a
  match a with
  | ⟨0, _⟩ => rfl
  | ⟨1, _⟩ => exact Fin.ext (by show ((i 0).val * 6 + (i 1).val) / 6 % 1000 = n.val; rw [h0, h1]; omega)
  | ⟨2, _⟩ => exact Fin.ext (by show ((i 0).val * 6 + (i 1).val) % 6 = k.val; rw [h0, h1]; omega)

/-- A gather out of the first stack at start indices (n, column k of n), at (n, j): row `rowB c n k` of the table at
    n, column j. The gather's clamp into [0, 255] is the one `rowB` spells. -/
theorem segB (c : (⟨S1x1000x6, .i32⟩ : BufTy).Contents (Elt F))
    (x2 : (⟨S1x1000x256x512, .f32⟩ : BufTy).Contents (Elt F)) (vC : IVec S1000x2 32) (n : Fin 1000) (j : Fin 512)
    (k : Fin 6) (h0 : vC (ix2 n (0 : Fin 2)) = BitVec.ofNat 32 n.val)
    (h1 : vC (ix2 n (1 : Fin 2)) = c (ix3 (0 : Fin 1) n k)) :
    Host.gather gather_S1000x256x512_S1000x2_S1000x512_1_01_n_n_01_1_11512 (Read.val_main_v2 (F := F) x2) vC (ix2 n j)
      = x2 (ix4 (0 : Fin 1) n (rowB c n k) j) := by
  refine (gather_at (N := 256) (by decide) (gather_S1000x256x512_S1000x2_S1000x512_1_01_n_n_01_1_11512).wf
    (Read.val_main_v2 (F := F) x2) vC n j _ h0 h1).trans ?_
  rw [Read.val_main_v2_apply, tab_idxB]
  rfl

/-- A gather out of the second stack at start indices (n, column k of n plus two), at (n, j): row `rowA c n k` of the
    table at n, column j. On `Bounds` the sum does not overflow, and the gather's clamp into [0, 257] is `rowA`'s. -/
theorem segA (c : (⟨S1x1000x6, .i32⟩ : BufTy).Contents (Elt F))
    (x3 : (⟨S1x1000x258x512, .f32⟩ : BufTy).Contents (Elt F)) (hB : Bounds c) (vC : IVec S1000x2 32) (n : Fin 1000)
    (j : Fin 512) (k : Fin 6) (hk : lo k = -2) (h0 : vC (ix2 n (0 : Fin 2)) = BitVec.ofNat 32 n.val)
    (h1 : vC (ix2 n (1 : Fin 2)) = IntOp.addi (c (ix3 (0 : Fin 1) n k)) 2#32) :
    Host.gather gather_S1000x258x512_S1000x2_S1000x512_1_01_n_n_01_1_11512 (Read.val_main_v3 (F := F) x3) vC (ix2 n j)
      = x3 (ix4 (0 : Fin 1) n (rowA c n k) j) := by
  have hb := hB n k
  rw [hk] at hb
  refine (gather_at (N := 258) (by decide) (gather_S1000x258x512_S1000x2_S1000x512_1_01_n_n_01_1_11512).wf
    (Read.val_main_v3 (F := F) x3) vC n j _ h0 h1).trans ?_
  rw [Read.val_main_v3_apply, tab_idxA]
  congr 1
  funext a
  match a with
  | ⟨0, _⟩ => rfl
  | ⟨1, _⟩ => rfl
  | ⟨2, _⟩ =>
    refine Fin.ext ?_
    show min (IntOp.addi (c (ix3 (0 : Fin 1) n k)) 2#32).toInt.toNat (258 - 1)
      = min ((c (ix3 (0 : Fin 1) n k)).toInt + 2).toNat 257
    rw [toInt_add_two _ hb.1 hb.2]
  | ⟨3, _⟩ => rfl

/-! ## The six gathers of the reference -/

/-- The start indices of the gather by column 1. -/
theorem start19 (c : (⟨S1x1000x6, .i32⟩ : BufTy).Contents (Elt F)) (hB : Bounds c) (n : Fin 1000) :
    Read.val_main_v19 (F := F) c (ix2 n (0 : Fin 2)) = BitVec.ofNat 32 n.val
    ∧ Read.val_main_v19 (F := F) c (ix2 n (1 : Fin 2)) = c (ix3 (0 : Fin 1) n (1 : Fin 6)) := by
  constructor
  · unfold Read.val_main_v19
    rw [concat2_left]
    read_ops
    exact wrapped_pos n
  · unfold Read.val_main_v19
    rw [concat2_right]
    read_ops
    refine wrapped_col c hB n 1 rfl _ ?_ _
    exact col_idx 1 _ n rfl rfl

/-- The gather by column 1, at (n, j). -/
theorem seg20 (c : (⟨S1x1000x6, .i32⟩ : BufTy).Contents (Elt F))
    (x2 : (⟨S1x1000x256x512, .f32⟩ : BufTy).Contents (Elt F)) (hB : Bounds c) (n : Fin 1000) (j : Fin 512) :
    Read.val_main_v20 (F := F) c x2 (ix2 n j) = x2 (ix4 (0 : Fin 1) n (rowB c n 1) j) := by
  unfold Read.val_main_v20
  exact segB c x2 _ n j 1 (start19 c hB n).1 (start19 c hB n).2

/-- The start indices of the gather by column 2. -/
theorem start35 (c : (⟨S1x1000x6, .i32⟩ : BufTy).Contents (Elt F)) (hB : Bounds c) (n : Fin 1000) :
    Read.val_main_v35 (F := F) c (ix2 n (0 : Fin 2)) = BitVec.ofNat 32 n.val
    ∧ Read.val_main_v35 (F := F) c (ix2 n (1 : Fin 2)) = c (ix3 (0 : Fin 1) n (2 : Fin 6)) := by
  constructor
  · unfold Read.val_main_v35
    rw [concat2_left]
    read_ops
    exact wrapped_pos n
  · unfold Read.val_main_v35
    rw [concat2_right]
    read_ops
    refine wrapped_col c hB n 2 rfl _ ?_ _
    exact col_idx 2 _ n rfl rfl

/-- The gather by column 2, at (n, j). -/
theorem seg36 (c : (⟨S1x1000x6, .i32⟩ : BufTy).Contents (Elt F))
    (x2 : (⟨S1x1000x256x512, .f32⟩ : BufTy).Contents (Elt F)) (hB : Bounds c) (n : Fin 1000) (j : Fin 512) :
    Read.val_main_v36 (F := F) c x2 (ix2 n j) = x2 (ix4 (0 : Fin 1) n (rowB c n 2) j) := by
  unfold Read.val_main_v36
  exact segB c x2 _ n j 2 (start35 c hB n).1 (start35 c hB n).2

/-- The start indices of the gather by column 4. -/
theorem start51 (c : (⟨S1x1000x6, .i32⟩ : BufTy).Contents (Elt F)) (hB : Bounds c) (n : Fin 1000) :
    Read.val_main_v51 (F := F) c (ix2 n (0 : Fin 2)) = BitVec.ofNat 32 n.val
    ∧ Read.val_main_v51 (F := F) c (ix2 n (1 : Fin 2)) = c (ix3 (0 : Fin 1) n (4 : Fin 6)) := by
  constructor
  · unfold Read.val_main_v51
    rw [concat2_left]
    read_ops
    exact wrapped_pos n
  · unfold Read.val_main_v51
    rw [concat2_right]
    read_ops
    refine wrapped_col c hB n 4 rfl _ ?_ _
    exact col_idx 4 _ n rfl rfl

/-- The gather by column 4, at (n, j). -/
theorem seg52 (c : (⟨S1x1000x6, .i32⟩ : BufTy).Contents (Elt F))
    (x2 : (⟨S1x1000x256x512, .f32⟩ : BufTy).Contents (Elt F)) (hB : Bounds c) (n : Fin 1000) (j : Fin 512) :
    Read.val_main_v52 (F := F) c x2 (ix2 n j) = x2 (ix4 (0 : Fin 1) n (rowB c n 4) j) := by
  unfold Read.val_main_v52
  exact segB c x2 _ n j 4 (start51 c hB n).1 (start51 c hB n).2

/-- The start indices of the gather by column 5. -/
theorem start67 (c : (⟨S1x1000x6, .i32⟩ : BufTy).Contents (Elt F)) (hB : Bounds c) (n : Fin 1000) :
    Read.val_main_v67 (F := F) c (ix2 n (0 : Fin 2)) = BitVec.ofNat 32 n.val
    ∧ Read.val_main_v67 (F := F) c (ix2 n (1 : Fin 2)) = c (ix3 (0 : Fin 1) n (5 : Fin 6)) := by
  constructor
  · unfold Read.val_main_v67
    rw [concat2_left]
    read_ops
    exact wrapped_pos n
  · unfold Read.val_main_v67
    rw [concat2_right]
    read_ops
    refine wrapped_col c hB n 5 rfl _ ?_ _
    exact col_idx 5 _ n rfl rfl

/-- The gather by column 5, at (n, j). -/
theorem seg68 (c : (⟨S1x1000x6, .i32⟩ : BufTy).Contents (Elt F))
    (x2 : (⟨S1x1000x256x512, .f32⟩ : BufTy).Contents (Elt F)) (hB : Bounds c) (n : Fin 1000) (j : Fin 512) :
    Read.val_main_v68 (F := F) c x2 (ix2 n j) = x2 (ix4 (0 : Fin 1) n (rowB c n 5) j) := by
  unfold Read.val_main_v68
  exact segB c x2 _ n j 5 (start67 c hB n).1 (start67 c hB n).2

/-- The start indices of the gather by column 0, shifted by two. -/
theorem start85 (c : (⟨S1x1000x6, .i32⟩ : BufTy).Contents (Elt F)) (hB : Bounds c) (n : Fin 1000) :
    Read.val_main_v85 (F := F) c (ix2 n (0 : Fin 2)) = BitVec.ofNat 32 n.val
    ∧ Read.val_main_v85 (F := F) c (ix2 n (1 : Fin 2))
        = IntOp.addi (c (ix3 (0 : Fin 1) n (0 : Fin 6))) 2#32 := by
  constructor
  · unfold Read.val_main_v85
    rw [concat2_left]
    read_ops
    exact wrapped_pos n
  · unfold Read.val_main_v85
    rw [concat2_right]
    read_ops
    refine wrapped_col_shifted c hB n 0 rfl _ ?_ _
    exact col_idx 0 _ n rfl rfl

/-- The gather by column 0, shifted by two, at (n, j). -/
theorem seg86 (c : (⟨S1x1000x6, .i32⟩ : BufTy).Contents (Elt F))
    (x3 : (⟨S1x1000x258x512, .f32⟩ : BufTy).Contents (Elt F)) (hB : Bounds c) (n : Fin 1000) (j : Fin 512) :
    Read.val_main_v86 (F := F) c x3 (ix2 n j) = x3 (ix4 (0 : Fin 1) n (rowA c n 0) j) := by
  unfold Read.val_main_v86
  exact segA c x3 hB _ n j 0 rfl (start85 c hB n).1 (start85 c hB n).2

/-- The start indices of the gather by column 3, shifted by two. -/
theorem start103 (c : (⟨S1x1000x6, .i32⟩ : BufTy).Contents (Elt F)) (hB : Bounds c) (n : Fin 1000) :
    Read.val_main_v103 (F := F) c (ix2 n (0 : Fin 2)) = BitVec.ofNat 32 n.val
    ∧ Read.val_main_v103 (F := F) c (ix2 n (1 : Fin 2))
        = IntOp.addi (c (ix3 (0 : Fin 1) n (3 : Fin 6))) 2#32 := by
  constructor
  · unfold Read.val_main_v103
    rw [concat2_left]
    read_ops
    exact wrapped_pos n
  · unfold Read.val_main_v103
    rw [concat2_right]
    read_ops
    refine wrapped_col_shifted c hB n 3 rfl _ ?_ _
    exact col_idx 3 _ n rfl rfl

/-- The gather by column 3, shifted by two, at (n, j). -/
theorem seg104 (c : (⟨S1x1000x6, .i32⟩ : BufTy).Contents (Elt F))
    (x3 : (⟨S1x1000x258x512, .f32⟩ : BufTy).Contents (Elt F)) (hB : Bounds c) (n : Fin 1000) (j : Fin 512) :
    Read.val_main_v104 (F := F) c x3 (ix2 n j) = x3 (ix4 (0 : Fin 1) n (rowA c n 3) j) := by
  unfold Read.val_main_v104
  exact segA c x3 hB _ n j 3 rfl (start103 c hB n).1 (start103 c hB n).2

/-! ## The reference is the specification -/

/-- On `Bounds` the reference's result is `G` of its four arguments. -/
theorem ref_is_G (c : (⟨S1x1000x6, .i32⟩ : BufTy).Contents (Elt Ideal))
    (x1 : (⟨S1x1000x10, .f32⟩ : BufTy).Contents (Elt Ideal))
    (x2 : (⟨S1x1000x256x512, .f32⟩ : BufTy).Contents (Elt Ideal))
    (x3 : (⟨S1x1000x258x512, .f32⟩ : BufTy).Contents (Elt Ideal)) (hB : Bounds c) :
    Read.val_main_v106 (F := Ideal) c x1 x2 x3 = G c x1 x2 x3 := by
  funext i
  obtain ⟨a, n, j, rfl⟩ : ∃ (a : Fin 1) (n : Fin 1000) (j : Fin 3082), i = ix3 a n j := ⟨i 0, i 1, i 2, eq_ix3 i⟩
  -- the unit axis: the result at (a, n, j) is the joined row of n at column j
  have hidx : Read.idx_main_v106 (ix3 a n j) = ix2 n j := by
    funext d
    match d with
    | ⟨0, _⟩ => rfl
    | ⟨1, _⟩ => rfl
  rw [Read.val_main_v106_apply, hidx]
  unfold Read.val_main_v105
  rw [concat7_apply, G_apply]
  -- segment by segment
  by_cases h0 : j.val < 512
  · rw [dif_pos h0, dif_pos h0]
    exact seg20 c x2 hB n ⟨j.val, h0⟩
  rw [dif_neg h0, dif_neg h0]
  by_cases h1 : j.val < 1024
  · rw [dif_pos h1, dif_pos h1]
    exact seg36 c x2 hB n ⟨j.val - 512, by omega⟩
  rw [dif_neg h1, dif_neg h1]
  by_cases h2 : j.val < 1536
  · rw [dif_pos h2, dif_pos h2]
    exact seg52 c x2 hB n ⟨j.val - 1024, by omega⟩
  rw [dif_neg h2, dif_neg h2]
  by_cases h3 : j.val < 2048
  · rw [dif_pos h3, dif_pos h3]
    exact seg68 c x2 hB n ⟨j.val - 1536, by omega⟩
  rw [dif_neg h3, dif_neg h3]
  by_cases h4 : j.val < 2560
  · rw [dif_pos h4, dif_pos h4]
    exact seg86 c x3 hB n ⟨j.val - 2048, by omega⟩
  rw [dif_neg h4, dif_neg h4]
  by_cases h5 : j.val < 3072
  · rw [dif_pos h5, dif_pos h5]
    exact seg104 c x3 hB n ⟨j.val - 2560, by omega⟩
  rw [dif_neg h5, dif_neg h5, Read.val_main_v1_apply, num_idx]

/-- Every weakly fair execution of the reference from a memory whose candidates satisfy `Bounds` ends with the
    result at `G` of the arguments' launch contents, the arguments unchanged. -/
theorem ref_run (m : (ℓ : Loc nD τ sig) → Buf (Elt Ideal) ℓ) (ρ : Dev nD → PrngReg)
    (hB : ∀ c : Dev nD, Bounds (m ((c.tc : Thread nD τ).loc main_arg0))) :
    θ_run defs (onTc (τ := τ) (main (F := Ideal))) ⟨m, fun _ => 0, ρ⟩ fun r => ∀ c : Dev nD,
      r.2.mem ((c.tc : Thread nD τ).loc main_v106)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v106_eq m c).trans (ref_is_G _ _ _ _ (hB c))), (h c).2⟩)
    (Cert.ReferenceIdeal.Value.run (F := Ideal) m ρ)

end Cert.RefValue

end
-- ==== Proof.Hand.Setup.lean ====
/-
  The entry of the gather kernel's one pipeline, at any float instance: what the core's buffers hold when the
  region is entered (the host operations before it have run), the six prefetched index tables read off those
  contents, the pipeline at those tables, each window's block at a grid point, and the fact that every input
  window's staging buffer holds that block when the body runs.
-/
import proofs.«402364_j79723182948737_2_alg».proof.Proof.Gen.KernelIdeal.Launch
import proofs.«402364_j79723182948737_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations, the region, one more host operation; so from the launch contents it
    reduces to the region, entered at `V`, continued by that last operation. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The prefetched tables -/

/-- The six index tables as the region finds them (there is one device). -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- Every table-indexed block lies inside its table: what the pipeline asks of the tables' contents. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, whether or not the pipeline fetched it
    there: where it did not, the block index has not moved since the last fetch. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the pipeline fetched it
    there: where it did not, the block index has not moved since the last fetch. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the pipeline fetched it
    there: where it did not, the block index has not moved since the last fetch. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the pipeline fetched it
    there: where it did not, the block index has not moved since the last fetch. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the pipeline fetched it
    there: where it did not, the block index has not moved since the last fetch. -/
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether or not the pipeline fetched it
    there: where it did not, the block index has not moved since the last fetch. -/
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether or not the pipeline fetched it
    there: where it did not, the block index has not moved since the last fetch. -/
theorem before_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

abbrev ms_0 (hO : Ok m) (t : Fin (cfgM m hO).N) : Memref sig .tc .vmem S1x1x512 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1x512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x512 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1x512 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x512 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S1x1x512 .f32 := spec0_5.stage ((cfgM m hO).slots t 5)
abbrev hs_5 (hO : Ok m) (t : Fin (cfgM m hO).N) : (ms_5 m hO t).IsWhole := hstage0_5 (((cfgM m hO).slots t 5).cast nbuf0_5)
abbrev ms_6 (hO : Ok m) (t : Fin (cfgM m hO).N) : Memref sig .tc .vmem S1x1x10 .f32 := spec0_6.stage ((cfgM m hO).slots t 6)
abbrev hs_6 (hO : Ok m) (t : Fin (cfgM m hO).N) : (ms_6 m hO t).IsWhole := hstage0_6 (((cfgM m hO).slots t 6).cast nbuf0_6)
abbrev ms_7 (hO : Ok m) (t : Fin (cfgM m hO).N) : Memref sig .tc .vmem S1x1x3082 .f32 := spec0_7.stage ((cfgM m hO).slots t 7)
abbrev hs_7 (hO : Ok m) (t : Fin (cfgM m hO).N) : (ms_7 m hO t).IsWhole := hstage0_7 (((cfgM m hO).slots t 7).cast nbuf0_7)

/-- The kernel body as the pipeline calls it at point `t`. -/
abbrev bodyAt (hO : Ok m) (t : Fin (cfgM m hO).N) : Prog (TpuEff nD τ sig (Elt F) Λ₀ .tc) PUnit :=
  cc0__gather_kernel (grid0.coords t) (Memref.whole main_v9) (Memref.isWhole_whole _) (Memref.whole main_v14) (Memref.isWhole_whole _) (Memref.whole main_v19) (Memref.isWhole_whole _) (Memref.whole main_v24) (Memref.isWhole_whole _) (Memref.whole main_v31) (Memref.isWhole_whole _) (Memref.whole main_v38) (Memref.isWhole_whole _)
    (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)

end Cert.KernelIdeal.Hand

end
-- ==== Proof.Hand.Body.lean ====
/-
  The gather kernel's body at one grid point. It loads its seven input blocks (six table rows of width 512 and
  the ten numeric features), lays them side by side and stores the row of width 3082 over the whole output block;
  nothing is kept between points. From that: the proof data of the pipeline (every input buffer holds its block,
  the output buffer the row made of the point's input blocks) and the body obligation at every point.
-/
import proofs.«402364_j79723182948737_2_alg».proof.Proof.Hand.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

abbrev rRow : Rect S1x1x512 := Rect.unit (s := S1x1x512) ![0, 0, 0] S1x1x512.size inb_S1x1x512_S1x1x512_0_0_0
abbrev rNum : Rect S1x1x10 := Rect.unit (s := S1x1x10) ![0, 0, 0] S1x1x10.size inb_S1x1x10_S1x1x10_0_0_0
abbrev rOut : Rect S1x1x3082 := Rect.unit (s := S1x1x3082) ![0, 0, 0] S1x1x3082.size inb_S1x1x3082_S1x1x3082_0_0_0

/-- The output block after the body, from the seven input blocks: its one store, over the whole block. -/
def outRow (x0 x1 x2 x3 x4 x5 : Vec F S1x1x512 .f32) (x6 : Vec F S1x1x10 .f32) : Vec F S1x1x3082 .f32 :=
  View.canon [⟨rOut, k0_pay1 (View.ld x0 rRow) (View.ld x1 rRow) (View.ld x2 rRow) (View.ld x3 rRow) (View.ld x4 rRow) (View.ld x5 rRow) (View.ld x6 rNum)⟩]

/-- The one store covers the block. -/
theorem coverOut (p0 : Vec F S1x1x3082 .f32) (y : S1x1x3082.Idx) :
    ∃ pc ∈ ([⟨rOut, p0⟩] : List (View.Piece (Elt F) S1x1x3082 .f32)), y ∈ pc.1.set :=
  View.cover_of_tiled [⟨rOut, p0⟩] S1x1x3082.size (by rfl) y

/-! ## The body's triple -/

set_option maxHeartbeats 1000000 in
/-- On whole staging memrefs, the inputs' at contents `x0 … x6` and the output's at anything, the body runs and
    leaves the inputs as they were and the output at `outRow` of them. The table memrefs are not read. -/
theorem sound_kernel (c : Dev nD) (E : Set ℕ) (i : grid0.Coords) (a1 : Memref sig .tc .smem S1000 .i32) (h1 : a1.IsWhole) (a2 : Memref sig .tc .smem S1000 .i32) (h2 : a2.IsWhole) (a3 : Memref sig .tc .smem S1000 .i32) (h3 : a3.IsWhole) (a4 : Memref sig .tc .smem S1000 .i32) (h4 : a4.IsWhole) (a5 : Memref sig .tc .smem S1000 .i32) (h5 : a5.IsWhole) (a6 : Memref sig .tc .smem S1000 .i32) (h6 : a6.IsWhole)
    (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x512 .f32) (harg12 : arg12.IsWhole) (arg13 : Memref sig .tc .vmem S1x1x10 .f32) (harg13 : arg13.IsWhole) (arg14 : Memref sig .tc .vmem S1x1x3082 .f32) (harg14 : arg14.IsWhole)
    (x0 x1 x2 x3 x4 x5 : Vec F S1x1x512 .f32) (x6 : Vec F S1x1x10 .f32) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ (∃ d, owns (c : Thread nD τ) arg14 fullShare d)
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare (outRow x0 x1 x2 x3 x4 x5 x6)) -∗ K ⟨⟩))
      ⊢ wp frame (wpE (defs₀ (F := F)) Variants.none c none) E (cc0__gather_kernel i a1 h1 a2 h2 a3 h3 a4 h4 a5 h5 a6 h6 arg7 harg7 arg8 harg8 arg9 harg9 arg10 harg10 arg11 harg11 arg12 harg12 arg13 harg13 arg14 harg14) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-! ## The pipeline's proof data -/

/-- The proof data of the pipeline on core `c`: the arrays as the region finds them; after the body at point `t`
    each input buffer at its block and the output buffer at the row made of the point's input blocks; the invariant
    is the scoped rest, the generator register and the tables' halves, all untouched; nothing owed. The four windows
    on the first table hold a quarter of it each, the two on the second a half each. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outRow (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q w := match w with
    | ⟨0, _⟩ => fullShare.left.left
    | ⟨1, _⟩ => fullShare.left.right
    | ⟨2, _⟩ => fullShare.right.left
    | ⟨3, _⟩ => fullShare.right.right
    | ⟨4, _⟩ => fullShare.left
    | ⟨5, _⟩ => fullShare.right
    | ⟨6, _⟩ => fullShare
    | ⟨7, _⟩ => fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outRow (iblk m hO c 0 t) (iblk m hO c 1 t) (iblk m hO c 2 t) (iblk m hO c 3 t) (iblk m hO c 4 t) (iblk m hO c 5 t) (iblk m hO c 6 t) := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d
theorem before_6 (hO : Ok m) (c : Dev nD) (t : Fin (cfgM m hO).N) (d) : (dats m hO 0 c).before 6 t d = iblk m hO c 6 t :=
  before_6_of m hO (dats m hO 0 c) (A_eq m hO c 6) (after_6 m hO c) t d

/-! ## The body obligation -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ owns (c : Thread nD τ) (ms_7 m hO t) fullShare ((dats m hO 0 c).after 7 t))

/-- The body at any point: the input memrefs hold their blocks, so the triple applies; the invariant and the
    core's dues pass through unread. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.KernelIdeal.Hand

end
-- ==== Proof.Hand.Shares.lean ====
/-
  The six row windows read two tables: four windows the 256-row table, two the 258-row table. The region receives
  each table's buffer once, whole; the pipeline holds one points-to per window. A whole share is its two halves,
  and a half its two halves: the first table's buffer is dealt in quarters to its four windows, the second's in
  halves to its two, the numeric features and the output go whole to their one window each.
-/
import proofs.«402364_j79723182948737_2_alg».proof.Proof.Hand.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Halves and quarters of a whole share -/

theorem pt_halves {ℓ : Loc nD τ sig} (q : PosShare TreeShare) (f : Buf (Elt F) ℓ) :
    (ℓ ↦{q} f : sProp 𝕄) ⊢ iprop((ℓ ↦{q.left} f) ∗ (ℓ ↦{q.right} f)) :=
  (pointsTo_share (PosShare.mem_left_op_right q)).1

theorem pt_quarters {ℓ : Loc nD τ sig} (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H' := (pt_halves (F := F) fullShare f) $$ [H]
  · iexact H
  icases H' with ⟨HL, HR⟩
  ihave HL' := (pt_halves (F := F) fullShare.left f) $$ [HL]
  · iexact HL
  ihave HR' := (pt_halves (F := F) fullShare.right f) $$ [HR]
  · iexact HR
  icases HL' with ⟨H1, H2⟩
  icases HR' with ⟨H3, H4⟩
  isplitl [H1]; · iexact H1
  isplitl [H2]; · iexact H2
  isplitl [H3]; · iexact H3
  iexact H4

/-! ## The pipeline's arrays as plain points-tos -/

/-- Every window's array is a whole buffer, so the pipeline's `arrays` are points-tos of whole buffers, window `w`'s
    at the share the proof data gives it. -/
theorem arrays_pts (hO : Ok m) (c : Dev nD) (Fv : (w : Fin (cfgM m hO).W) → Buf (Elt F) (((cfgM m hO).spec w).arr.view.loc (c.tc : Thread nD τ))) :
    (dats m hO 0 c).arrays Fv = bigSep Finset.univ fun w => (((c.tc : Thread nD τ).loc (Pipeline.arrRef (cfgM m hO).spec w)) ↦{(dats m hO 0 c).share w} Fv w : sProp 𝕄) := by
  unfold Dat.arrays
  exact bigSep_congr fun w _ => by rw [(arr_whole0 w).set_eq_univ]

/-- The buffers behind the eight windows are four. -/
theorem image_arr : Finset.univ.image (Pipeline.arrRef (spec0)) = ({main_v39, main_v40, main_v41, main_v42} : Finset (Ref sig .tc)) := by decide

/-- Those four buffers, each whole at contents `W`, one points-to each. -/
theorem arrBufs_four (hO : Ok m) (c : Dev nD) (W : (b : Ref sig .tc) → Buf (Elt F) ((c.tc : Thread nD τ).loc b)) :
    (Pipeline.arrBufs (cfgM m hO).spec c W : sProp 𝕄)
      = iprop((((c.tc : Thread nD τ).loc main_v39) ↦{fullShare} W main_v39) ∗ (((c.tc : Thread nD τ).loc main_v40) ↦{fullShare} W main_v40)
          ∗ (((c.tc : Thread nD τ).loc main_v41) ↦{fullShare} W main_v41) ∗ (((c.tc : Thread nD τ).loc main_v42) ↦{fullShare} W main_v42)) := by
  classical
  unfold Pipeline.arrBufs
  rw [show Finset.univ.image (Pipeline.arrRef (cfgM m hO).spec) = ({main_v39, main_v40, main_v41, main_v42} : Finset (Ref sig .tc)) from image_arr,
    bigSep_insert (by decide), bigSep_insert (by decide), bigSep_insert (by decide), bigSep_singleton]
  rfl

/-- The pipeline's arrays at contents `Fv`, window by window: the window's buffer, its share, its contents. -/
theorem arrays_eight (hO : Ok m) (c : Dev nD) (Fv : (w : Fin (cfgM m hO).W) → Buf (Elt F) (((cfgM m hO).spec w).arr.view.loc (c.tc : Thread nD τ))) :
    (dats m hO 0 c).arrays Fv
      = iprop((((c.tc : Thread nD τ).loc (Pipeline.arrRef (cfgM m hO).spec 0)) ↦{fullShare.left.left} Fv 0) ∗ (((c.tc : Thread nD τ).loc (Pipeline.arrRef (cfgM m hO).spec 1)) ↦{fullShare.left.right} Fv 1)
          ∗ (((c.tc : Thread nD τ).loc (Pipeline.arrRef (cfgM m hO).spec 2)) ↦{fullShare.right.left} Fv 2) ∗ (((c.tc : Thread nD τ).loc (Pipeline.arrRef (cfgM m hO).spec 3)) ↦{fullShare.right.right} Fv 3)
          ∗ (((c.tc : Thread nD τ).loc (Pipeline.arrRef (cfgM m hO).spec 4)) ↦{fullShare.left} Fv 4) ∗ (((c.tc : Thread nD τ).loc (Pipeline.arrRef (cfgM m hO).spec 5)) ↦{fullShare.right} Fv 5)
          ∗ (((c.tc : Thread nD τ).loc (Pipeline.arrRef (cfgM m hO).spec 6)) ↦{fullShare} Fv 6) ∗ (((c.tc : Thread nD τ).loc (Pipeline.arrRef (cfgM m hO).spec 7)) ↦{fullShare} Fv 7)) := by
  rw [arrays_pts m hO c, bigSep_W0]
  rfl

/-- At the region's entry: the four buffers, each whole, make the eight windows' arrays at their shares. -/
theorem hsplit (hO : Ok m) (c : Dev nD) :
    (Pipeline.arrBufs (cfgM m hO).spec c (V m c) : sProp 𝕄) ⊢ (dats m hO 0 c).arrays ((dats m hO 0 c).arrAt · 0) := by
  have hF : (fun w => (dats m hO 0 c).arrAt w 0) = fun w => V m c (Pipeline.arrRef spec0 w) := funext fun w => A_eq m hO c w
  rw [hF, arrays_eight m hO c, arrBufs_four m hO c]
  iintro ⟨H39, H40, H41, H42⟩
  ihave Hq := (pt_quarters (F := F) (V m c main_v39)) $$ [H39]
  · iexact H39
  icases Hq with ⟨A0, A1, A2, A3⟩
  ihave Hh := (pt_halves (F := F) fullShare (V m c main_v40)) $$ [H40]
  · iexact H40
  icases Hh with ⟨A4, A5⟩
  isplitl [A0]; · iexact A0
  isplitl [A1]; · iexact A1
  isplitl [A2]; · iexact A2
  isplitl [A3]; · iexact A3
  isplitl [A4]; · iexact A4
  isplitl [A5]; · iexact A5
  isplitl [H41]; · iexact H41
  iexact H42

end Cert.KernelIdeal.Hand

end
-- ==== Proof.Hand.Tail.lean ====
/-
  After the region the program has one more host operation: it reshapes the kernel's result [1000, 1, 3082] into
  the program's result [1, 1000, 3082]. It reads the output window's array, which only that window owns, and writes a
  buffer that bypasses the region; the two shared tables are not touched. So the operation runs holding just those two
  buffers, borrowed from the pipeline's arrays and from the bypassing buffers, and both are handed back.
-/
import proofs.«402364_j79723182948737_2_alg».proof.Proof.Hand.Shares

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the last operation -/

/-- The core's buffer contents after the last operation: from the region's exit (the arrays as the pipeline leaves
    them, every other buffer as at the region's entry) the reshape's result. -/
def Wf (hO : Ok m) (c : Dev nD) (b : Ref sig .tc) : Buf (Elt F) ((c.tc : Thread nD τ).loc b) :=
  Pipeline.afterTail pcfgs (fun _ => adm m hO) (dats m hO) 0 (V0 m) [hostOps1] c b

/-- The array of the output window is no other window's. -/
theorem out_unique : ∀ w : Fin 8, Pipeline.arrRef spec0 w = main_v42 → w = 7 := by decide

/-- The valuation at the region's exit reads, at the output array, what the pipeline left there. -/
theorem exit_out (hO : Ok m) (c : Dev nD) (Vv : Valuation τ sig (Elt F))
    (A : (w : Fin (cfgM m hO).W) → Buf (Elt F) (((cfgM m hO).spec w).arr.view.loc (c.tc : Thread nD τ))) :
    Pipeline.withArrays (cfgM m hO).spec c Vv A (Proc.devRef .tc main_v42) = A 7 := by
  unfold Pipeline.withArrays
  have h : ∃ w', Proc.devRef .tc (Pipeline.arrRef (cfgM m hO).spec w') = Proc.devRef (τ := τ) .tc main_v42 := ⟨7, rfl⟩
  rw [dif_pos h]
  suffices ∀ (w' : Fin (cfgM m hO).W) (e : Proc.devRef .tc (Pipeline.arrRef (cfgM m hO).spec w') = Proc.devRef (τ := τ) .tc main_v42),
      cast (congrArg (fun b' : DevRef τ sig => b'.ty.Contents (Elt F)) e) (A w') = A 7 from this _ h.choose_spec
  intro w' e
  obtain rfl : w' = 7 := out_unique w' (Proc.devRef_injective _ e)
  rfl

theorem mem_v43 : main_v43 ∈ Pipeline.restRefsP sig pre0 spec0 := by decide

/-- A bypassing buffer is no window's array. -/
theorem bypass_not_arr {b : Ref sig .tc} (hb : b ∈ Pipeline.restRefsP sig pre0 spec0) (w : Fin 8) : Pipeline.arrRef spec0 w ≠ b :=
  fun e => (Finset.mem_sdiff.mp (Finset.mem_sdiff.mp hb).1).2 (Finset.mem_image.mpr ⟨w, Finset.mem_univ _, e⟩)

/-- Every bypassing buffer but the reshape's result is, at the end, as at the region's entry. -/
theorem Wf_of_ne (hO : Ok m) (c : Dev nD) {b : Ref sig .tc} (hb : b ∈ Pipeline.restRefsP sig pre0 spec0) (hne : b ≠ main_v43) :
    Wf m hO c b = V m c b := by
  unfold Wf Pipeline.afterTail
  rw [StableHlo.after_of_forall_not_mem _ _ (fun op hop => ?_), Pipeline.withArrays_of_ne _ c _ _ b (fun w => bypass_not_arr hb w)]
  simp only [List.flatten_cons, List.flatten_nil, List.append_nil, hostOps1, List.mem_singleton] at hop
  subst hop
  simp only [StableHlo.reshape_writes, Finset.mem_singleton]
  exact StableHlo.devRef_ne_of_ne hne

/-- The tables are as at the region's entry. -/
theorem Wf_pre (hO : Ok m) (c : Dev nD) (k : Fin 6) : Wf m hO c (pre0.ref k) = tbl m k := by
  unfold Wf Pipeline.afterTail
  rw [StableHlo.after_of_forall_not_mem _ _ (fun op hop => ?_), Pipeline.withArrays_of_ne _ c _ _ _ (fun w e => preFacts0.disj k w e.symm)]
  · exact V_pre m c k
  · simp only [List.flatten_cons, List.flatten_nil, List.append_nil, hostOps1, List.mem_singleton] at hop
    subst hop
    simp only [StableHlo.reshape_writes, Finset.mem_singleton]
    exact StableHlo.devRef_ne_of_ne (by revert k; decide)

/-! ## The last operation, run from the region's exit -/

/-- The two buffers the reshape touches. -/
abbrev tailSet : Finset (DevRef τ sig) := {Proc.devRef .tc main_v42, Proc.devRef .tc main_v43}

theorem tail_sub : ∀ ops ∈ ([hostOps1] : List (List (HloOp τ sig (Elt F)))), ∀ op ∈ ops, op.bufs ⊆ (tailSet : Finset (DevRef τ sig)) := by
  intro ops hops op hop
  simp only [List.mem_singleton] at hops
  subst hops
  simp only [hostOps1, List.mem_singleton] at hop
  subst hop
  exact Finset.Subset.refl _

theorem tail_fresh : ∀ ops ∈ ([hostOps1] : List (List (HloOp τ sig (Elt F)))), ∀ op ∈ ops, op.fresh = ∅ := by
  intro ops hops op hop
  simp only [List.mem_singleton] at hops
  subst hops
  exact (List.forall_iff_forall_mem.mp hostOps1_fresh) op hop

/-- The two buffers, held at a valuation, are their two points-tos. -/
theorem held_tailSet (c : Dev nD) (Wv : Valuation τ sig (Elt F)) :
    (StableHlo.held (c.tc : Thread nD τ) tailSet Wv : sProp 𝕄)
      = iprop((((c.tc : Thread nD τ).loc main_v42) ↦{fullShare} Wv (Proc.devRef .tc main_v42)) ∗ (((c.tc : Thread nD τ).loc main_v43) ↦{fullShare} Wv (Proc.devRef .tc main_v43))) := by
  unfold StableHlo.held
  rw [bigSep_insert (by decide), bigSep_singleton]
  rfl

/-- The bypassing buffers at contents `W`: the reshape's result buffer, and the others. -/
theorem bypass_split (c : Dev nD) (W : (b : Ref sig .tc) → Buf (Elt F) ((c.tc : Thread nD τ).loc b)) :
    (Pipeline.unscopedRestP (Ix := Unit) (Name := ℕ) (U := UR sig nD τ) (Lvl := ℕ) pre0 spec0 c W : sProp 𝕄)
      = iprop((((c.tc : Thread nD τ).loc main_v43) ↦{fullShare} W main_v43)
          ∗ bigSep ((Pipeline.restRefsP sig pre0 spec0).erase main_v43) fun b => (((c.tc : Thread nD τ).loc b) ↦{fullShare} W b : sProp 𝕄)) := by
  classical
  unfold Pipeline.unscopedRestP
  rw [show (((Finset.univ.filter fun b : Ref sig .tc => ¬ b.isScoped) \ Finset.univ.image (Pipeline.arrRef spec0)) \ Finset.univ.image pre0.ref)
        = Pipeline.restRefsP sig pre0 spec0 from rfl, bigSep_erase mem_v43]
  rfl

set_option backward.isDefEq.respectTransparency.types false in
/-- From the region's exit — the arrays as the pipeline leaves them, the bypassing buffers as at its entry — the
    last operation runs, and leaves the arrays as they were and the bypassing buffers at `Wf`. -/
theorem htail (hO : Ok m) (c : Dev nD) (Q' : PUnit → sProp 𝕄) :
    iprop((iprop((dats m hO 0 c).arrays ((dats m hO 0 c).arrAt · (cfgM m hO).N)
              ∗ Pipeline.unscopedRestP (Ix := Unit) (Name := ℕ) (U := UR sig nD τ) (Lvl := ℕ) pre0 spec0 c (Wf m hO c)) -∗ Q' ⟨⟩)
        ∗ boundary (c.tc : Thread nD τ) ∗ (dats m hO 0 c).arrays ((dats m hO 0 c).arrAt · (cfgM m hO).N)
        ∗ Pipeline.unscopedRestP (Ix := Unit) (Name := ℕ) (U := UR sig nD τ) (Lvl := ℕ) pre0 spec0 c (V m c))
      ⊢ wp frame (wpE (Pipeline.defs pcfgs (defs₀ (F := F))) (Variants.lift Variants.none) (c.tc : Thread nD τ) none) Set.univ
          (Pipeline.chain [StableHlo.seq hostOps1]) Q' := by
  classical
  have hne : ∀ b ∈ (Pipeline.restRefsP sig pre0 spec0).erase main_v43,
      ((((c.tc : Thread nD τ).loc b) ↦{fullShare} Wf m hO c b : sProp 𝕄)) = (((c.tc : Thread nD τ).loc b) ↦{fullShare} V m c b) := fun b hb => by
    rw [Wf_of_ne m hO c (Finset.mem_of_mem_erase hb) (Finset.ne_of_mem_erase hb)]
  have hW42 : Pipeline.withArrays (cfgM m hO).spec c (V0 m c) (fun w => (dats m hO 0 c).arrAt w (cfgM m hO).N) (Proc.devRef .tc main_v42)
      = (dats m hO 0 c).arrAt 7 (cfgM m hO).N := exit_out m hO c _ _
  have hW43 : Pipeline.withArrays (cfgM m hO).spec c (V0 m c) (fun w => (dats m hO 0 c).arrAt w (cfgM m hO).N) (Proc.devRef .tc main_v43)
      = V m c main_v43 := Pipeline.withArrays_of_ne _ c _ _ main_v43 (fun w => bypass_not_arr mem_v43 w)
  have hA42 : StableHlo.after [hostOps1].flatten (Pipeline.withArrays (cfgM m hO).spec c (V0 m c) (fun w => (dats m hO 0 c).arrAt w (cfgM m hO).N)) (Proc.devRef .tc main_v42)
      = (dats m hO 0 c).arrAt 7 (cfgM m hO).N := by
    rw [StableHlo.after_of_forall_not_mem _ _ (fun op hop => ?_), hW42]
    simp only [List.flatten_cons, List.flatten_nil, List.append_nil, hostOps1, List.mem_singleton] at hop
    subst hop
    simp only [StableHlo.reshape_writes, Finset.mem_singleton]
    exact StableHlo.devRef_ne_of_ne (by decide)
  have hstep := Pipeline.wp_seqs_then pcfgs (defs₀ (F := F)) Variants.none c tailSet [] [hostOps1] tail_sub tail_fresh
    (Pipeline.withArrays (cfgM m hO).spec c (V0 m c) (fun w => (dats m hO 0 c).arrAt w (cfgM m hO).N)) (K := Q')
  rw [Pipeline.chain_nil, wp_pure, held_tailSet, held_tailSet, hW42, hW43, hA42] at hstep
  rw [show ([StableHlo.seq hostOps1] : List (Prog (TpuEff nD τ sig (Elt F) (Pipeline.Sig Λ₀ (Fin 1) fun p => (pcfgs (F := F) p).Adm) .tc) PUnit)) = [hostOps1].map StableHlo.seq ++ [] from rfl]
  rw [arrays_eight m hO c, bypass_split, bypass_split, bigSep_congr hne]
  iintro ⟨Hk, Hb, ⟨A0, A1, A2, A3, A4, A5, A6, A7⟩, ⟨H43, HR⟩⟩
  iapply hstep $$ [Hb A7 H43]
  · isplitl [Hb]; · iexact Hb
    isplitl [A7]; · iexact A7
    iexact H43
  iintro ⟨Hb, A7, H43⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [H43]; · iexact H43
  iexact HR

end Cert.KernelIdeal.Hand

end
-- ==== Proof.Hand.Run.lean ====
/-
  The run of the whole program at any float instance, under the tables' side condition: every weakly fair
  execution terminates, and at the end each window's array holds what the pipeline computes from the proof data
  (the output array: one row per grid point, the point's seven input blocks side by side) and every buffer that
  bypasses the region holds what the last reshape leaves.
-/
import proofs.«402364_j79723182948737_2_alg».proof.Proof.Hand.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
set_option backward.isDefEq.respectTransparency.types false in
theorem run_main (hO : Ok m) :
    θ_run defs (onTc (τ := τ) (main (F := F))) ⟨m, fun _ => 0, ρ⟩
      (Pipeline.FramePost (Pipeline.pin pcfgs fun _ => adm m hO) (dats m hO) 0 (Wf m hO)) := by
  classical
  exact Pipeline.θ_run_region_pf_tail pcfgs (fun _ => adm m hO) (dats m hO) () (cellOf_inj (fun _ => adm m hO)) 0 winFacts₀0
    (OwnSemFacts.none (Pipeline.pin pcfgs (fun _ => adm m hO) 0).spec) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (cells (Pipeline.pin pcfgs fun _ => adm m hO) (cellOf_inj (fun _ => adm m hO))) (launchToks (Pipeline.pin pcfgs fun _ => adm m hO) (cellOf_inj (fun _ => adm m hO))))
    (hu₀ := by
      iintro Hu; imodintro
      isplitl [Hu]; · iapply (show (ownU _ : sProp 𝕄) ⊢ BI.own (emb₁ (initOf (cells (Pipeline.pin pcfgs fun _ => adm m hO) (cellOf_inj (fun _ => adm m hO))) (launchToks (Pipeline.pin pcfgs fun _ => adm m hO) (cellOf_inj (fun _ => adm m hO))))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m hO)
    (hpf := V_pre m)
    (X := fun c => iprop(∃ r, prngReg c r)) (Y := fun c => iprop(∃ r, prngReg c r))
    (Z := fun c => unscopedRestP (Ix := Unit) (Name := ℕ) (U := UR sig nD τ) (Lvl := ℕ) pre0 (cfgM m hO).spec c (V m c))
    (Z' := fun c => unscopedRestP (Ix := Unit) (Name := ℕ) (U := UR sig nD τ) (Lvl := ℕ) pre0 (cfgM m hO).spec c (Wf m hO c))
    (hX := fun c => by
      iintro ⟨HU, -, -, -, Hp, -⟩; imodintro
      isplitl [Hp]; · iexists _; iexact Hp
      iexact HU)
    (hin := fun c => (show _ ⊢ iprop(ΦA (cfgM m hO).spec c ∗ ΦT pre0 (tbl m) c) by
      unfold ΦA ΦT; iintro ⟨Hp, Ht, Hr⟩
      isplitr [Ht]
      · isplitl [Hr] <;> iassumption
      · iexact Ht).trans .rfl)
    (hout := fun c => (show (dats m hO 0 c).Φ (Fin.last (cfgM m hO).N) ⊢ ΦA (cfgM m hO).spec c by
        show iprop(ΦA spec0 c ∗ ΦT pre0 (tbl m) c) ⊢ _
        iintro ⟨H, -⟩; iexact H).trans (by
      rw [ownSems0_none]; unfold ΦA
      iintro ⟨Hr, Hp⟩
      isplitl [Hp]; · iexact Hp
      isplitr; · iempintro
      iexact Hr))
    (htail := fun c Q' => htail m hO c Q')
    (QY := fun c s => ∀ b ∈ restRefsP sig pre0 (cfgM m hO).spec, s.mem ((c.tc : Thread nD τ).loc b) = Wf m hO c b)
    (hY := fun c s' => by
      iintro ⟨-, HU, HSI⟩
      unfold unscopedRestP
      imodintro
      iapply (pointsTo_read_all (restRefsP sig pre0 (cfgM m hO).spec) (fun b => (c.tc : Thread nD τ).loc b) (Wf m hO c) s')
      isplitl [HU] <;> iassumption)
    (hQ := fun s h c => ⟨(h c).1, rest_of_restP pre0 (cfgM m hO).spec (tbl m) c (Wf m hO c) s (Wf_pre m hO c) (h c).2.1 (h c).2.2⟩)

end Cert.KernelIdeal.Hand

end
-- ==== Proof.Hand.Tables.lean ====
/-
  What the host operations before the region compute, read at an index, at any float instance. They do not touch
  the four arguments; each index table holds, at position n, the flattened row number n * 256 + cand[n, k] (tables 0-3,
  columns 1, 2, 4, 5) or n * 258 + (cand[n, k] + 2) (tables 4, 5, columns 0, 3), in 32-bit words; the two row tables
  are reshaped so that flattened row n * 256 + r (resp. n * 258 + r) is row r of position n; the numeric features get a
  unit axis. Inside the index domain the words are the numbers they spell, and every table-indexed block lies inside its
  table.
-/
import proofs.«402364_j79723182948737_2_alg».proof.Proof.Hand.Setup
import proofs.«402364_j79723182948737_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.GatherSpec

/-! ## The arguments pass through the host operations -/

theorem V_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil, hostOps0]
  after_results_simp
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil, hostOps0]
  after_results_simp
theorem V_arg2 (c : Dev nD) : V m c main_arg2 = m ((c : Thread nD τ).loc main_arg2) := by
  show StableHlo.after (List.flatten [hostOps0]) (fun b => m (c, b)) (Proc.devRef .tc main_arg2) = _
  simp only [List.flatten_cons, List.flatten_nil, List.append_nil, hostOps0]
  after_results_simp
theorem V_arg3 (c : Dev nD) : V m c main_arg3 = m ((c : Thread nD τ).loc main_arg3) := by
  show StableHlo.after (List.flatten [hostOps0]) (fun b => m (c, b)) (Proc.devRef .tc main_arg3) = _
  simp only [List.flatten_cons, List.flatten_nil, List.append_nil, hostOps0]
  after_results_simp

/-! ## The index tables' words -/

/-- The candidates as launched (one device). -/
abbrev cand : IVec S1x1000x6 32 := m (((0 : Dev nD) : Thread nD τ).loc main_arg0)

/-- Column `k` of the candidates, read through the reshape to [1000, 6], the one-column slice and the reshape to
    [1000]: the word at position `n`. -/
theorem col_read (x : IVec S1x1000x6 32) (k : Fin 6) (off : Fin 2 → Nat) (hs : S1000x6.Slices off S1000x1)
    (h0 : off 0 = 0) (h1 : off 1 = k.val) (n : Fin 1000) :
    shapeCast S1000 (extractStridedSlice S1000x1 off (shapeCast S1000x6 x shapeCasts_S1x1000x6_S1000x6) hs)
      shapeCasts_S1000x1_S1000 (ix1 n) = x (ix3 0 n k) := by
  refine (shapeCast_apply (s := S1000x1) (t := S1000) _ shapeCasts_S1000x1_S1000 (ix1 n) (ix2 n 0) ?_).trans ?_
  · rewrite [Shape.rowMajor_val_two, Shape.rowMajor_val_one]
    show n.val * 1 + 0 = n.val
    omega
  refine (extractStridedSlice_apply off _ hs (ix2 n 0) (ix2 n k) (fun a => match a with
    | ⟨0, _⟩ => by show n.val = off 0 + n.val; omega
    | ⟨1, _⟩ => by show k.val = off 1 + 0; omega)).trans ?_
  refine shapeCast_apply (s := S1x1000x6) (t := S1000x6) _ shapeCasts_S1x1000x6_S1000x6 (ix2 n k) (ix3 0 n k) ?_
  rewrite [Shape.rowMajor_val_three, Shape.rowMajor_val_two]
  show (0 * 1000 + n.val) * 6 + k.val = n.val * 6 + k.val
  omega

theorem tbl0_at (n : Fin 1000) : tbl m 0 (ix1 n) = BitVec.ofNat 32 n.val * 256#32 + cand m (ix3 0 n 1) := by
  show StableHlo.after (List.flatten [hostOps0]) (fun b => m ((0 : Dev nD), b)) (Proc.devRef .tc main_v9) (ix1 n) = _
  simp only [List.flatten_cons, List.flatten_nil, List.append_nil, hostOps0]
  after_results_simp
  show BitVec.ofNat 32 n.val * 256#32 + _ = BitVec.ofNat 32 n.val * 256#32 + _
  congr 1
  exact col_read _ 1 _ _ rfl rfl n
theorem tbl1_at (n : Fin 1000) : tbl m 1 (ix1 n) = BitVec.ofNat 32 n.val * 256#32 + cand m (ix3 0 n 2) := by
  show StableHlo.after (List.flatten [hostOps0]) (fun b => m ((0 : Dev nD), b)) (Proc.devRef .tc main_v14) (ix1 n) = _
  simp only [List.flatten_cons, List.flatten_nil, List.append_nil, hostOps0]
  after_results_simp
  show BitVec.ofNat 32 n.val * 256#32 + _ = BitVec.ofNat 32 n.val * 256#32 + _
  congr 1
  exact col_read _ 2 _ _ rfl rfl n
theorem tbl2_at (n : Fin 1000) : tbl m 2 (ix1 n) = BitVec.ofNat 32 n.val * 256#32 + cand m (ix3 0 n 4) := by
  show StableHlo.after (List.flatten [hostOps0]) (fun b => m ((0 : Dev nD), b)) (Proc.devRef .tc main_v19) (ix1 n) = _
  simp only [List.flatten_cons, List.flatten_nil, List.append_nil, hostOps0]
  after_results_simp
  show BitVec.ofNat 32 n.val * 256#32 + _ = BitVec.ofNat 32 n.val * 256#32 + _
  congr 1
  exact col_read _ 4 _ _ rfl rfl n
theorem tbl3_at (n : Fin 1000) : tbl m 3 (ix1 n) = BitVec.ofNat 32 n.val * 256#32 + cand m (ix3 0 n 5) := by
  show StableHlo.after (List.flatten [hostOps0]) (fun b => m ((0 : Dev nD), b)) (Proc.devRef .tc main_v24) (ix1 n) = _
  simp only [List.flatten_cons, List.flatten_nil, List.append_nil, hostOps0]
  after_results_simp
  show BitVec.ofNat 32 n.val * 256#32 + _ = BitVec.ofNat 32 n.val * 256#32 + _
  congr 1
  exact col_read _ 5 _ _ rfl rfl n
theorem tbl4_at (n : Fin 1000) : tbl m 4 (ix1 n) = BitVec.ofNat 32 n.val * 258#32 + (cand m (ix3 0 n 0) + 2#32) := by
  show StableHlo.after (List.flatten [hostOps0]) (fun b => m ((0 : Dev nD), b)) (Proc.devRef .tc main_v31) (ix1 n) = _
  simp only [List.flatten_cons, List.flatten_nil, List.append_nil, hostOps0]
  after_results_simp
  show BitVec.ofNat 32 n.val * 258#32 + (_ + 2#32) = BitVec.ofNat 32 n.val * 258#32 + (_ + 2#32)
  congr 2
  exact col_read _ 0 _ _ rfl rfl n
theorem tbl5_at (n : Fin 1000) : tbl m 5 (ix1 n) = BitVec.ofNat 32 n.val * 258#32 + (cand m (ix3 0 n 3) + 2#32) := by
  show StableHlo.after (List.flatten [hostOps0]) (fun b => m ((0 : Dev nD), b)) (Proc.devRef .tc main_v38) (ix1 n) = _
  simp only [List.flatten_cons, List.flatten_nil, List.append_nil, hostOps0]
  after_results_simp
  show BitVec.ofNat 32 n.val * 258#32 + (_ + 2#32) = BitVec.ofNat 32 n.val * 258#32 + (_ + 2#32)
  congr 2
  exact col_read _ 3 _ _ rfl rfl n

/-! ## Inside the index domain the words are flattened row numbers -/

/-- The least admissible value of a column used unshifted is 0; of a column used shifted by two, -2. -/
theorem lo_1 : lo 1 = 0 := by decide
theorem lo_2 : lo 2 = 0 := by decide
theorem lo_4 : lo 4 = 0 := by decide
theorem lo_5 : lo 5 = 0 := by decide
theorem lo_0 : lo 0 = -2 := by decide
theorem lo_3 : lo 3 = -2 := by decide

/-- A position below 1000 times 256, plus a word that spells a number in [0, 256), does not wrap in 32 bits: the sum
    spells the flattened row number. -/
theorem word256 (c : BitVec 32) (n : Nat) (hn : n < 1000) (h0 : 0 ≤ c.toInt) (h1 : c.toInt < 256) :
    (BitVec.ofNat 32 n * 256#32 + c).toNat = n * 256 + min c.toInt.toNat 255 := by
  have hlt : c.toNat < 2 ^ 32 := c.isLt
  rw [BitVec.toInt_eq_toNat_cond] at h0 h1 ⊢
  rw [BitVec.toNat_add, BitVec.toNat_mul, BitVec.toNat_ofNat, BitVec.toNat_ofNat]
  split at h0 <;> omega

/-- The same with the word shifted by two: a word that spells a number in [-2, 256), plus two, spells a number in
    [0, 258) (a negative word is one of the top two words, and adding two wraps it round to 0 or 1). -/
theorem word258 (c : BitVec 32) (n : Nat) (hn : n < 1000) (h0 : -2 ≤ c.toInt) (h1 : c.toInt < 256) :
    (BitVec.ofNat 32 n * 258#32 + (c + 2#32)).toNat = n * 258 + min (c.toInt + 2).toNat 257 := by
  have hlt : c.toNat < 2 ^ 32 := c.isLt
  rw [BitVec.toInt_eq_toNat_cond] at h0 h1 ⊢
  rw [BitVec.toNat_add, BitVec.toNat_mul, BitVec.toNat_add, BitVec.toNat_ofNat, BitVec.toNat_ofNat, BitVec.toNat_ofNat]
  split at h0 <;> omega

theorem tbl0_toNat (hB : Bounds (cand m)) (n : Fin 1000) : (tbl m 0 (ix1 n)).toNat = n.val * 256 + (rowB (cand m) n 1).val := by
  rw [tbl0_at]
  have h := hB n 1
  rw [lo_1] at h
  exact word256 _ n.val n.isLt h.1 h.2
theorem tbl1_toNat (hB : Bounds (cand m)) (n : Fin 1000) : (tbl m 1 (ix1 n)).toNat = n.val * 256 + (rowB (cand m) n 2).val := by
  rw [tbl1_at]
  have h := hB n 2
  rw [lo_2] at h
  exact word256 _ n.val n.isLt h.1 h.2
theorem tbl2_toNat (hB : Bounds (cand m)) (n : Fin 1000) : (tbl m 2 (ix1 n)).toNat = n.val * 256 + (rowB (cand m) n 4).val := by
  rw [tbl2_at]
  have h := hB n 4
  rw [lo_4] at h
  exact word256 _ n.val n.isLt h.1 h.2
theorem tbl3_toNat (hB : Bounds (cand m)) (n : Fin 1000) : (tbl m 3 (ix1 n)).toNat = n.val * 256 + (rowB (cand m) n 5).val := by
  rw [tbl3_at]
  have h := hB n 5
  rw [lo_5] at h
  exact word256 _ n.val n.isLt h.1 h.2
theorem tbl4_toNat (hB : Bounds (cand m)) (n : Fin 1000) : (tbl m 4 (ix1 n)).toNat = n.val * 258 + (rowA (cand m) n 0).val := by
  rw [tbl4_at]
  have h := hB n 0
  rw [lo_0] at h
  exact word258 _ n.val n.isLt h.1 h.2
theorem tbl5_toNat (hB : Bounds (cand m)) (n : Fin 1000) : (tbl m 5 (ix1 n)).toNat = n.val * 258 + (rowA (cand m) n 3).val := by
  rw [tbl5_at]
  have h := hB n 3
  rw [lo_3] at h
  exact word258 _ n.val n.isLt h.1 h.2

/-- Each table-indexed window's index map, in closed form at any table contents: the block index on axis 0 is the
    table's word at the grid point, read as a number; axes 1 and 2 are not blocked. -/
theorem tr0_eq (pf : pre0.Contents (Elt F)) (i : grid0.Coords) :
    cc0_transform_0 k0_off1_inb numel1_S1 pf i = ![(pf 0 (ix1 (⟨(i 0).val, (i 0).isLt⟩ : Fin 1000))).toNat, 0, 0] := by
  have key : ∀ x y : S1000.Idx, x = y → (![(pf 0 x).toNat, 0, 0] : Fin 3 → Nat) = ![(pf 0 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr1_eq (pf : pre0.Contents (Elt F)) (i : grid0.Coords) :
    cc0_transform_1 k0_off1_inb numel1_S1 pf i = ![(pf 1 (ix1 (⟨(i 0).val, (i 0).isLt⟩ : Fin 1000))).toNat, 0, 0] := by
  have key : ∀ x y : S1000.Idx, x = y → (![(pf 1 x).toNat, 0, 0] : Fin 3 → Nat) = ![(pf 1 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr2_eq (pf : pre0.Contents (Elt F)) (i : grid0.Coords) :
    cc0_transform_2 k0_off1_inb numel1_S1 pf i = ![(pf 2 (ix1 (⟨(i 0).val, (i 0).isLt⟩ : Fin 1000))).toNat, 0, 0] := by
  have key : ∀ x y : S1000.Idx, x = y → (![(pf 2 x).toNat, 0, 0] : Fin 3 → Nat) = ![(pf 2 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr3_eq (pf : pre0.Contents (Elt F)) (i : grid0.Coords) :
    cc0_transform_3 k0_off1_inb numel1_S1 pf i = ![(pf 3 (ix1 (⟨(i 0).val, (i 0).isLt⟩ : Fin 1000))).toNat, 0, 0] := by
  have key : ∀ x y : S1000.Idx, x = y → (![(pf 3 x).toNat, 0, 0] : Fin 3 → Nat) = ![(pf 3 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr4_eq (pf : pre0.Contents (Elt F)) (i : grid0.Coords) :
    cc0_transform_4 k0_off1_inb numel1_S1 pf i = ![(pf 4 (ix1 (⟨(i 0).val, (i 0).isLt⟩ : Fin 1000))).toNat, 0, 0] := by
  have key : ∀ x y : S1000.Idx, x = y → (![(pf 4 x).toNat, 0, 0] : Fin 3 → Nat) = ![(pf 4 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr5_eq (pf : pre0.Contents (Elt F)) (i : grid0.Coords) :
    cc0_transform_5 k0_off1_inb numel1_S1 pf i = ![(pf 5 (ix1 (⟨(i 0).val, (i 0).isLt⟩ : Fin 1000))).toNat, 0, 0] := by
  have key : ∀ x y : S1000.Idx, x = y → (![(pf 5 x).toNat, 0, 0] : Fin 3 → Nat) = ![(pf 5 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega

/-- Inside the index domain every table-indexed block lies inside its table. -/
theorem ok_of_bounds (hB : Bounds (cand m)) : Ok m := by
  show ok0 (tbl m)
  unfold ok0
  refine ⟨?_, ?_, ?_, ?_, ?_, ?_⟩
  · intro i
    refine ⟨fun a => ?_, Or.inl rfl⟩
    rw [tr0_eq]
    have hi : (i 0).val < 1000 := (i 0).isLt
    have h : (tbl m 0 (ix1 (⟨(i 0).val, (i 0).isLt⟩ : Fin 1000))).toNat = (i 0).val * 256 + _ := tbl0_toNat m hB _
    have hr := (rowB (cand m) (⟨(i 0).val, (i 0).isLt⟩ : Fin 1000) 1).isLt
    match a with
    | ⟨0, _⟩ =>
      show ((tbl m 0 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr1_eq]
    have hi : (i 0).val < 1000 := (i 0).isLt
    have h : (tbl m 1 (ix1 (⟨(i 0).val, (i 0).isLt⟩ : Fin 1000))).toNat = (i 0).val * 256 + _ := tbl1_toNat m hB _
    have hr := (rowB (cand m) (⟨(i 0).val, (i 0).isLt⟩ : Fin 1000) 2).isLt
    match a with
    | ⟨0, _⟩ =>
      show ((tbl m 1 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr2_eq]
    have hi : (i 0).val < 1000 := (i 0).isLt
    have h : (tbl m 2 (ix1 (⟨(i 0).val, (i 0).isLt⟩ : Fin 1000))).toNat = (i 0).val * 256 + _ := tbl2_toNat m hB _
    have hr := (rowB (cand m) (⟨(i 0).val, (i 0).isLt⟩ : Fin 1000) 4).isLt
    match a with
    | ⟨0, _⟩ =>
      show ((tbl m 2 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr3_eq]
    have hi : (i 0).val < 1000 := (i 0).isLt
    have h : (tbl m 3 (ix1 (⟨(i 0).val, (i 0).isLt⟩ : Fin 1000))).toNat = (i 0).val * 256 + _ := tbl3_toNat m hB _
    have hr := (rowB (cand m) (⟨(i 0).val, (i 0).isLt⟩ : Fin 1000) 5).isLt
    match a with
    | ⟨0, _⟩ =>
      show ((tbl m 3 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr4_eq]
    have hi : (i 0).val < 1000 := (i 0).isLt
    have h : (tbl m 4 (ix1 (⟨(i 0).val, (i 0).isLt⟩ : Fin 1000))).toNat = (i 0).val * 258 + _ := tbl4_toNat m hB _
    have hr := (rowA (cand m) (⟨(i 0).val, (i 0).isLt⟩ : Fin 1000) 0).isLt
    match a with
    | ⟨0, _⟩ =>
      show ((tbl m 4 (ix1 (⟨(i 0).val, (i 0).isLt⟩ : Fin 1000))).toNat + 1) * 1 ≤ 258000
      rw [h]
      omega
    | ⟨1, _⟩ => show (0 + 1) * 1 ≤ 1; omega
    | ⟨2, _⟩ => show (0 + 1) * 512 ≤ 512; omega
  · intro i
    refine ⟨fun a => ?_, Or.inl rfl⟩
    rw [tr5_eq]
    have hi : (i 0).val < 1000 := (i 0).isLt
    have h : (tbl m 5 (ix1 (⟨(i 0).val, (i 0).isLt⟩ : Fin 1000))).toNat = (i 0).val * 258 + _ := tbl5_toNat m hB _
    have hr := (rowA (cand m) (⟨(i 0).val, (i 0).isLt⟩ : Fin 1000) 3).isLt
    match a with
    | ⟨0, _⟩ =>
      show ((tbl m 5 (ix1 (⟨(i 0).val, (i 0).isLt⟩ : Fin 1000))).toNat + 1) * 1 ≤ 258000
      rw [h]
      omega
    | ⟨1, _⟩ => show (0 + 1) * 1 ≤ 1; omega
    | ⟨2, _⟩ => show (0 + 1) * 512 ≤ 512; omega

/-! ## The staged arrays read at an index -/

theorem V_v39_at (c : Dev nD) (q : Fin 256000) (j : Fin 512) :
    V m c main_v39 (ix3 q 0 j) = m ((c : Thread nD τ).loc main_arg2) (ix4 0 ⟨q.val / 256, by omega⟩ ⟨q.val % 256, by omega⟩ j) := by
  have hq : q.val < 256000 := q.isLt
  show StableHlo.after (List.flatten [hostOps0]) (fun b => m (c, b)) (Proc.devRef .tc main_v39) (ix3 q 0 j) = _
  simp only [List.flatten_cons, List.flatten_nil, List.append_nil, hostOps0]
  after_results_simp
  refine (shapeCast_apply (s := S1000x256x512) (t := S256000x1x512) _ shapeCasts_S1000x256x512_S256000x1x512 (ix3 q 0 j)
    (ix3 (⟨q.val / 256, by omega⟩ : Fin 1000) (⟨q.val % 256, by omega⟩ : Fin 256) j) ?_).trans ?_
  · rewrite [Shape.rowMajor_val_three, Shape.rowMajor_val_three]
    show (q.val / 256 * 256 + q.val % 256) * 512 + j.val = (q.val * 1 + 0) * 512 + j.val
    omega
  · refine shapeCast_apply (s := S1x1000x256x512) (t := S1000x256x512) _ shapeCasts_S1x1000x256x512_S1000x256x512
      (ix3 (⟨q.val / 256, by omega⟩ : Fin 1000) (⟨q.val % 256, by omega⟩ : Fin 256) j)
      (ix4 0 ⟨q.val / 256, by omega⟩ ⟨q.val % 256, by omega⟩ j) ?_
    rewrite [Shape.rowMajor_val_four, Shape.rowMajor_val_three]
    show ((0 * 1000 + q.val / 256) * 256 + q.val % 256) * 512 + j.val = (q.val / 256 * 256 + q.val % 256) * 512 + j.val
    omega
theorem V_v40_at (c : Dev nD) (q : Fin 258000) (j : Fin 512) :
    V m c main_v40 (ix3 q 0 j) = m ((c : Thread nD τ).loc main_arg3) (ix4 0 ⟨q.val / 258, by omega⟩ ⟨q.val % 258, by omega⟩ j) := by
  have hq : q.val < 258000 := q.isLt
  show StableHlo.after (List.flatten [hostOps0]) (fun b => m (c, b)) (Proc.devRef .tc main_v40) (ix3 q 0 j) = _
  simp only [List.flatten_cons, List.flatten_nil, List.append_nil, hostOps0]
  after_results_simp
  refine (shapeCast_apply (s := S1000x258x512) (t := S258000x1x512) _ shapeCasts_S1000x258x512_S258000x1x512 (ix3 q 0 j)
    (ix3 (⟨q.val / 258, by omega⟩ : Fin 1000) (⟨q.val % 258, by omega⟩ : Fin 258) j) ?_).trans ?_
  · rewrite [Shape.rowMajor_val_three, Shape.rowMajor_val_three]
    show (q.val / 258 * 258 + q.val % 258) * 512 + j.val = (q.val * 1 + 0) * 512 + j.val
    omega
  · refine shapeCast_apply (s := S1x1000x258x512) (t := S1000x258x512) _ shapeCasts_S1x1000x258x512_S1000x258x512
      (ix3 (⟨q.val / 258, by omega⟩ : Fin 1000) (⟨q.val % 258, by omega⟩ : Fin 258) j)
      (ix4 0 ⟨q.val / 258, by omega⟩ ⟨q.val % 258, by omega⟩ j) ?_
    rewrite [Shape.rowMajor_val_four, Shape.rowMajor_val_three]
    show ((0 * 1000 + q.val / 258) * 258 + q.val % 258) * 512 + j.val = (q.val / 258 * 258 + q.val % 258) * 512 + j.val
    omega
theorem V_v41_at (c : Dev nD) (n : Fin 1000) (j : Fin 10) :
    V m c main_v41 (ix3 n 0 j) = m ((c : Thread nD τ).loc main_arg1) (ix3 0 n j) := by
  show StableHlo.after (List.flatten [hostOps0]) (fun b => m (c, b)) (Proc.devRef .tc main_v41) (ix3 n 0 j) = _
  simp only [List.flatten_cons, List.flatten_nil, List.append_nil, hostOps0]
  after_results_simp
  refine (shapeCast_apply (s := S1000x10) (t := S1000x1x10) _ shapeCasts_S1000x10_S1000x1x10 (ix3 n 0 j) (ix2 n j) ?_).trans ?_
  · rewrite [Shape.rowMajor_val_two, Shape.rowMajor_val_three]
    show n.val * 10 + j.val = (n.val * 1 + 0) * 10 + j.val
    omega
  · refine shapeCast_apply (s := S1x1000x10) (t := S1000x10) _ shapeCasts_S1x1000x10_S1000x10 (ix2 n j) (ix3 0 n j) ?_
    rewrite [Shape.rowMajor_val_three, Shape.rowMajor_val_two]
    show (0 * 1000 + n.val) * 10 + j.val = n.val * 10 + j.val
    omega

end Cert.KernelIdeal.Hand

end
-- ==== Proof.Hand.Frame.lean ====
/-
  The frame. The four arguments are no window's array and no table: they bypass the region. The last reshape writes
  only the result buffer, and the host operations before the region write none of the arguments; so at the end each
  argument holds what it held at launch.
-/
import proofs.«402364_j79723182948737_2_alg».proof.Proof.Hand.Run
import proofs.«402364_j79723182948737_2_alg».proof.Proof.Hand.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.GatherSpec

theorem mem_arg0 : main_arg0 ∈ Pipeline.restRefsP sig pre0 spec0 := by decide
theorem mem_arg1 : main_arg1 ∈ Pipeline.restRefsP sig pre0 spec0 := by decide
theorem mem_arg2 : main_arg2 ∈ Pipeline.restRefsP sig pre0 spec0 := by decide
theorem mem_arg3 : main_arg3 ∈ Pipeline.restRefsP sig pre0 spec0 := by decide

/-- A bypassing buffer that is no table is in particular no window's array. -/
theorem rest_of_bypass {b : Ref sig .tc} (hb : b ∈ Pipeline.restRefsP sig pre0 spec0) : b ∈ Pipeline.restRefs sig spec0 :=
  (Finset.mem_sdiff.mp hb).1

/-- Under the tables' side condition: every execution ends with the arguments unchanged. -/
theorem frame_ok (hO : Ok m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (rest_of_bypass mem_arg0)).trans ((Wf_of_ne m hO c mem_arg0 (by decide)).trans (V_arg0 m c)),
     ((h c).2 main_arg1 (rest_of_bypass mem_arg1)).trans ((Wf_of_ne m hO c mem_arg1 (by decide)).trans (V_arg1 m c)),
     ((h c).2 main_arg2 (rest_of_bypass mem_arg2)).trans ((Wf_of_ne m hO c mem_arg2 (by decide)).trans (V_arg2 m c)),
     ((h c).2 main_arg3 (rest_of_bypass mem_arg3)).trans ((Wf_of_ne m hO c mem_arg3 (by decide)).trans (V_arg3 m c))⟩)
    (run_main m ρ hO)

/-- Inside the index domain: every execution ends with the arguments unchanged. -/
theorem frame (hB : Bounds (cand m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ok m ρ (ok_of_bounds m hB)

end Cert.KernelIdeal.Hand

end
-- ==== Proof.SpecK.lean ====
/-
  The kernel's output array, before the last reshape, as one function of what the kernel reads: the two row tables
  flattened to [256000, 1, 512] and [258000, 1, 512] (row n * 256 + r, resp. n * 258 + r, is row r of position n), the
  numeric features as [1000, 1, 10], and, per position n, the six flattened row numbers the index tables hold.
  Row n of the output is: the four rows T0 n .. T3 n of the first table, the two rows T4 n, T5 n of the second, the
  ten features of n.
-/
import Idealize.ShloMosaic.PureOps.Ideal
import Idealize.ShloMosaic.Lib.ValueIdx

noncomputable section

namespace Cert.GatherSpec

open Idealize.ShloMosaic Idealize.ShloMosaic.ValueIdx

abbrev SFlatB : Shape := ⟨3, ![256000, 1, 512]⟩
abbrev SFlatA : Shape := ⟨3, ![258000, 1, 512]⟩
abbrev SNum3 : Shape := ⟨3, ![1000, 1, 10]⟩
abbrev SOut3 : Shape := ⟨3, ![1000, 1, 3082]⟩

/-- A flattened row number kept inside the first table, and inside the second. -/
def inB (r : Nat) : Fin 256000 := ⟨min r 255999, by omega⟩
def inA (r : Nat) : Fin 258000 := ⟨min r 257999, by omega⟩

/-- The output array entry by entry. -/
def Gk {α : Type} (T0 T1 T2 T3 T4 T5 : Fin 1000 → Nat) (B : SFlatB.Idx → α) (A : SFlatA.Idx → α) (Nm : SNum3.Idx → α) : SOut3.Idx → α :=
  fun q =>
    let n : Fin 1000 := q 0
    let j : Nat := (q 2).val
    if h0 : j < 512 then B (ix3 (inB (T0 n)) 0 ⟨j, h0⟩)
    else if h1 : j < 1024 then B (ix3 (inB (T1 n)) 0 ⟨j - 512, by omega⟩)
    else if h2 : j < 1536 then B (ix3 (inB (T2 n)) 0 ⟨j - 1024, by omega⟩)
    else if h3 : j < 2048 then B (ix3 (inB (T3 n)) 0 ⟨j - 1536, by omega⟩)
    else if h4 : j < 2560 then A (ix3 (inA (T4 n)) 0 ⟨j - 2048, by omega⟩)
    else if h5 : j < 3072 then A (ix3 (inA (T5 n)) 0 ⟨j - 2560, by omega⟩)
    else Nm (ix3 n 0 ⟨j - 3072, by have hj : (q 2).val < 3082 := (q 2).isLt; show (q 2).val - 3072 < 10; omega⟩)

end Cert.GatherSpec

end
-- ==== Proof.Hand.KernelValue.lean ====
/-
  The output array when the region ends, as one function of what the kernel reads. Grid point n writes block n of the
  output, the row [n, 0, :]; that row is the point's seven input blocks side by side; input block w at point n is row
  (table w's word at n) of its flattened table, or row n of the numeric features. The blocks tile the array, so the
  array is that function everywhere.
-/
import proofs.«402364_j79723182948737_2_alg».proof.Proof.Hand.Body
import proofs.«402364_j79723182948737_2_alg».proof.Proof.SpecK
import proofs.«402364_j79723182948737_2_alg».proof.Proof.Hand.Tables
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.GatherSpec

/-! ## The row the body stores, column by column -/

section Row
variable {α : Type}

/-- A row of width k seen as a [1, k] matrix: entry (p, j) is entry (0, 0, j) of the [1, 1, k] block. -/
theorem flat_apply {k : Nat} (x : (⟨3, ![1, 1, k]⟩ : Shape).Idx → α) (h : (⟨3, ![1, 1, k]⟩ : Shape).ShapeCasts ⟨2, ![1, k]⟩)
    (p : Fin 1) (j : Fin k) : shapeCast (⟨2, ![1, k]⟩ : Shape) x h (ix2 p j) = x (ix3 0 0 j) := by
  refine shapeCast_apply x h (ix2 p j) (ix3 0 0 j) ?_
  rw [Shape.rowMajor_val_three, Shape.rowMajor_val_two]
  have hp : p.val = 0 := by have := p.isLt; omega
  show ((0 * 1 + 0) * k + j.val) = p.val * k + j.val
  rw [hp]

/-- A [1, k] matrix seen as a [1, 1, k] block: entry (p, q, j) is entry (0, j) of the matrix. -/
theorem block_apply {k : Nat} (x : (⟨2, ![1, k]⟩ : Shape).Idx → α) (h : (⟨2, ![1, k]⟩ : Shape).ShapeCasts ⟨3, ![1, 1, k]⟩)
    (p q : Fin 1) (j : Fin k) : shapeCast (⟨3, ![1, 1, k]⟩ : Shape) x h (ix3 p q j) = x (ix2 0 j) := by
  refine shapeCast_apply x h (ix3 p q j) (ix2 0 j) ?_
  rw [Shape.rowMajor_val_three, Shape.rowMajor_val_two]
  have hp : p.val = 0 := by have := p.isLt; omega
  have hq : q.val = 0 := by have := q.isLt; omega
  show 0 * k + j.val = (p.val * 1 + q.val) * k + j.val
  rw [hp, hq]

end Row

section Cat
variable {α : Type}

/-- Rows laid side by side along the column axis, read at column j: piece k, whose columns start at pre (the
    widths of the pieces before it), at column j - pre. -/
theorem cat_piece (xs : List ((s : Shape) × (s.Idx → α))) (h : Shape.Concatenates (xs.map (·.1)) S1x3082 1)
    (p : Fin 1) (j : Fin 3082) (k : Nat) (hk : k < xs.length) (w : Nat) (x₁ : (⟨2, ![1, w]⟩ : Shape).Idx → α)
    (hxk : xs[k] = ⟨⟨2, ![1, w]⟩, x₁⟩) (pre : Nat)
    (hpre : (((xs.take k).map (·.1)).map fun s => if h : s.rank = S1x3082.rank then s.size ((1 : Fin S1x3082.rank).cast h.symm) else 0).sum = pre)
    (j' : Fin w) (hj : pre + j'.val = j.val) :
    concatenate S1x3082 1 xs h (ix2 p j) = x₁ (ix2 0 j') := by
  refine concatenate_apply_piece (1 : Fin S1x3082.rank) xs h (ix2 p j) k hk ⟨2, ![1, w]⟩ x₁ hxk rfl pre hpre (ix2 0 j') ?_ ?_
  · intro b hb
    match b with
    | ⟨0, _⟩ => have := p.isLt; show 0 = p.val; omega
    | ⟨1, _⟩ => exact absurd rfl hb
  · exact hj

end Cat

/-- The row the body stores, at column j: the input block the column falls in, at the column less the widths before it. -/
theorem pay_apply (x0 x1 x2 x3 x4 x5 : Vec F S1x1x512 .f32) (x6 : Vec F S1x1x10 .f32) (p q : Fin 1) (j : Fin 3082) :
    k0_pay1 x0 x1 x2 x3 x4 x5 x6 (ix3 p q j) =
      if h0 : j.val < 512 then x0 (ix3 0 0 ⟨j.val, h0⟩)
      else if h1 : j.val < 1024 then x1 (ix3 0 0 ⟨j.val - 512, by omega⟩)
      else if h2 : j.val < 1536 then x2 (ix3 0 0 ⟨j.val - 1024, by omega⟩)
      else if h3 : j.val < 2048 then x3 (ix3 0 0 ⟨j.val - 1536, by omega⟩)
      else if h4 : j.val < 2560 then x4 (ix3 0 0 ⟨j.val - 2048, by omega⟩)
      else if h5 : j.val < 3072 then x5 (ix3 0 0 ⟨j.val - 2560, by omega⟩)
      else x6 (ix3 0 0 ⟨j.val - 3072, by have := j.isLt; omega⟩) := by
  unfold k0_pay1
  rw [block_apply]
  have hj := j.isLt
  split_ifs with h0 h1 h2 h3 h4 h5
  · rw [cat_piece _ _ 0 j 0 (by show _ < 7; omega) 512 _ rfl 0 rfl ⟨j.val, h0⟩ (by show 0 + j.val = j.val; omega), flat_apply]
  · rw [cat_piece _ _ 0 j 1 (by show _ < 7; omega) 512 _ rfl 512 rfl ⟨j.val - 512, by omega⟩ (by show 512 + (j.val - 512) = j.val; omega), flat_apply]
  · rw [cat_piece _ _ 0 j 2 (by show _ < 7; omega) 512 _ rfl 1024 rfl ⟨j.val - 1024, by omega⟩ (by show 1024 + (j.val - 1024) = j.val; omega), flat_apply]
  · rw [cat_piece _ _ 0 j 3 (by show _ < 7; omega) 512 _ rfl 1536 rfl ⟨j.val - 1536, by omega⟩ (by show 1536 + (j.val - 1536) = j.val; omega), flat_apply]
  · rw [cat_piece _ _ 0 j 4 (by show _ < 7; omega) 512 _ rfl 2048 rfl ⟨j.val - 2048, by omega⟩ (by show 2048 + (j.val - 2048) = j.val; omega), flat_apply]
  · rw [cat_piece _ _ 0 j 5 (by show _ < 7; omega) 512 _ rfl 2560 rfl ⟨j.val - 2560, by omega⟩ (by show 2560 + (j.val - 2560) = j.val; omega), flat_apply]
  · rw [cat_piece _ _ 0 j 6 (by show _ < 7; omega) 10 _ rfl 3072 rfl ⟨j.val - 3072, by omega⟩ (by show 3072 + (j.val - 3072) = j.val; omega), flat_apply]

/-- The function of the claim at row n, column j: the same seven-way split as the stored row. -/
theorem Gk_row {α : Type} (T0 T1 T2 T3 T4 T5 : Fin 1000 → Nat) (B : SFlatB.Idx → α) (A : SFlatA.Idx → α) (Nm : SNum3.Idx → α)
    (n : Fin 1000) (j : Fin 3082) :
    Gk T0 T1 T2 T3 T4 T5 B A Nm (ix3 n 0 j) =
      if h0 : j.val < 512 then B (ix3 (inB (T0 n)) 0 ⟨j.val, h0⟩)
      else if h1 : j.val < 1024 then B (ix3 (inB (T1 n)) 0 ⟨j.val - 512, by omega⟩)
      else if h2 : j.val < 1536 then B (ix3 (inB (T2 n)) 0 ⟨j.val - 1024, by omega⟩)
      else if h3 : j.val < 2048 then B (ix3 (inB (T3 n)) 0 ⟨j.val - 1536, by omega⟩)
      else if h4 : j.val < 2560 then A (ix3 (inA (T4 n)) 0 ⟨j.val - 2048, by omega⟩)
      else if h5 : j.val < 3072 then A (ix3 (inA (T5 n)) 0 ⟨j.val - 2560, by omega⟩)
      else Nm (ix3 n 0 ⟨j.val - 3072, by have := j.isLt; omega⟩) := rfl

/-- If each input block is the row of its array that the claim names, the stored row is the claim's row. -/
theorem pay_eq_Gk (x0 x1 x2 x3 x4 x5 : Vec F S1x1x512 .f32) (x6 : Vec F S1x1x10 .f32)
    (T0 T1 T2 T3 T4 T5 : Fin 1000 → Nat) (B : SFlatB.Idx → Elt F .f32) (A : SFlatA.Idx → Elt F .f32) (Nm : SNum3.Idx → Elt F .f32)
    (n : Fin 1000)
    (e0 : ∀ j : Fin 512, x0 (ix3 0 0 j) = B (ix3 (inB (T0 n)) 0 j))
    (e1 : ∀ j : Fin 512, x1 (ix3 0 0 j) = B (ix3 (inB (T1 n)) 0 j))
    (e2 : ∀ j : Fin 512, x2 (ix3 0 0 j) = B (ix3 (inB (T2 n)) 0 j))
    (e3 : ∀ j : Fin 512, x3 (ix3 0 0 j) = B (ix3 (inB (T3 n)) 0 j))
    (e4 : ∀ j : Fin 512, x4 (ix3 0 0 j) = A (ix3 (inA (T4 n)) 0 j))
    (e5 : ∀ j : Fin 512, x5 (ix3 0 0 j) = A (ix3 (inA (T5 n)) 0 j))
    (e6 : ∀ j : Fin 10, x6 (ix3 0 0 j) = Nm (ix3 n 0 j))
    (p q : Fin 1) (j : Fin 3082) :
    k0_pay1 x0 x1 x2 x3 x4 x5 x6 (ix3 p q j) = Gk T0 T1 T2 T3 T4 T5 B A Nm (ix3 n 0 j) := by
  rw [pay_apply, Gk_row]
  split_ifs
  · exact e0 _
  · exact e1 _
  · exact e2 _
  · exact e3 _
  · exact e4 _
  · exact e5 _
  · exact e6 _

/-! ## Where a point's blocks sit in their arrays -/

theorem hz3 : (![0, 0, 0] : Fin 3 → Nat) = fun _ => 0 := funext fun a => by fin_cases a <;> rfl

/-- The grid is one axis of 1000 points: point t has coordinate t. -/
theorem coord_val (t : Fin grid0.N) : (grid0.coords t 0).val = t.val := by
  have hs : grid0.stride 0 = 1 := by decide
  have ht : t.val < 1000 := lt_of_lt_of_eq t.isLt N_0
  show t.val / grid0.stride 0 % 1000 = t.val
  rw [hs]; omega

/-- The numeric features' and the output's index maps in closed form: block (point, 0, 0). -/
theorem tr6_eq (i : grid0.Coords) : cc0_transform_6 i = ![(i 0).val, 0, 0] := by
  have hi : (i 0).val < 1000 := (i 0).isLt
  have e : (BitVec.ofNat 32 (i 0).val).toNat = (i 0).val := by rw [BitVec.toNat_ofNat]; omega
  show ![(BitVec.ofNat 32 (i 0).val).toNat, (0#32).toNat, (0#32).toNat] = _
  rw [e]; rfl
theorem tr7_eq (i : grid0.Coords) : cc0_transform_7 i = ![(i 0).val, 0, 0] := by
  have hi : (i 0).val < 1000 := (i 0).isLt
  have e : (BitVec.ofNat 32 (i 0).val).toNat = (i 0).val := by rw [BitVec.toNat_ofNat]; omega
  show ![(BitVec.ofNat 32 (i 0).val).toNat, (0#32).toNat, (0#32).toNat] = _
  rw [e]; rfl

/-- The table position a point reads is the point's number. -/
theorem pt_eq (t : Fin grid0.N) (n : Fin 1000) (hn : n.val = t.val) :
    (⟨(grid0.coords t 0).val, (grid0.coords t 0).isLt⟩ : Fin 1000) = n := Fin.ext ((coord_val t).trans hn.symm)

/-- A flattened row number that is a row of the first table is kept as it is; likewise for the second. -/
theorem inB_val (r : Nat) (h : r + 1 ≤ 256000) : (inB r).val = r := by
  show min r 255999 = r; rw [Nat.min_eq_left (by omega)]
theorem inA_val (r : Nat) (h : r + 1 ≤ 258000) : (inA r).val = r := by
  show min r 257999 = r; rw [Nat.min_eq_left (by omega)]

/-- The one piece of arithmetic about blocks: in an array of R rows of width k, cut into blocks of one row, the
    element (p, q, j) of the block with index (r, 0, 0) — on each axis, block index times block size plus the
    coordinate inside the block — is the array's element (r, 0, j). -/
theorem row_at {R k : Nat} (e : (⟨3, ![R, 1, k]⟩ : Shape).Idx) (idx : Fin 3 → Nat) (r : Nat) (hidx : idx = ![r, 0, 0])
    (p q : Fin 1) (j : Fin k) (row : Fin R) (hrow : row.val = r)
    (h0 : (e 0).val = idx 0 * 1 + 1 * p.val) (h1 : (e 1).val = idx 1 * 1 + 1 * q.val)
    (h2 : (e 2).val = idx 2 * k + 1 * j.val) : e = ix3 row 0 j := by
  subst hidx
  have hp : p.val < 1 := p.isLt
  have hq : q.val < 1 := q.isLt
  funext ax; apply Fin.ext
  match ax with
  | ⟨0, _⟩ => show (e 0).val = row.val; rw [h0, hrow]; show r * 1 + 1 * p.val = r; omega
  | ⟨1, _⟩ => show (e 1).val = 0; rw [h1]; show 0 * 1 + 1 * q.val = 0; omega
  | ⟨2, _⟩ => show (e 2).val = j.val; rw [h2]; show 0 * k + 1 * j.val = j.val; omega

/-! Each window's block at a point, with the tables' contents a variable: the block index in closed form, the side
    condition's bound on it for a table-indexed window, and the arithmetic above. -/

theorem emb_0 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 0).blk t).view.emb (ix3 p q j) = ix3 (inB (pf 0 (ix1 n)).toNat) 0 j := by
  subst hpf
  have hi : ((cfg0 a).win 0).index t = ![(a.1 0 (ix1 n)).toNat, 0, 0] :=
    (tr0_eq a.1 (grid0.coords t)).trans (by rw [pt_eq t n hn])
  have hb : ((cfg0 a).win 0).index t (0 : Fin 3) + 1 ≤ 256000 :=
    (Nat.mul_one _).symm.trans_le ((a.2.1 (grid0.coords t)).elim fun h _ => h 0)
  rw [hi] at hb
  exact row_at _ _ _ hi p q j _ (inB_val _ hb) rfl rfl rfl

theorem emb_1 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 1).blk t).view.emb (ix3 p q j) = ix3 (inB (pf 1 (ix1 n)).toNat) 0 j := by
  subst hpf
  have hi : ((cfg0 a).win 1).index t = ![(a.1 1 (ix1 n)).toNat, 0, 0] :=
    (tr1_eq a.1 (grid0.coords t)).trans (by rw [pt_eq t n hn])
  have hb : ((cfg0 a).win 1).index t (0 : Fin 3) + 1 ≤ 256000 :=
    (Nat.mul_one _).symm.trans_le ((a.2.2.1 (grid0.coords t)).elim fun h _ => h 0)
  rw [hi] at hb
  exact row_at _ _ _ hi p q j _ (inB_val _ hb) rfl rfl rfl

theorem emb_2 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 2).blk t).view.emb (ix3 p q j) = ix3 (inB (pf 2 (ix1 n)).toNat) 0 j := by
  subst hpf
  have hi : ((cfg0 a).win 2).index t = ![(a.1 2 (ix1 n)).toNat, 0, 0] :=
    (tr2_eq a.1 (grid0.coords t)).trans (by rw [pt_eq t n hn])
  have hb : ((cfg0 a).win 2).index t (0 : Fin 3) + 1 ≤ 256000 :=
    (Nat.mul_one _).symm.trans_le ((a.2.2.2.1 (grid0.coords t)).elim fun h _ => h 0)
  rw [hi] at hb
  exact row_at _ _ _ hi p q j _ (inB_val _ hb) rfl rfl rfl

theorem emb_3 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 3).blk t).view.emb (ix3 p q j) = ix3 (inB (pf 3 (ix1 n)).toNat) 0 j := by
  subst hpf
  have hi : ((cfg0 a).win 3).index t = ![(a.1 3 (ix1 n)).toNat, 0, 0] :=
    (tr3_eq a.1 (grid0.coords t)).trans (by rw [pt_eq t n hn])
  have hb : ((cfg0 a).win 3).index t (0 : Fin 3) + 1 ≤ 256000 :=
    (Nat.mul_one _).symm.trans_le ((a.2.2.2.2.1 (grid0.coords t)).elim fun h _ => h 0)
  rw [hi] at hb
  exact row_at _ _ _ hi p q j _ (inB_val _ hb) rfl rfl rfl

theorem emb_4 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 4).blk t).view.emb (ix3 p q j) = ix3 (inA (pf 4 (ix1 n)).toNat) 0 j := by
  subst hpf
  have hi : ((cfg0 a).win 4).index t = ![(a.1 4 (ix1 n)).toNat, 0, 0] :=
    (tr4_eq a.1 (grid0.coords t)).trans (by rw [pt_eq t n hn])
  have hb : ((cfg0 a).win 4).index t (0 : Fin 3) + 1 ≤ 258000 :=
    (Nat.mul_one _).symm.trans_le ((a.2.2.2.2.2.1 (grid0.coords t)).elim fun h _ => h 0)
  rw [hi] at hb
  exact row_at _ _ _ hi p q j _ (inA_val _ hb) rfl rfl rfl

theorem emb_5 (a : (pcfg0 (F := F)).Adm) (pf : pre0.Contents (Elt F)) (hpf : a.1 = pf) (t : Fin (cfg0 a).N)
    (n : Fin 1000) (hn : n.val = t.val) (p q : Fin 1) (j : Fin 512) :
    (((cfg0 a).win 5).blk t).view.emb (ix3 p q j) = ix3 (inA (pf 5 (ix1 n)).toNat) 0 j := by
  subst hpf
  have hi : ((cfg0 a).win 5).index t = ![(a.1 5 (ix1 n)).toNat, 0, 0] :=
    (tr5_eq a.1 (grid0.coords t)).trans (by rw [pt_eq t n hn])
  have hb : ((cfg0 a).win 5).index t (0 : Fin 3) + 1 ≤ 258000 :=
    (Nat.mul_one _).symm.trans_le ((a.2.2.2.2.2.2 (grid0.coords t)).elim fun h _ => h 0)
  rw [hi] at hb
  exact row_at _ _ _ hi p q j _ (inA_val _ hb) rfl rfl rfl

theorem emb_6 (a : (pcfg0 (F := F)).Adm) (t : Fin (cfg0 a).N) (n : Fin 1000) (hn : n.val = t.val) (p q : Fin 1) (j : Fin 10) :
    (((cfg0 a).win 6).blk t).view.emb (ix3 p q j) = ix3 n 0 j :=
  row_at _ _ _ ((tr6_eq (grid0.coords t)).trans (by rw [(coord_val t).trans hn.symm])) p q j n rfl rfl rfl rfl

theorem emb_7 (a : (pcfg0 (F := F)).Adm) (t : Fin (cfg0 a).N) (n : Fin 1000) (hn : n.val = t.val) (p q : Fin 1) (j : Fin 3082) :
    (((cfg0 a).win 7).blk t).view.emb (ix3 p q j) = ix3 n 0 j :=
  row_at _ _ _ ((tr7_eq (grid0.coords t)).trans (by rw [(coord_val t).trans hn.symm])) p q j n rfl rfl rfl rfl

/-! ## The output's blocks tile its array -/

/-- The output's block index at point t is (t, 0, 0). -/
theorem idx_7 (a : (pcfg0 (F := F)).Adm) (t : Fin (cfg0 a).N) : ((cfg0 a).win 7).index t = ![t.val, 0, 0] :=
  (tr7_eq (grid0.coords t)).trans (by rw [coord_val t])

/-- Every point writes its block back: the block index moves at every step. -/
theorem flush_7 (a : (pcfg0 (F := F)).Adm) (t : Fin (cfg0 a).N) : ((cfg0 a).win 7).flush t = true := by
  unfold Window.flush
  rw [show ((cfg0 a).win 7).isOut = true from rfl, Bool.true_and, Bool.or_eq_true, decide_eq_true_eq, decide_eq_true_eq]
  rcases Nat.lt_or_ge (t.val + 1) grid0.N with h | h
  · refine Or.inr ⟨h, fun he => ?_⟩
    have e := congrFun he (0 : Fin 3)
    rw [idx_7, idx_7] at e
    have e' : t.val + 1 = t.val := e
    omega
  · exact Or.inl (Nat.le_antisymm t.isLt h)

/-- An index of the output array is in point t's block iff each coordinate is in the block's range on its axis. -/
theorem mem_blk7 (a : (pcfg0 (F := F)).Adm) (t : Fin (cfg0 a).N) (i : S1000x1x3082.Idx) :
    i ∈ (((cfg0 a).win 7).blk t).view.set ↔ ∀ ax : Fin 3, ((cfg0 a).win 7).index t ax * S1x1x3082.size ax ≤ (i ax).val
      ∧ (i ax).val < ((cfg0 a).win 7).index t ax * S1x1x3082.size ax + S1x1x3082.size ax := by
  have e : (((cfg0 a).win 7).blk t).view.set = (((cfg0 a).win 7).rect t).set := View.set_slice_whole main_v42 _
  rw [e]
  exact Rect.mem_set_unit

/-- Row r of the output is point r's block. -/
theorem cover_7 (a : (pcfg0 (F := F)).Adm) (i : S1000x1x3082.Idx) :
    ∃ t : Fin (cfg0 a).N, ((cfg0 a).win 7).flush t = true ∧ i ∈ (((cfg0 a).win 7).blk t).view.set := by
  have h0 : (i 0).val < 1000 := (i 0).isLt
  have h1 : (i 1).val < 1 := (i 1).isLt
  have h2 : (i 2).val < 3082 := (i 2).isLt
  refine ⟨⟨(i 0).val, lt_of_lt_of_eq h0 N_0.symm⟩, flush_7 a _, ?_⟩
  rw [mem_blk7]
  intro ax
  rw [idx_7]
  match ax with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 3082 ≤ (i 2).val ∧ (i 2).val < 0 * 3082 + 3082; omega

/-! ## What a point writes back, and the array -/

/-- The row of a point's seven input blocks is the claim's row, whatever the tables and the arrays hold: each input
    block is the row of its array that the point's block index names, and the output's block t is row t. -/
theorem row_written (a : (pcfg0 (F := F)).Adm) (pf : pre0.Contents (Elt F)) (hpf : a.1 = pf)
    (B : S256000x1x512.Idx → Elt F .f32) (A : S258000x1x512.Idx → Elt F .f32) (Nm : S1000x1x10.Idx → Elt F .f32)
    (t : Fin (cfg0 a).N) (p q : Fin 1) (j : Fin 3082) :
    k0_pay1 ((((cfg0 a).win 0).blk t).view.read (Elt F) B) ((((cfg0 a).win 1).blk t).view.read (Elt F) B)
        ((((cfg0 a).win 2).blk t).view.read (Elt F) B) ((((cfg0 a).win 3).blk t).view.read (Elt F) B)
        ((((cfg0 a).win 4).blk t).view.read (Elt F) A) ((((cfg0 a).win 5).blk t).view.read (Elt F) A)
        ((((cfg0 a).win 6).blk t).view.read (Elt F) Nm) (ix3 p q j)
      = Gk (fun n => (pf 0 (ix1 n)).toNat) (fun n => (pf 1 (ix1 n)).toNat) (fun n => (pf 2 (ix1 n)).toNat) (fun n => (pf 3 (ix1 n)).toNat) (fun n => (pf 4 (ix1 n)).toNat) (fun n => (pf 5 (ix1 n)).toNat)
          B A Nm ((((cfg0 a).win 7).blk t).view.emb (ix3 p q j)) := by
  have hn : (⟨t.val, lt_of_lt_of_eq t.isLt N_0⟩ : Fin 1000).val = t.val := rfl
  rw [emb_7 a t ⟨t.val, lt_of_lt_of_eq t.isLt N_0⟩ hn p q j]
  refine pay_eq_Gk _ _ _ _ _ _ _ _ _ _ _ _ _ B A Nm ⟨t.val, lt_of_lt_of_eq t.isLt N_0⟩ ?_ ?_ ?_ ?_ ?_ ?_ ?_ p q j
  · intro j'
    show B ((((cfg0 a).win 0).blk t).view.emb (ix3 0 0 j')) = _
    rw [emb_0 a pf hpf t _ hn 0 0 j']
  · intro j'
    show B ((((cfg0 a).win 1).blk t).view.emb (ix3 0 0 j')) = _
    rw [emb_1 a pf hpf t _ hn 0 0 j']
  · intro j'
    show B ((((cfg0 a).win 2).blk t).view.emb (ix3 0 0 j')) = _
    rw [emb_2 a pf hpf t _ hn 0 0 j']
  · intro j'
    show B ((((cfg0 a).win 3).blk t).view.emb (ix3 0 0 j')) = _
    rw [emb_3 a pf hpf t _ hn 0 0 j']
  · intro j'
    show A ((((cfg0 a).win 4).blk t).view.emb (ix3 0 0 j')) = _
    rw [emb_4 a pf hpf t _ hn 0 0 j']
  · intro j'
    show A ((((cfg0 a).win 5).blk t).view.emb (ix3 0 0 j')) = _
    rw [emb_5 a pf hpf t _ hn 0 0 j']
  · intro j'
    show Nm ((((cfg0 a).win 6).blk t).view.emb (ix3 0 0 j')) = _
    rw [emb_6 a t _ hn 0 0 j']

/-- The output block the body leaves is the row of its seven input blocks: its one store covers the whole block, and
    each load reads a whole input block. -/
theorem outRow_eq (x0 x1 x2 x3 x4 x5 : Vec F S1x1x512 .f32) (x6 : Vec F S1x1x10 .f32) :
    outRow x0 x1 x2 x3 x4 x5 x6 = k0_pay1 x0 x1 x2 x3 x4 x5 x6 := by
  unfold outRow
  rw [View.canon_unit_zero hz3]
  simp only [View.ld_unit_zero (S := S1x1x512) hz3, View.ld_unit_zero (S := S1x1x10) hz3]

/-- What point t writes back is block t of the claim's function of the arrays as the region finds them: the body
    leaves the row of its seven loaded blocks, which is the claim's row. -/
theorem flushed_eq (hO : Ok m) (c : Dev nD) (t : Fin (cfgM m hO).N) :
    (dats m hO 0 c).flushed 7 t = (((cfgM m hO).win 7).blk t).view.read (Elt F)
      (Gk (fun n => (tbl m 0 (ix1 n)).toNat) (fun n => (tbl m 1 (ix1 n)).toNat) (fun n => (tbl m 2 (ix1 n)).toNat) (fun n => (tbl m 3 (ix1 n)).toNat) (fun n => (tbl m 4 (ix1 n)).toNat) (fun n => (tbl m 5 (ix1 n)).toNat)
        (V m c main_v39) (V m c main_v40) (V m c main_v41)) := by
  show ((cfgM m hO).win 7).cut ((cfgM m hO).grid.coords t) ((dats m hO 0 c).after 7 t) = _
  rw [after_7, outRow_eq (iblk m hO c 0 t) (iblk m hO c 1 t) (iblk m hO c 2 t) (iblk m hO c 3 t) (iblk m hO c 4 t) (iblk m hO c 5 t) (iblk m hO c 6 t)]
  refine funext fun (y : S1x1x3082.Idx) => ?_
  obtain ⟨p, q, j, rfl⟩ : ∃ (p q : Fin 1) (j : Fin 3082), y = ix3 p q j := ⟨y 0, y 1, y 2, eq_ix3 y⟩
  exact row_written (adm m hO) (tbl m) rfl (V m c main_v39) (V m c main_v40) (V m c main_v41) t p q j

/-- The output window's array after the last point. -/
theorem out_array (hO : Ok m) (c : Dev nD) :
    (dats m hO 0 c).arrAt 7 (cfgM m hO).N
      = Gk (fun n => (tbl m 0 (ix1 n)).toNat) (fun n => (tbl m 1 (ix1 n)).toNat) (fun n => (tbl m 2 (ix1 n)).toNat) (fun n => (tbl m 3 (ix1 n)).toNat) (fun n => (tbl m 4 (ix1 n)).toNat) (fun n => (tbl m 5 (ix1 n)).toNat)
          (V m c main_v39) (V m c main_v40) (V m c main_v41) := by
  exact (dats m hO 0 c).arrAt_eq_of_cover 7 _ (fun t _ => flushed_eq m hO c t) (fun i => cover_7 (adm m hO) i)

end Cert.KernelIdeal.Hand

end
-- ==== Proof.Hand.Final.lean ====
/-
  The program's result. The last operation reshapes the output array [1000, 1, 3082] to [1, 1000, 3082]; inside the
  index domain the tables' words are the flattened row numbers n * 256 + r and n * 258 + r, and flattened row
  n * 256 + r of the reshaped first table is row r of position n (likewise the second), so the result is the
  specification `G` of the four arguments. With the run of the program this gives: every execution ends with the
  result at `G` and the arguments unchanged.
-/
import proofs.«402364_j79723182948737_2_alg».proof.Proof.Hand.Frame
import proofs.«402364_j79723182948737_2_alg».proof.Proof.Hand.KernelValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.GatherSpec

/-! ## The two entry-by-entry functions at an index given by its coordinates -/

section Points
variable {α : Type}

/-- The output array at (n, 0, j): the case split on the column j alone. -/
theorem Gk_at (T0 T1 T2 T3 T4 T5 : Fin 1000 → Nat) (B : SFlatB.Idx → α) (A : SFlatA.Idx → α) (Nm : SNum3.Idx → α)
    (n : Fin 1000) (j : Fin 3082) :
    Gk T0 T1 T2 T3 T4 T5 B A Nm (ix3 n 0 j)
      = if h0 : j.val < 512 then B (ix3 (inB (T0 n)) 0 ⟨j.val, h0⟩)
        else if h1 : j.val < 1024 then B (ix3 (inB (T1 n)) 0 ⟨j.val - 512, by omega⟩)
        else if h2 : j.val < 1536 then B (ix3 (inB (T2 n)) 0 ⟨j.val - 1024, by omega⟩)
        else if h3 : j.val < 2048 then B (ix3 (inB (T3 n)) 0 ⟨j.val - 1536, by omega⟩)
        else if h4 : j.val < 2560 then A (ix3 (inA (T4 n)) 0 ⟨j.val - 2048, by omega⟩)
        else if h5 : j.val < 3072 then A (ix3 (inA (T5 n)) 0 ⟨j.val - 2560, by omega⟩)
        else Nm (ix3 n 0 ⟨j.val - 3072, by have := j.isLt; omega⟩) := rfl

/-- The specification at (p, n, j): the same case split on the column j. -/
theorem G_at (cd : IVec SCand 32) (num : SNum.Idx → α) (blo : SBlo.Idx → α) (att : SAtt.Idx → α)
    (p : Fin 1) (n : Fin 1000) (j : Fin 3082) :
    G cd num blo att (ix3 p n j)
      = if h0 : j.val < 512 then blo (ix4 0 n (rowB cd n 1) ⟨j.val, h0⟩)
        else if h1 : j.val < 1024 then blo (ix4 0 n (rowB cd n 2) ⟨j.val - 512, by omega⟩)
        else if h2 : j.val < 1536 then blo (ix4 0 n (rowB cd n 4) ⟨j.val - 1024, by omega⟩)
        else if h3 : j.val < 2048 then blo (ix4 0 n (rowB cd n 5) ⟨j.val - 1536, by omega⟩)
        else if h4 : j.val < 2560 then att (ix4 0 n (rowA cd n 0) ⟨j.val - 2048, by omega⟩)
        else if h5 : j.val < 3072 then att (ix4 0 n (rowA cd n 3) ⟨j.val - 2560, by omega⟩)
        else num (ix3 0 n ⟨j.val - 3072, by have := j.isLt; omega⟩) := rfl

/-- The last reshape at an index: entry (p, n, j) of the [1, 1000, 3082] result is entry (n, 0, j) of the
    [1000, 1, 3082] array (both at flat position n * 3082 + j). -/
theorem out_reshape_at (x : SOut3.Idx → α) (h : SOut3.ShapeCasts SOut) (p : Fin 1) (n : Fin 1000) (j : Fin 3082) :
    shapeCast SOut x h (ix3 p n j) = x (ix3 n 0 j) := by
  refine shapeCast_apply x h (ix3 p n j) (ix3 n 0 j) ?_
  rw [Shape.rowMajor_val_three, Shape.rowMajor_val_three]
  have hp : p.val = 0 := by have := p.isLt; omega
  show (n.val * 1 + 0) * 3082 + j.val = (p.val * 1000 + n.val) * 3082 + j.val
  rw [hp]; omega

end Points

/-! ## A row of a table, read through the flattened table -/

/-- Flattened row n * 256 + r of the first table, as staged, is row r of position n of the argument. -/
theorem rowB_read (c : Dev nD) (T : Nat) (n : Fin 1000) (r : Fin 256) (hT : T = n.val * 256 + r.val) (j : Fin 512) :
    V m c main_v39 (ix3 (inB T) 0 j) = m ((c.tc : Thread nD τ).loc main_arg2) (ix4 0 n r j) := by
  subst hT
  have hn := n.isLt
  have hr := r.isLt
  have hq : (inB (n.val * 256 + r.val)).val = n.val * 256 + r.val := by
    show min (n.val * 256 + r.val) 255999 = n.val * 256 + r.val
    omega
  have key : ∀ (a a' : Fin 1000) (b b' : Fin 256), a = a' → b = b' →
      m ((c.tc : Thread nD τ).loc main_arg2) (ix4 0 a b j) = m ((c.tc : Thread nD τ).loc main_arg2) (ix4 0 a' b' j) := by
    rintro _ _ _ _ rfl rfl; rfl
  rw [V_v39_at]
  refine key _ _ _ _ (Fin.ext ?_) (Fin.ext ?_)
  · show (inB (n.val * 256 + r.val)).val / 256 = n.val
    rw [hq]; omega
  · show (inB (n.val * 256 + r.val)).val % 256 = r.val
    rw [hq]; omega

/-- Flattened row n * 258 + r of the second table, as staged, is row r of position n of the argument. -/
theorem rowA_read (c : Dev nD) (T : Nat) (n : Fin 1000) (r : Fin 258) (hT : T = n.val * 258 + r.val) (j : Fin 512) :
    V m c main_v40 (ix3 (inA T) 0 j) = m ((c.tc : Thread nD τ).loc main_arg3) (ix4 0 n r j) := by
  subst hT
  have hn := n.isLt
  have hr := r.isLt
  have hq : (inA (n.val * 258 + r.val)).val = n.val * 258 + r.val := by
    show min (n.val * 258 + r.val) 257999 = n.val * 258 + r.val
    omega
  have key : ∀ (a a' : Fin 1000) (b b' : Fin 258), a = a' → b = b' →
      m ((c.tc : Thread nD τ).loc main_arg3) (ix4 0 a b j) = m ((c.tc : Thread nD τ).loc main_arg3) (ix4 0 a' b' j) := by
    rintro _ _ _ _ rfl rfl; rfl
  rw [V_v40_at]
  refine key _ _ _ _ (Fin.ext ?_) (Fin.ext ?_)
  · show (inA (n.val * 258 + r.val)).val / 258 = n.val
    rw [hq]; omega
  · show (inA (n.val * 258 + r.val)).val % 258 = r.val
    rw [hq]; omega

/-! ## The output array is the specification, point by point -/

/-- Inside the index domain, entry (n, 0, j) of the output array is entry (p, n, j) of the specification. -/
theorem out_point (hB : Bounds (cand m)) (p : Fin 1) (n : Fin 1000) (j : Fin 3082) :
    Gk (fun n => (tbl m 0 (ix1 n)).toNat) (fun n => (tbl m 1 (ix1 n)).toNat) (fun n => (tbl m 2 (ix1 n)).toNat)
        (fun n => (tbl m 3 (ix1 n)).toNat) (fun n => (tbl m 4 (ix1 n)).toNat) (fun n => (tbl m 5 (ix1 n)).toNat)
        (V m 0 main_v39) (V m 0 main_v40) (V m 0 main_v41) (ix3 n 0 j)
      = G (cand m) (m (((0 : Dev nD).tc : Thread nD τ).loc main_arg1)) (m (((0 : Dev nD).tc : Thread nD τ).loc main_arg2))
          (m (((0 : Dev nD).tc : Thread nD τ).loc main_arg3)) (ix3 p n j) := by
  rw [Gk_at, G_at]
  split_ifs with h0 h1 h2 h3 h4 h5
  · exact rowB_read m 0 _ n _ (tbl0_toNat m hB n) _
  · exact rowB_read m 0 _ n _ (tbl1_toNat m hB n) _
  · exact rowB_read m 0 _ n _ (tbl2_toNat m hB n) _
  · exact rowB_read m 0 _ n _ (tbl3_toNat m hB n) _
  · exact rowA_read m 0 _ n _ (tbl4_toNat m hB n) _
  · exact rowA_read m 0 _ n _ (tbl5_toNat m hB n) _
  · exact V_v41_at m 0 n _

/-- Inside the index domain, the program's result buffer at the end holds `G` of the arguments. -/
theorem Wf_out (hO : Ok m) (hB : Bounds (cand m)) (c : Dev nD) :
    Wf m hO c main_v43 = G (m ((c.tc : Thread nD τ).loc main_arg0)) (m ((c.tc : Thread nD τ).loc main_arg1)) (m ((c.tc : Thread nD τ).loc main_arg2)) (m ((c.tc : Thread nD τ).loc main_arg3)) := by
  obtain rfl : c = 0 := Subsingleton.elim _ _
  unfold Wf Pipeline.afterTail
  simp only [List.flatten_cons, List.flatten_nil, List.append_nil, hostOps1]
  rw [StableHlo.after_cons, StableHlo.after_nil, StableHlo.reshape_result, exit_out m hO 0 _ _, out_array m hO 0]
  funext i
  rw [eq_ix3 i]
  exact (out_reshape_at _ _ (i 0) (i 1) (i 2)).trans (out_point m hB (i 0) (i 1) (i 2))

/-- Inside the index domain: every execution ends, the result at `G` of the arguments, the arguments unchanged. -/
theorem kernel_run (hB : Bounds (cand m)) :
    θ_run defs (onTc (τ := τ) (main (F := F))) ⟨m, fun _ => 0, ρ⟩ (fun r => ∀ c : Dev nD,
      r.2.mem ((c.tc : Thread nD τ).loc main_v43) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v43 (rest_of_bypass mem_v43)).trans (Wf_out m (ok_of_bounds m hB) hB c),
     ((h c).2 main_arg0 (rest_of_bypass mem_arg0)).trans ((Wf_of_ne m (ok_of_bounds m hB) c mem_arg0 (by decide)).trans (V_arg0 m c)),
     ((h c).2 main_arg1 (rest_of_bypass mem_arg1)).trans ((Wf_of_ne m (ok_of_bounds m hB) c mem_arg1 (by decide)).trans (V_arg1 m c)),
     ((h c).2 main_arg2 (rest_of_bypass mem_arg2)).trans ((Wf_of_ne m (ok_of_bounds m hB) c mem_arg2 (by decide)).trans (V_arg2 m c)),
     ((h c).2 main_arg3 (rest_of_bypass mem_arg3)).trans ((Wf_of_ne m (ok_of_bounds m hB) c mem_arg3 (by decide)).trans (V_arg3 m c))⟩)
    (run_main m ρ (ok_of_bounds m hB))

end Cert.KernelIdeal.Hand

end
-- ==== Proof.HandK.Setup.lean ====
/-
  The entry of the gather kernel's one pipeline, at any float instance: what the core's buffers hold when the
  region is entered (the host operations before it have run), the six prefetched index tables read off those
  contents, the pipeline at those tables, each window's block at a grid point, and the fact that every input
  window's staging buffer holds that block when the body runs.
-/
import proofs.«402364_j79723182948737_2_alg».proof.Proof.Gen.Kernel.Launch
import proofs.«402364_j79723182948737_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the host operations before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations, the region, one more host operation; so from the launch contents it
    reduces to the region, entered at `V`, continued by that last operation. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The prefetched tables -/

/-- The six index tables as the region finds them (there is one device). -/
def tbl : pre0.Contents (Elt F) := fun j => V m (0 : Dev nD) (pre0.ref j)
theorem V_pre (c : Dev nD) (j : Fin 6) : V m c (pre0.ref j) = tbl m j := by
  obtain rfl : c = 0 := Subsingleton.elim _ _; rfl

/-- Every table-indexed block lies inside its table: what the pipeline asks of the tables' contents. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, whether or not the pipeline fetched it
    there: where it did not, the block index has not moved since the last fetch. -/
theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether or not the pipeline fetched it
    there: where it did not, the block index has not moved since the last fetch. -/
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether or not the pipeline fetched it
    there: where it did not, the block index has not moved since the last fetch. -/
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether or not the pipeline fetched it
    there: where it did not, the block index has not moved since the last fetch. -/
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, whether or not the pipeline fetched it
    there: where it did not, the block index has not moved since the last fetch. -/
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, whether or not the pipeline fetched it
    there: where it did not, the block index has not moved since the last fetch. -/
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, whether or not the pipeline fetched it
    there: where it did not, the block index has not moved since the last fetch. -/
theorem before_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs the body is called with -/

abbrev ms_0 (hO : Ok m) (t : Fin (cfgM m hO).N) : Memref sig .tc .vmem S1x1x512 .f32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x1x512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x512 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1x512 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x512 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S1x1x512 .f32 := spec0_5.stage ((cfgM m hO).slots t 5)
abbrev hs_5 (hO : Ok m) (t : Fin (cfgM m hO).N) : (ms_5 m hO t).IsWhole := hstage0_5 (((cfgM m hO).slots t 5).cast nbuf0_5)
abbrev ms_6 (hO : Ok m) (t : Fin (cfgM m hO).N) : Memref sig .tc .vmem S1x1x10 .f32 := spec0_6.stage ((cfgM m hO).slots t 6)
abbrev hs_6 (hO : Ok m) (t : Fin (cfgM m hO).N) : (ms_6 m hO t).IsWhole := hstage0_6 (((cfgM m hO).slots t 6).cast nbuf0_6)
abbrev ms_7 (hO : Ok m) (t : Fin (cfgM m hO).N) : Memref sig .tc .vmem S1x1x3082 .f32 := spec0_7.stage ((cfgM m hO).slots t 7)
abbrev hs_7 (hO : Ok m) (t : Fin (cfgM m hO).N) : (ms_7 m hO t).IsWhole := hstage0_7 (((cfgM m hO).slots t 7).cast nbuf0_7)

/-- The kernel body as the pipeline calls it at point `t`. -/
abbrev bodyAt (hO : Ok m) (t : Fin (cfgM m hO).N) : Prog (TpuEff nD τ sig (Elt F) Λ₀ .tc) PUnit :=
  cc0__gather_kernel (grid0.coords t) (Memref.whole main_v9) (Memref.isWhole_whole _) (Memref.whole main_v14) (Memref.isWhole_whole _) (Memref.whole main_v19) (Memref.isWhole_whole _) (Memref.whole main_v24) (Memref.isWhole_whole _) (Memref.whole main_v31) (Memref.isWhole_whole _) (Memref.whole main_v38) (Memref.isWhole_whole _)
    (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) (ms_6 m hO t) (hs_6 m hO t) (ms_7 m hO t) (hs_7 m hO t)

end Cert.Kernel.Hand

end
-- ==== Proof.HandK.Body.lean ====
/-
  The gather kernel's body at one grid point. It loads its seven input blocks (six table rows of width 512 and
  the ten numeric features), lays them side by side and stores the row of width 3082 over the whole output block;
  nothing is kept between points. From that: the proof data of the pipeline (every input buffer holds its block,
  the output buffer the row made of the point's input blocks) and the body obligation at every point.
-/
import proofs.«402364_j79723182948737_2_alg».proof.Proof.HandK.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body stores -/

abbrev rRow : Rect S1x1x512 := Rect.unit (s := S1x1x512) ![0, 0, 0] S1x1x512.size inb_S1x1x512_S1x1x512_0_0_0
abbrev rNum : Rect S1x1x10 := Rect.unit (s := S1x1x10) ![0, 0, 0] S1x1x10.size inb_S1x1x10_S1x1x10_0_0_0
abbrev rOut : Rect S1x1x3082 := Rect.unit (s := S1x1x3082) ![0, 0, 0] S1x1x3082.size inb_S1x1x3082_S1x1x3082_0_0_0

/-- The output block after the body, from the seven input blocks: its one store, over the whole block. -/
def outRow (x0 x1 x2 x3 x4 x5 : Vec F S1x1x512 .f32) (x6 : Vec F S1x1x10 .f32) : Vec F S1x1x3082 .f32 :=
  View.canon [⟨rOut, k0_pay1 (View.ld x0 rRow) (View.ld x1 rRow) (View.ld x2 rRow) (View.ld x3 rRow) (View.ld x4 rRow) (View.ld x5 rRow) (View.ld x6 rNum)⟩]

/-- The one store covers the block. -/
theorem coverOut (p0 : Vec F S1x1x3082 .f32) (y : S1x1x3082.Idx) :
    ∃ pc ∈ ([⟨rOut, p0⟩] : List (View.Piece (Elt F) S1x1x3082 .f32)), y ∈ pc.1.set :=
  View.cover_of_tiled [⟨rOut, p0⟩] S1x1x3082.size (by rfl) y

/-! ## The body's triple -/

set_option maxHeartbeats 1000000 in
/-- On whole staging memrefs, the inputs' at contents `x0 … x6` and the output's at anything, the body runs and
    leaves the inputs as they were and the output at `outRow` of them. The table memrefs are not read. -/
theorem sound_kernel (c : Dev nD) (E : Set ℕ) (i : grid0.Coords) (a1 : Memref sig .tc .smem S1000 .i32) (h1 : a1.IsWhole) (a2 : Memref sig .tc .smem S1000 .i32) (h2 : a2.IsWhole) (a3 : Memref sig .tc .smem S1000 .i32) (h3 : a3.IsWhole) (a4 : Memref sig .tc .smem S1000 .i32) (h4 : a4.IsWhole) (a5 : Memref sig .tc .smem S1000 .i32) (h5 : a5.IsWhole) (a6 : Memref sig .tc .smem S1000 .i32) (h6 : a6.IsWhole)
    (arg7 : Memref sig .tc .vmem S1x1x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x512 .f32) (harg12 : arg12.IsWhole) (arg13 : Memref sig .tc .vmem S1x1x10 .f32) (harg13 : arg13.IsWhole) (arg14 : Memref sig .tc .vmem S1x1x3082 .f32) (harg14 : arg14.IsWhole)
    (x0 x1 x2 x3 x4 x5 : Vec F S1x1x512 .f32) (x6 : Vec F S1x1x10 .f32) (K : PUnit → sProp 𝕄) :
    iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ (∃ d, owns (c : Thread nD τ) arg14 fullShare d)
        ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ owns (c : Thread nD τ) arg12 fullShare x5 ∗ owns (c : Thread nD τ) arg13 fullShare x6 ∗ owns (c : Thread nD τ) arg14 fullShare (outRow x0 x1 x2 x3 x4 x5 x6)) -∗ K ⟨⟩))
      ⊢ wp frame (wpE (defs₀ (F := F)) Variants.none c none) E (cc0__gather_kernel i a1 h1 a2 h2 a3 h3 a4 h4 a5 h5 a6 h6 arg7 harg7 arg8 harg8 arg9 harg9 arg10 harg10 arg11 harg11 arg12 harg12 arg13 harg13 arg14 harg14) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverOut _)

/-! ## The pipeline's proof data -/

/-- The proof data of the pipeline on core `c`: the arrays as the region finds them; after the body at point `t`
    each input buffer at its block and the output buffer at the row made of the point's input blocks; the invariant
    is the scoped rest, the generator register and the tables' halves, all untouched; nothing owed. The four windows
    on the first table hold a quarter of it each, the two on the second a half each. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outRow (iblk m hO c 0 t) (iblk m hO c 1 t) (iblk m hO c 2 t) (iblk m hO c 3 t) (iblk m hO c 4 t) (iblk m hO c 5 t) (iblk m hO c 6 t)
  Φ _ := iprop(Pipeline.ΦA spec0 c ∗ Pipeline.ΦT pre0 (tbl m) c)
  q w := match w with
    | ⟨0, _⟩ => fullShare.left.left
    | ⟨1, _⟩ => fullShare.left.right
    | ⟨2, _⟩ => fullShare.right.left
    | ⟨3, _⟩ => fullShare.right.right
    | ⟨4, _⟩ => fullShare.left
    | ⟨5, _⟩ => fullShare.right
    | ⟨6, _⟩ => fullShare
    | ⟨7, _⟩ => fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = outRow (iblk m hO c 0 t) (iblk m hO c 1 t) (iblk m hO c 2 t) (iblk m hO c 3 t) (iblk m hO c 4 t) (iblk m hO c 5 t) (iblk m hO c 6 t) := by dsimp only [dats]; try rfl

theorem before_0 (hO : Ok m) (c : Dev nD) (t : Fin (cfgM m hO).N) (d) : (dats m hO 0 c).before 0 t d = iblk m hO c 0 t :=
  before_0_of m hO (dats m hO 0 c) (A_eq m hO c 0) (after_0 m hO c) t d
theorem before_1 (hO : Ok m) (c : Dev nD) (t : Fin (cfgM m hO).N) (d) : (dats m hO 0 c).before 1 t d = iblk m hO c 1 t :=
  before_1_of m hO (dats m hO 0 c) (A_eq m hO c 1) (after_1 m hO c) t d
theorem before_2 (hO : Ok m) (c : Dev nD) (t : Fin (cfgM m hO).N) (d) : (dats m hO 0 c).before 2 t d = iblk m hO c 2 t :=
  before_2_of m hO (dats m hO 0 c) (A_eq m hO c 2) (after_2 m hO c) t d
theorem before_3 (hO : Ok m) (c : Dev nD) (t : Fin (cfgM m hO).N) (d) : (dats m hO 0 c).before 3 t d = iblk m hO c 3 t :=
  before_3_of m hO (dats m hO 0 c) (A_eq m hO c 3) (after_3 m hO c) t d
theorem before_4 (hO : Ok m) (c : Dev nD) (t : Fin (cfgM m hO).N) (d) : (dats m hO 0 c).before 4 t d = iblk m hO c 4 t :=
  before_4_of m hO (dats m hO 0 c) (A_eq m hO c 4) (after_4 m hO c) t d
theorem before_5 (hO : Ok m) (c : Dev nD) (t : Fin (cfgM m hO).N) (d) : (dats m hO 0 c).before 5 t d = iblk m hO c 5 t :=
  before_5_of m hO (dats m hO 0 c) (A_eq m hO c 5) (after_5 m hO c) t d
theorem before_6 (hO : Ok m) (c : Dev nD) (t : Fin (cfgM m hO).N) (d) : (dats m hO 0 c).before 6 t d = iblk m hO c 6 t :=
  before_6_of m hO (dats m hO 0 c) (A_eq m hO c 6) (after_6 m hO c) t d

/-! ## The body obligation -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d))
    ∗ (∃ d, owns (c : Thread nD τ) (ms_6 m hO t) fullShare ((dats m hO 0 c).before 6 t d))
    ∗ (∃ d, owns (c : Thread nD τ) (ms_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ owns (c : Thread nD τ) (ms_5 m hO t) fullShare ((dats m hO 0 c).after 5 t)
    ∗ owns (c : Thread nD τ) (ms_6 m hO t) fullShare ((dats m hO 0 c).after 6 t)
    ∗ owns (c : Thread nD τ) (ms_7 m hO t) fullShare ((dats m hO 0 c).after 7 t))

/-- The body at any point: the input memrefs hold their blocks, so the triple applies; the invariant and the
    core's dues pass through unread. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4, before_5, before_6]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (hO : Ok m) (c : Dev nD) : BodyObligation (dats (F := F) m hO 0 c) (defs₀ (F := F)) Variants.none () Set.univ := fun t => by
  rw [bigSep_W0, bigSep_W0]
  exact sound_body m hO c t

end Cert.Kernel.Hand

end
-- ==== Proof.HandK.Shares.lean ====
/-
  The six row windows read two tables: four windows the 256-row table, two the 258-row table. The region receives
  each table's buffer once, whole; the pipeline holds one points-to per window. A whole share is its two halves,
  and a half its two halves: the first table's buffer is dealt in quarters to its four windows, the second's in
  halves to its two, the numeric features and the output go whole to their one window each.
-/
import proofs.«402364_j79723182948737_2_alg».proof.Proof.HandK.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Halves and quarters of a whole share -/

theorem pt_halves {ℓ : Loc nD τ sig} (q : PosShare TreeShare) (f : Buf (Elt F) ℓ) :
    (ℓ ↦{q} f : sProp 𝕄) ⊢ iprop((ℓ ↦{q.left} f) ∗ (ℓ ↦{q.right} f)) :=
  (pointsTo_share (PosShare.mem_left_op_right q)).1

theorem pt_quarters {ℓ : Loc nD τ sig} (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H' := (pt_halves (F := F) fullShare f) $$ [H]
  · iexact H
  icases H' with ⟨HL, HR⟩
  ihave HL' := (pt_halves (F := F) fullShare.left f) $$ [HL]
  · iexact HL
  ihave HR' := (pt_halves (F := F) fullShare.right f) $$ [HR]
  · iexact HR
  icases HL' with ⟨H1, H2⟩
  icases HR' with ⟨H3, H4⟩
  isplitl [H1]; · iexact H1
  isplitl [H2]; · iexact H2
  isplitl [H3]; · iexact H3
  iexact H4

/-! ## The pipeline's arrays as plain points-tos -/

/-- Every window's array is a whole buffer, so the pipeline's `arrays` are points-tos of whole buffers, window `w`'s
    at the share the proof data gives it. -/
theorem arrays_pts (hO : Ok m) (c : Dev nD) (Fv : (w : Fin (cfgM m hO).W) → Buf (Elt F) (((cfgM m hO).spec w).arr.view.loc (c.tc : Thread nD τ))) :
    (dats m hO 0 c).arrays Fv = bigSep Finset.univ fun w => (((c.tc : Thread nD τ).loc (Pipeline.arrRef (cfgM m hO).spec w)) ↦{(dats m hO 0 c).share w} Fv w : sProp 𝕄) := by
  unfold Dat.arrays
  exact bigSep_congr fun w _ => by rw [(arr_whole0 w).set_eq_univ]

/-- The buffers behind the eight windows are four. -/
theorem image_arr : Finset.univ.image (Pipeline.arrRef (spec0)) = ({main_v39, main_v40, main_v41, main_v42} : Finset (Ref sig .tc)) := by decide

/-- Those four buffers, each whole at contents `W`, one points-to each. -/
theorem arrBufs_four (hO : Ok m) (c : Dev nD) (W : (b : Ref sig .tc) → Buf (Elt F) ((c.tc : Thread nD τ).loc b)) :
    (Pipeline.arrBufs (cfgM m hO).spec c W : sProp 𝕄)
      = iprop((((c.tc : Thread nD τ).loc main_v39) ↦{fullShare} W main_v39) ∗ (((c.tc : Thread nD τ).loc main_v40) ↦{fullShare} W main_v40)
          ∗ (((c.tc : Thread nD τ).loc main_v41) ↦{fullShare} W main_v41) ∗ (((c.tc : Thread nD τ).loc main_v42) ↦{fullShare} W main_v42)) := by
  classical
  unfold Pipeline.arrBufs
  rw [show Finset.univ.image (Pipeline.arrRef (cfgM m hO).spec) = ({main_v39, main_v40, main_v41, main_v42} : Finset (Ref sig .tc)) from image_arr,
    bigSep_insert (by decide), bigSep_insert (by decide), bigSep_insert (by decide), bigSep_singleton]
  rfl

/-- The pipeline's arrays at contents `Fv`, window by window: the window's buffer, its share, its contents. -/
theorem arrays_eight (hO : Ok m) (c : Dev nD) (Fv : (w : Fin (cfgM m hO).W) → Buf (Elt F) (((cfgM m hO).spec w).arr.view.loc (c.tc : Thread nD τ))) :
    (dats m hO 0 c).arrays Fv
      = iprop((((c.tc : Thread nD τ).loc (Pipeline.arrRef (cfgM m hO).spec 0)) ↦{fullShare.left.left} Fv 0) ∗ (((c.tc : Thread nD τ).loc (Pipeline.arrRef (cfgM m hO).spec 1)) ↦{fullShare.left.right} Fv 1)
          ∗ (((c.tc : Thread nD τ).loc (Pipeline.arrRef (cfgM m hO).spec 2)) ↦{fullShare.right.left} Fv 2) ∗ (((c.tc : Thread nD τ).loc (Pipeline.arrRef (cfgM m hO).spec 3)) ↦{fullShare.right.right} Fv 3)
          ∗ (((c.tc : Thread nD τ).loc (Pipeline.arrRef (cfgM m hO).spec 4)) ↦{fullShare.left} Fv 4) ∗ (((c.tc : Thread nD τ).loc (Pipeline.arrRef (cfgM m hO).spec 5)) ↦{fullShare.right} Fv 5)
          ∗ (((c.tc : Thread nD τ).loc (Pipeline.arrRef (cfgM m hO).spec 6)) ↦{fullShare} Fv 6) ∗ (((c.tc : Thread nD τ).loc (Pipeline.arrRef (cfgM m hO).spec 7)) ↦{fullShare} Fv 7)) := by
  rw [arrays_pts m hO c, bigSep_W0]
  rfl

/-- At the region's entry: the four buffers, each whole, make the eight windows' arrays at their shares. -/
theorem hsplit (hO : Ok m) (c : Dev nD) :
    (Pipeline.arrBufs (cfgM m hO).spec c (V m c) : sProp 𝕄) ⊢ (dats m hO 0 c).arrays ((dats m hO 0 c).arrAt · 0) := by
  have hF : (fun w => (dats m hO 0 c).arrAt w 0) = fun w => V m c (Pipeline.arrRef spec0 w) := funext fun w => A_eq m hO c w
  rw [hF, arrays_eight m hO c, arrBufs_four m hO c]
  iintro ⟨H39, H40, H41, H42⟩
  ihave Hq := (pt_quarters (F := F) (V m c main_v39)) $$ [H39]
  · iexact H39
  icases Hq with ⟨A0, A1, A2, A3⟩
  ihave Hh := (pt_halves (F := F) fullShare (V m c main_v40)) $$ [H40]
  · iexact H40
  icases Hh with ⟨A4, A5⟩
  isplitl [A0]; · iexact A0
  isplitl [A1]; · iexact A1
  isplitl [A2]; · iexact A2
  isplitl [A3]; · iexact A3
  isplitl [A4]; · iexact A4
  isplitl [A5]; · iexact A5
  isplitl [H41]; · iexact H41
  iexact H42

end Cert.Kernel.Hand

end
-- ==== Proof.HandK.Tail.lean ====
/-
  After the region the program has one more host operation: it reshapes the kernel's result [1000, 1, 3082] into
  the program's result [1, 1000, 3082]. It reads the output window's array, which only that window owns, and writes a
  buffer that bypasses the region; the two shared tables are not touched. So the operation runs holding just those two
  buffers, borrowed from the pipeline's arrays and from the bypassing buffers, and both are handed back.
-/
import proofs.«402364_j79723182948737_2_alg».proof.Proof.HandK.Shares

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the last operation -/

/-- The core's buffer contents after the last operation: from the region's exit (the arrays as the pipeline leaves
    them, every other buffer as at the region's entry) the reshape's result. -/
def Wf (hO : Ok m) (c : Dev nD) (b : Ref sig .tc) : Buf (Elt F) ((c.tc : Thread nD τ).loc b) :=
  Pipeline.afterTail pcfgs (fun _ => adm m hO) (dats m hO) 0 (V0 m) [hostOps1] c b

/-- The array of the output window is no other window's. -/
theorem out_unique : ∀ w : Fin 8, Pipeline.arrRef spec0 w = main_v42 → w = 7 := by decide

/-- The valuation at the region's exit reads, at the output array, what the pipeline left there. -/
theorem exit_out (hO : Ok m) (c : Dev nD) (Vv : Valuation τ sig (Elt F))
    (A : (w : Fin (cfgM m hO).W) → Buf (Elt F) (((cfgM m hO).spec w).arr.view.loc (c.tc : Thread nD τ))) :
    Pipeline.withArrays (cfgM m hO).spec c Vv A (Proc.devRef .tc main_v42) = A 7 := by
  unfold Pipeline.withArrays
  have h : ∃ w', Proc.devRef .tc (Pipeline.arrRef (cfgM m hO).spec w') = Proc.devRef (τ := τ) .tc main_v42 := ⟨7, rfl⟩
  rw [dif_pos h]
  suffices ∀ (w' : Fin (cfgM m hO).W) (e : Proc.devRef .tc (Pipeline.arrRef (cfgM m hO).spec w') = Proc.devRef (τ := τ) .tc main_v42),
      cast (congrArg (fun b' : DevRef τ sig => b'.ty.Contents (Elt F)) e) (A w') = A 7 from this _ h.choose_spec
  intro w' e
  obtain rfl : w' = 7 := out_unique w' (Proc.devRef_injective _ e)
  rfl

theorem mem_v43 : main_v43 ∈ Pipeline.restRefsP sig pre0 spec0 := by decide

/-- A bypassing buffer is no window's array. -/
theorem bypass_not_arr {b : Ref sig .tc} (hb : b ∈ Pipeline.restRefsP sig pre0 spec0) (w : Fin 8) : Pipeline.arrRef spec0 w ≠ b :=
  fun e => (Finset.mem_sdiff.mp (Finset.mem_sdiff.mp hb).1).2 (Finset.mem_image.mpr ⟨w, Finset.mem_univ _, e⟩)

/-- Every bypassing buffer but the reshape's result is, at the end, as at the region's entry. -/
theorem Wf_of_ne (hO : Ok m) (c : Dev nD) {b : Ref sig .tc} (hb : b ∈ Pipeline.restRefsP sig pre0 spec0) (hne : b ≠ main_v43) :
    Wf m hO c b = V m c b := by
  unfold Wf Pipeline.afterTail
  rw [StableHlo.after_of_forall_not_mem _ _ (fun op hop => ?_), Pipeline.withArrays_of_ne _ c _ _ b (fun w => bypass_not_arr hb w)]
  simp only [List.flatten_cons, List.flatten_nil, List.append_nil, hostOps1, List.mem_singleton] at hop
  subst hop
  simp only [StableHlo.reshape_writes, Finset.mem_singleton]
  exact StableHlo.devRef_ne_of_ne hne

/-- The tables are as at the region's entry. -/
theorem Wf_pre (hO : Ok m) (c : Dev nD) (k : Fin 6) : Wf m hO c (pre0.ref k) = tbl m k := by
  unfold Wf Pipeline.afterTail
  rw [StableHlo.after_of_forall_not_mem _ _ (fun op hop => ?_), Pipeline.withArrays_of_ne _ c _ _ _ (fun w e => preFacts0.disj k w e.symm)]
  · exact V_pre m c k
  · simp only [List.flatten_cons, List.flatten_nil, List.append_nil, hostOps1, List.mem_singleton] at hop
    subst hop
    simp only [StableHlo.reshape_writes, Finset.mem_singleton]
    exact StableHlo.devRef_ne_of_ne (by revert k; decide)

/-! ## The last operation, run from the region's exit -/

/-- The two buffers the reshape touches. -/
abbrev tailSet : Finset (DevRef τ sig) := {Proc.devRef .tc main_v42, Proc.devRef .tc main_v43}

theorem tail_sub : ∀ ops ∈ ([hostOps1] : List (List (HloOp τ sig (Elt F)))), ∀ op ∈ ops, op.bufs ⊆ (tailSet : Finset (DevRef τ sig)) := by
  intro ops hops op hop
  simp only [List.mem_singleton] at hops
  subst hops
  simp only [hostOps1, List.mem_singleton] at hop
  subst hop
  exact Finset.Subset.refl _

theorem tail_fresh : ∀ ops ∈ ([hostOps1] : List (List (HloOp τ sig (Elt F)))), ∀ op ∈ ops, op.fresh = ∅ := by
  intro ops hops op hop
  simp only [List.mem_singleton] at hops
  subst hops
  exact (List.forall_iff_forall_mem.mp hostOps1_fresh) op hop

/-- The two buffers, held at a valuation, are their two points-tos. -/
theorem held_tailSet (c : Dev nD) (Wv : Valuation τ sig (Elt F)) :
    (StableHlo.held (c.tc : Thread nD τ) tailSet Wv : sProp 𝕄)
      = iprop((((c.tc : Thread nD τ).loc main_v42) ↦{fullShare} Wv (Proc.devRef .tc main_v42)) ∗ (((c.tc : Thread nD τ).loc main_v43) ↦{fullShare} Wv (Proc.devRef .tc main_v43))) := by
  unfold StableHlo.held
  rw [bigSep_insert (by decide), bigSep_singleton]
  rfl

/-- The bypassing buffers at contents `W`: the reshape's result buffer, and the others. -/
theorem bypass_split (c : Dev nD) (W : (b : Ref sig .tc) → Buf (Elt F) ((c.tc : Thread nD τ).loc b)) :
    (Pipeline.unscopedRestP (Ix := Unit) (Name := ℕ) (U := UR sig nD τ) (Lvl := ℕ) pre0 spec0 c W : sProp 𝕄)
      = iprop((((c.tc : Thread nD τ).loc main_v43) ↦{fullShare} W main_v43)
          ∗ bigSep ((Pipeline.restRefsP sig pre0 spec0).erase main_v43) fun b => (((c.tc : Thread nD τ).loc b) ↦{fullShare} W b : sProp 𝕄)) := by
  classical
  unfold Pipeline.unscopedRestP
  rw [show (((Finset.univ.filter fun b : Ref sig .tc => ¬ b.isScoped) \ Finset.univ.image (Pipeline.arrRef spec0)) \ Finset.univ.image pre0.ref)
        = Pipeline.restRefsP sig pre0 spec0 from rfl, bigSep_erase mem_v43]
  rfl

set_option backward.isDefEq.respectTransparency.types false in
/-- From the region's exit — the arrays as the pipeline leaves them, the bypassing buffers as at its entry — the
    last operation runs, and leaves the arrays as they were and the bypassing buffers at `Wf`. -/
theorem htail (hO : Ok m) (c : Dev nD) (Q' : PUnit → sProp 𝕄) :
    iprop((iprop((dats m hO 0 c).arrays ((dats m hO 0 c).arrAt · (cfgM m hO).N)
              ∗ Pipeline.unscopedRestP (Ix := Unit) (Name := ℕ) (U := UR sig nD τ) (Lvl := ℕ) pre0 spec0 c (Wf m hO c)) -∗ Q' ⟨⟩)
        ∗ boundary (c.tc : Thread nD τ) ∗ (dats m hO 0 c).arrays ((dats m hO 0 c).arrAt · (cfgM m hO).N)
        ∗ Pipeline.unscopedRestP (Ix := Unit) (Name := ℕ) (U := UR sig nD τ) (Lvl := ℕ) pre0 spec0 c (V m c))
      ⊢ wp frame (wpE (Pipeline.defs pcfgs (defs₀ (F := F))) (Variants.lift Variants.none) (c.tc : Thread nD τ) none) Set.univ
          (Pipeline.chain [StableHlo.seq hostOps1]) Q' := by
  classical
  have hne : ∀ b ∈ (Pipeline.restRefsP sig pre0 spec0).erase main_v43,
      ((((c.tc : Thread nD τ).loc b) ↦{fullShare} Wf m hO c b : sProp 𝕄)) = (((c.tc : Thread nD τ).loc b) ↦{fullShare} V m c b) := fun b hb => by
    rw [Wf_of_ne m hO c (Finset.mem_of_mem_erase hb) (Finset.ne_of_mem_erase hb)]
  have hW42 : Pipeline.withArrays (cfgM m hO).spec c (V0 m c) (fun w => (dats m hO 0 c).arrAt w (cfgM m hO).N) (Proc.devRef .tc main_v42)
      = (dats m hO 0 c).arrAt 7 (cfgM m hO).N := exit_out m hO c _ _
  have hW43 : Pipeline.withArrays (cfgM m hO).spec c (V0 m c) (fun w => (dats m hO 0 c).arrAt w (cfgM m hO).N) (Proc.devRef .tc main_v43)
      = V m c main_v43 := Pipeline.withArrays_of_ne _ c _ _ main_v43 (fun w => bypass_not_arr mem_v43 w)
  have hA42 : StableHlo.after [hostOps1].flatten (Pipeline.withArrays (cfgM m hO).spec c (V0 m c) (fun w => (dats m hO 0 c).arrAt w (cfgM m hO).N)) (Proc.devRef .tc main_v42)
      = (dats m hO 0 c).arrAt 7 (cfgM m hO).N := by
    rw [StableHlo.after_of_forall_not_mem _ _ (fun op hop => ?_), hW42]
    simp only [List.flatten_cons, List.flatten_nil, List.append_nil, hostOps1, List.mem_singleton] at hop
    subst hop
    simp only [StableHlo.reshape_writes, Finset.mem_singleton]
    exact StableHlo.devRef_ne_of_ne (by decide)
  have hstep := Pipeline.wp_seqs_then pcfgs (defs₀ (F := F)) Variants.none c tailSet [] [hostOps1] tail_sub tail_fresh
    (Pipeline.withArrays (cfgM m hO).spec c (V0 m c) (fun w => (dats m hO 0 c).arrAt w (cfgM m hO).N)) (K := Q')
  rw [Pipeline.chain_nil, wp_pure, held_tailSet, held_tailSet, hW42, hW43, hA42] at hstep
  rw [show ([StableHlo.seq hostOps1] : List (Prog (TpuEff nD τ sig (Elt F) (Pipeline.Sig Λ₀ (Fin 1) fun p => (pcfgs (F := F) p).Adm) .tc) PUnit)) = [hostOps1].map StableHlo.seq ++ [] from rfl]
  rw [arrays_eight m hO c, bypass_split, bypass_split, bigSep_congr hne]
  iintro ⟨Hk, Hb, ⟨A0, A1, A2, A3, A4, A5, A6, A7⟩, ⟨H43, HR⟩⟩
  iapply hstep $$ [Hb A7 H43]
  · isplitl [Hb]; · iexact Hb
    isplitl [A7]; · iexact A7
    iexact H43
  iintro ⟨Hb, A7, H43⟩
  imodintro
  iapply Hk
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [H43]; · iexact H43
  iexact HR

end Cert.Kernel.Hand

end
-- ==== Proof.HandK.Run.lean ====
/-
  The run of the whole program at any float instance, under the tables' side condition: every weakly fair
  execution terminates, and at the end each window's array holds what the pipeline computes from the proof data
  (the output array: one row per grid point, the point's seven input blocks side by side) and every buffer that
  bypasses the region holds what the last reshape leaves.
-/
import proofs.«402364_j79723182948737_2_alg».proof.Proof.HandK.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline in
set_option backward.isDefEq.respectTransparency.types false in
theorem run_main (hO : Ok m) :
    θ_run defs (onTc (τ := τ) (main (F := F))) ⟨m, fun _ => 0, ρ⟩
      (Pipeline.FramePost (Pipeline.pin pcfgs fun _ => adm m hO) (dats m hO) 0 (Wf m hO)) := by
  classical
  exact Pipeline.θ_run_region_pf_tail pcfgs (fun _ => adm m hO) (dats m hO) () (cellOf_inj (fun _ => adm m hO)) 0 winFacts₀0
    (OwnSemFacts.none (Pipeline.pin pcfgs (fun _ => adm m hO) 0).spec) preFacts0 emb₁ defs₀ Variants.none m ρ main
    (fun _ => Pipeline.chain [StableHlo.seq hostOps1]) (fun c => (body_obligation m hO c).loose)
    block_pos0 arr_whole0 stage_whole0 (fun _ _ => rfl)
    (G := fun _ => iprop(emp))
    (u₀ := initOf (cells (Pipeline.pin pcfgs fun _ => adm m hO) (cellOf_inj (fun _ => adm m hO))) (launchToks (Pipeline.pin pcfgs fun _ => adm m hO) (cellOf_inj (fun _ => adm m hO))))
    (hu₀ := by
      iintro Hu; imodintro
      isplitl [Hu]; · iapply (show (ownU _ : sProp 𝕄) ⊢ BI.own (emb₁ (initOf (cells (Pipeline.pin pcfgs fun _ => adm m hO) (cellOf_inj (fun _ => adm m hO))) (launchToks (Pipeline.pin pcfgs fun _ => adm m hO) (cellOf_inj (fun _ => adm m hO))))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m hO)
    (hpf := V_pre m)
    (X := fun c => iprop(∃ r, prngReg c r)) (Y := fun c => iprop(∃ r, prngReg c r))
    (Z := fun c => unscopedRestP (Ix := Unit) (Name := ℕ) (U := UR sig nD τ) (Lvl := ℕ) pre0 (cfgM m hO).spec c (V m c))
    (Z' := fun c => unscopedRestP (Ix := Unit) (Name := ℕ) (U := UR sig nD τ) (Lvl := ℕ) pre0 (cfgM m hO).spec c (Wf m hO c))
    (hX := fun c => by
      iintro ⟨HU, -, -, -, Hp, -⟩; imodintro
      isplitl [Hp]; · iexists _; iexact Hp
      iexact HU)
    (hin := fun c => (show _ ⊢ iprop(ΦA (cfgM m hO).spec c ∗ ΦT pre0 (tbl m) c) by
      unfold ΦA ΦT; iintro ⟨Hp, Ht, Hr⟩
      isplitr [Ht]
      · isplitl [Hr] <;> iassumption
      · iexact Ht).trans .rfl)
    (hout := fun c => (show (dats m hO 0 c).Φ (Fin.last (cfgM m hO).N) ⊢ ΦA (cfgM m hO).spec c by
        show iprop(ΦA spec0 c ∗ ΦT pre0 (tbl m) c) ⊢ _
        iintro ⟨H, -⟩; iexact H).trans (by
      rw [ownSems0_none]; unfold ΦA
      iintro ⟨Hr, Hp⟩
      isplitl [Hp]; · iexact Hp
      isplitr; · iempintro
      iexact Hr))
    (htail := fun c Q' => htail m hO c Q')
    (QY := fun c s => ∀ b ∈ restRefsP sig pre0 (cfgM m hO).spec, s.mem ((c.tc : Thread nD τ).loc b) = Wf m hO c b)
    (hY := fun c s' => by
      iintro ⟨-, HU, HSI⟩
      unfold unscopedRestP
      imodintro
      iapply (pointsTo_read_all (restRefsP sig pre0 (cfgM m hO).spec) (fun b => (c.tc : Thread nD τ).loc b) (Wf m hO c) s')
      isplitl [HU] <;> iassumption)
    (hQ := fun s h c => ⟨(h c).1, rest_of_restP pre0 (cfgM m hO).spec (tbl m) c (Wf m hO c) s (Wf_pre m hO c) (h c).2.1 (h c).2.2⟩)

end Cert.Kernel.Hand

end
-- ==== Proof.HandK.Tables.lean ====
/-
  What the host operations before the region compute, read at an index, at any float instance. They do not touch
  the four arguments; each index table holds, at position n, the flattened row number n * 256 + cand[n, k] (tables 0-3,
  columns 1, 2, 4, 5) or n * 258 + (cand[n, k] + 2) (tables 4, 5, columns 0, 3), in 32-bit words; the two row tables
  are reshaped so that flattened row n * 256 + r (resp. n * 258 + r) is row r of position n; the numeric features get a
  unit axis. Inside the index domain the words are the numbers they spell, and every table-indexed block lies inside its
  table.
-/
import proofs.«402364_j79723182948737_2_alg».proof.Proof.HandK.Setup
import proofs.«402364_j79723182948737_2_alg».proof.Proof.Spec
import Idealize.ShloMosaic.Lib.StableHlo.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.GatherSpec

/-! ## The arguments pass through the host operations -/

theorem V_arg0 (c : Dev nD) : V m c main_arg0 = m ((c : Thread nD τ).loc main_arg0) := by
  show StableHlo.after (List.flatten [hostOps0]) (fun b => m (c, b)) (Proc.devRef .tc main_arg0) = _
  simp only [List.flatten_cons, List.flatten_nil, List.append_nil, hostOps0]
  after_results_simp
theorem V_arg1 (c : Dev nD) : V m c main_arg1 = m ((c : Thread nD τ).loc main_arg1) := by
  show StableHlo.after (List.flatten [hostOps0]) (fun b => m (c, b)) (Proc.devRef .tc main_arg1) = _
  simp only [List.flatten_cons, List.flatten_nil, List.append_nil, hostOps0]
  after_results_simp
theorem V_arg2 (c : Dev nD) : V m c main_arg2 = m ((c : Thread nD τ).loc main_arg2) := by
  show StableHlo.after (List.flatten [hostOps0]) (fun b => m (c, b)) (Proc.devRef .tc main_arg2) = _
  simp only [List.flatten_cons, List.flatten_nil, List.append_nil, hostOps0]
  after_results_simp
theorem V_arg3 (c : Dev nD) : V m c main_arg3 = m ((c : Thread nD τ).loc main_arg3) := by
  show StableHlo.after (List.flatten [hostOps0]) (fun b => m (c, b)) (Proc.devRef .tc main_arg3) = _
  simp only [List.flatten_cons, List.flatten_nil, List.append_nil, hostOps0]
  after_results_simp

/-! ## The index tables' words -/

/-- The candidates as launched (one device). -/
abbrev cand : IVec S1x1000x6 32 := m (((0 : Dev nD) : Thread nD τ).loc main_arg0)

/-- Column `k` of the candidates, read through the reshape to [1000, 6], the one-column slice and the reshape to
    [1000]: the word at position `n`. -/
theorem col_read (x : IVec S1x1000x6 32) (k : Fin 6) (off : Fin 2 → Nat) (hs : S1000x6.Slices off S1000x1)
    (h0 : off 0 = 0) (h1 : off 1 = k.val) (n : Fin 1000) :
    shapeCast S1000 (extractStridedSlice S1000x1 off (shapeCast S1000x6 x shapeCasts_S1x1000x6_S1000x6) hs)
      shapeCasts_S1000x1_S1000 (ix1 n) = x (ix3 0 n k) := by
  refine (shapeCast_apply (s := S1000x1) (t := S1000) _ shapeCasts_S1000x1_S1000 (ix1 n) (ix2 n 0) ?_).trans ?_
  · rewrite [Shape.rowMajor_val_two, Shape.rowMajor_val_one]
    show n.val * 1 + 0 = n.val
    omega
  refine (extractStridedSlice_apply off _ hs (ix2 n 0) (ix2 n k) (fun a => match a with
    | ⟨0, _⟩ => by show n.val = off 0 + n.val; omega
    | ⟨1, _⟩ => by show k.val = off 1 + 0; omega)).trans ?_
  refine shapeCast_apply (s := S1x1000x6) (t := S1000x6) _ shapeCasts_S1x1000x6_S1000x6 (ix2 n k) (ix3 0 n k) ?_
  rewrite [Shape.rowMajor_val_three, Shape.rowMajor_val_two]
  show (0 * 1000 + n.val) * 6 + k.val = n.val * 6 + k.val
  omega

theorem tbl0_at (n : Fin 1000) : tbl m 0 (ix1 n) = BitVec.ofNat 32 n.val * 256#32 + cand m (ix3 0 n 1) := by
  show StableHlo.after (List.flatten [hostOps0]) (fun b => m ((0 : Dev nD), b)) (Proc.devRef .tc main_v9) (ix1 n) = _
  simp only [List.flatten_cons, List.flatten_nil, List.append_nil, hostOps0]
  after_results_simp
  show BitVec.ofNat 32 n.val * 256#32 + _ = BitVec.ofNat 32 n.val * 256#32 + _
  congr 1
  exact col_read _ 1 _ _ rfl rfl n
theorem tbl1_at (n : Fin 1000) : tbl m 1 (ix1 n) = BitVec.ofNat 32 n.val * 256#32 + cand m (ix3 0 n 2) := by
  show StableHlo.after (List.flatten [hostOps0]) (fun b => m ((0 : Dev nD), b)) (Proc.devRef .tc main_v14) (ix1 n) = _
  simp only [List.flatten_cons, List.flatten_nil, List.append_nil, hostOps0]
  after_results_simp
  show BitVec.ofNat 32 n.val * 256#32 + _ = BitVec.ofNat 32 n.val * 256#32 + _
  congr 1
  exact col_read _ 2 _ _ rfl rfl n
theorem tbl2_at (n : Fin 1000) : tbl m 2 (ix1 n) = BitVec.ofNat 32 n.val * 256#32 + cand m (ix3 0 n 4) := by
  show StableHlo.after (List.flatten [hostOps0]) (fun b => m ((0 : Dev nD), b)) (Proc.devRef .tc main_v19) (ix1 n) = _
  simp only [List.flatten_cons, List.flatten_nil, List.append_nil, hostOps0]
  after_results_simp
  show BitVec.ofNat 32 n.val * 256#32 + _ = BitVec.ofNat 32 n.val * 256#32 + _
  congr 1
  exact col_read _ 4 _ _ rfl rfl n
theorem tbl3_at (n : Fin 1000) : tbl m 3 (ix1 n) = BitVec.ofNat 32 n.val * 256#32 + cand m (ix3 0 n 5) := by
  show StableHlo.after (List.flatten [hostOps0]) (fun b => m ((0 : Dev nD), b)) (Proc.devRef .tc main_v24) (ix1 n) = _
  simp only [List.flatten_cons, List.flatten_nil, List.append_nil, hostOps0]
  after_results_simp
  show BitVec.ofNat 32 n.val * 256#32 + _ = BitVec.ofNat 32 n.val * 256#32 + _
  congr 1
  exact col_read _ 5 _ _ rfl rfl n
theorem tbl4_at (n : Fin 1000) : tbl m 4 (ix1 n) = BitVec.ofNat 32 n.val * 258#32 + (cand m (ix3 0 n 0) + 2#32) := by
  show StableHlo.after (List.flatten [hostOps0]) (fun b => m ((0 : Dev nD), b)) (Proc.devRef .tc main_v31) (ix1 n) = _
  simp only [List.flatten_cons, List.flatten_nil, List.append_nil, hostOps0]
  after_results_simp
  show BitVec.ofNat 32 n.val * 258#32 + (_ + 2#32) = BitVec.ofNat 32 n.val * 258#32 + (_ + 2#32)
  congr 2
  exact col_read _ 0 _ _ rfl rfl n
theorem tbl5_at (n : Fin 1000) : tbl m 5 (ix1 n) = BitVec.ofNat 32 n.val * 258#32 + (cand m (ix3 0 n 3) + 2#32) := by
  show StableHlo.after (List.flatten [hostOps0]) (fun b => m ((0 : Dev nD), b)) (Proc.devRef .tc main_v38) (ix1 n) = _
  simp only [List.flatten_cons, List.flatten_nil, List.append_nil, hostOps0]
  after_results_simp
  show BitVec.ofNat 32 n.val * 258#32 + (_ + 2#32) = BitVec.ofNat 32 n.val * 258#32 + (_ + 2#32)
  congr 2
  exact col_read _ 3 _ _ rfl rfl n

/-! ## Inside the index domain the words are flattened row numbers -/

/-- The least admissible value of a column used unshifted is 0; of a column used shifted by two, -2. -/
theorem lo_1 : lo 1 = 0 := by decide
theorem lo_2 : lo 2 = 0 := by decide
theorem lo_4 : lo 4 = 0 := by decide
theorem lo_5 : lo 5 = 0 := by decide
theorem lo_0 : lo 0 = -2 := by decide
theorem lo_3 : lo 3 = -2 := by decide

/-- A position below 1000 times 256, plus a word that spells a number in [0, 256), does not wrap in 32 bits: the sum
    spells the flattened row number. -/
theorem word256 (c : BitVec 32) (n : Nat) (hn : n < 1000) (h0 : 0 ≤ c.toInt) (h1 : c.toInt < 256) :
    (BitVec.ofNat 32 n * 256#32 + c).toNat = n * 256 + min c.toInt.toNat 255 := by
  have hlt : c.toNat < 2 ^ 32 := c.isLt
  rw [BitVec.toInt_eq_toNat_cond] at h0 h1 ⊢
  rw [BitVec.toNat_add, BitVec.toNat_mul, BitVec.toNat_ofNat, BitVec.toNat_ofNat]
  split at h0 <;> omega

/-- The same with the word shifted by two: a word that spells a number in [-2, 256), plus two, spells a number in
    [0, 258) (a negative word is one of the top two words, and adding two wraps it round to 0 or 1). -/
theorem word258 (c : BitVec 32) (n : Nat) (hn : n < 1000) (h0 : -2 ≤ c.toInt) (h1 : c.toInt < 256) :
    (BitVec.ofNat 32 n * 258#32 + (c + 2#32)).toNat = n * 258 + min (c.toInt + 2).toNat 257 := by
  have hlt : c.toNat < 2 ^ 32 := c.isLt
  rw [BitVec.toInt_eq_toNat_cond] at h0 h1 ⊢
  rw [BitVec.toNat_add, BitVec.toNat_mul, BitVec.toNat_add, BitVec.toNat_ofNat, BitVec.toNat_ofNat, BitVec.toNat_ofNat]
  split at h0 <;> omega

theorem tbl0_toNat (hB : Bounds (cand m)) (n : Fin 1000) : (tbl m 0 (ix1 n)).toNat = n.val * 256 + (rowB (cand m) n 1).val := by
  rw [tbl0_at]
  have h := hB n 1
  rw [lo_1] at h
  exact word256 _ n.val n.isLt h.1 h.2
theorem tbl1_toNat (hB : Bounds (cand m)) (n : Fin 1000) : (tbl m 1 (ix1 n)).toNat = n.val * 256 + (rowB (cand m) n 2).val := by
  rw [tbl1_at]
  have h := hB n 2
  rw [lo_2] at h
  exact word256 _ n.val n.isLt h.1 h.2
theorem tbl2_toNat (hB : Bounds (cand m)) (n : Fin 1000) : (tbl m 2 (ix1 n)).toNat = n.val * 256 + (rowB (cand m) n 4).val := by
  rw [tbl2_at]
  have h := hB n 4
  rw [lo_4] at h
  exact word256 _ n.val n.isLt h.1 h.2
theorem tbl3_toNat (hB : Bounds (cand m)) (n : Fin 1000) : (tbl m 3 (ix1 n)).toNat = n.val * 256 + (rowB (cand m) n 5).val := by
  rw [tbl3_at]
  have h := hB n 5
  rw [lo_5] at h
  exact word256 _ n.val n.isLt h.1 h.2
theorem tbl4_toNat (hB : Bounds (cand m)) (n : Fin 1000) : (tbl m 4 (ix1 n)).toNat = n.val * 258 + (rowA (cand m) n 0).val := by
  rw [tbl4_at]
  have h := hB n 0
  rw [lo_0] at h
  exact word258 _ n.val n.isLt h.1 h.2
theorem tbl5_toNat (hB : Bounds (cand m)) (n : Fin 1000) : (tbl m 5 (ix1 n)).toNat = n.val * 258 + (rowA (cand m) n 3).val := by
  rw [tbl5_at]
  have h := hB n 3
  rw [lo_3] at h
  exact word258 _ n.val n.isLt h.1 h.2

/-- Each table-indexed window's index map, in closed form at any table contents: the block index on axis 0 is the
    table's word at the grid point, read as a number; axes 1 and 2 are not blocked. -/
theorem tr0_eq (pf : pre0.Contents (Elt F)) (i : grid0.Coords) :
    cc0_transform_0 k0_off1_inb numel1_S1 pf i = ![(pf 0 (ix1 (⟨(i 0).val, (i 0).isLt⟩ : Fin 1000))).toNat, 0, 0] := by
  have key : ∀ x y : S1000.Idx, x = y → (![(pf 0 x).toNat, 0, 0] : Fin 3 → Nat) = ![(pf 0 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr1_eq (pf : pre0.Contents (Elt F)) (i : grid0.Coords) :
    cc0_transform_1 k0_off1_inb numel1_S1 pf i = ![(pf 1 (ix1 (⟨(i 0).val, (i 0).isLt⟩ : Fin 1000))).toNat, 0, 0] := by
  have key : ∀ x y : S1000.Idx, x = y → (![(pf 1 x).toNat, 0, 0] : Fin 3 → Nat) = ![(pf 1 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr2_eq (pf : pre0.Contents (Elt F)) (i : grid0.Coords) :
    cc0_transform_2 k0_off1_inb numel1_S1 pf i = ![(pf 2 (ix1 (⟨(i 0).val, (i 0).isLt⟩ : Fin 1000))).toNat, 0, 0] := by
  have key : ∀ x y : S1000.Idx, x = y → (![(pf 2 x).toNat, 0, 0] : Fin 3 → Nat) = ![(pf 2 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr3_eq (pf : pre0.Contents (Elt F)) (i : grid0.Coords) :
    cc0_transform_3 k0_off1_inb numel1_S1 pf i = ![(pf 3 (ix1 (⟨(i 0).val, (i 0).isLt⟩ : Fin 1000))).toNat, 0, 0] := by
  have key : ∀ x y : S1000.Idx, x = y → (![(pf 3 x).toNat, 0, 0] : Fin 3 → Nat) = ![(pf 3 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr4_eq (pf : pre0.Contents (Elt F)) (i : grid0.Coords) :
    cc0_transform_4 k0_off1_inb numel1_S1 pf i = ![(pf 4 (ix1 (⟨(i 0).val, (i 0).isLt⟩ : Fin 1000))).toNat, 0, 0] := by
  have key : ∀ x y : S1000.Idx, x = y → (![(pf 4 x).toNat, 0, 0] : Fin 3 → Nat) = ![(pf 4 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega
theorem tr5_eq (pf : pre0.Contents (Elt F)) (i : grid0.Coords) :
    cc0_transform_5 k0_off1_inb numel1_S1 pf i = ![(pf 5 (ix1 (⟨(i 0).val, (i 0).isLt⟩ : Fin 1000))).toNat, 0, 0] := by
  have key : ∀ x y : S1000.Idx, x = y → (![(pf 5 x).toNat, 0, 0] : Fin 3 → Nat) = ![(pf 5 y).toNat, 0, 0] :=
    fun x y h => by rw [h]
  refine key _ _ ((eq_ix1 _).trans (congrArg ix1 (Fin.ext ?_)))
  have hi : (i 0).val < 1000 := (i 0).isLt
  show (BitVec.ofNat 32 (i 0).val).toNat + 1 * 0 = (i 0).val
  rw [BitVec.toNat_ofNat]
  omega

/-- Inside the index domain every table-indexed block lies inside its table. -/
theorem ok_of_bounds (hB : Bounds (cand m)) : Ok m := by
  show ok0 (tbl m)
  unfold ok0
  refine ⟨?_, ?_, ?_, ?_, ?_, ?_⟩
  · intro i
    refine ⟨fun a => ?_, Or.inl rfl⟩
    rw [tr0_eq]
    have hi : (i 0).val < 1000 := (i 0).isLt
    have h : (tbl m 0 (ix1 (⟨(i 0).val, (i 0).isLt⟩ : Fin 1000))).toNat = (i 0).val * 256 + _ := tbl0_toNat m hB _
    have hr := (rowB (cand m) (⟨(i 0).val, (i 0).isLt⟩ : Fin 1000) 1).isLt
    match a with
    | ⟨0, _⟩ =>
      show ((tbl m 0 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr1_eq]
    have hi : (i 0).val < 1000 := (i 0).isLt
    have h : (tbl m 1 (ix1 (⟨(i 0).val, (i 0).isLt⟩ : Fin 1000))).toNat = (i 0).val * 256 + _ := tbl1_toNat m hB _
    have hr := (rowB (cand m) (⟨(i 0).val, (i 0).isLt⟩ : Fin 1000) 2).isLt
    match a with
    | ⟨0, _⟩ =>
      show ((tbl m 1 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr2_eq]
    have hi : (i 0).val < 1000 := (i 0).isLt
    have h : (tbl m 2 (ix1 (⟨(i 0).val, (i 0).isLt⟩ : Fin 1000))).toNat = (i 0).val * 256 + _ := tbl2_toNat m hB _
    have hr := (rowB (cand m) (⟨(i 0).val, (i 0).isLt⟩ : Fin 1000) 4).isLt
    match a with
    | ⟨0, _⟩ =>
      show ((tbl m 2 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr3_eq]
    have hi : (i 0).val < 1000 := (i 0).isLt
    have h : (tbl m 3 (ix1 (⟨(i 0).val, (i 0).isLt⟩ : Fin 1000))).toNat = (i 0).val * 256 + _ := tbl3_toNat m hB _
    have hr := (rowB (cand m) (⟨(i 0).val, (i 0).isLt⟩ : Fin 1000) 5).isLt
    match a with
    | ⟨0, _⟩ =>
      show ((tbl m 3 (ix1 (⟨(i 0).val, (i 0).isLt⟩ : Fin 1000))).toNat + 1) * 1 ≤ 256000
      rw [h]
      omega
    | ⟨1, _⟩ => show (0 + 1) * 1 ≤ 1; omega
    | ⟨2, _⟩ => show (0 + 1) * 512 ≤ 512; omega
  · intro i
    refine ⟨fun a => ?_, Or.inl rfl⟩
    rw [tr4_eq]
    have hi : (i 0).val < 1000 := (i 0).isLt
    have h : (tbl m 4 (ix1 (⟨(i 0).val, (i 0).isLt⟩ : Fin 1000))).toNat = (i 0).val * 258 + _ := tbl4_toNat m hB _
    have hr := (rowA (cand m) (⟨(i 0).val, (i 0).isLt⟩ : Fin 1000) 0).isLt
    match a with
    | ⟨0, _⟩ =>
      show ((tbl m 4 (ix1 (⟨(i 0).val, (i 0).isLt⟩ : Fin 1000))).toNat + 1) * 1 ≤ 258000
      rw [h]
      omega
    | ⟨1, _⟩ => show (0 + 1) * 1 ≤ 1; omega
    | ⟨2, _⟩ => show (0 + 1) * 512 ≤ 512; omega
  · intro i
    refine ⟨fun a => ?_, Or.inl rfl⟩
    rw [tr5_eq]
    have hi : (i 0).val < 1000 := (i 0).isLt
    have h : (tbl m 5 (ix1 (⟨(i 0).val, (i 0).isLt⟩ : Fin 1000))).toNat = (i 0).val * 258 + _ := tbl5_toNat m hB _
    have hr := (rowA (cand m) (⟨(i 0).val, (i 0).isLt⟩ : Fin 1000) 3).isLt
    match a with
    | ⟨0, _⟩ =>
      show ((tbl m 5 (ix1 (⟨(i 0).val, (i 0).isLt⟩ : Fin 1000))).toNat + 1) * 1 ≤ 258000
      rw [h]
      omega
    | ⟨1, _⟩ => show (0 + 1) * 1 ≤ 1; omega
    | ⟨2, _⟩ => show (0 + 1) * 512 ≤ 512; omega

/-! ## The staged arrays read at an index -/

theorem V_v39_at (c : Dev nD) (q : Fin 256000) (j : Fin 512) :
    V m c main_v39 (ix3 q 0 j) = m ((c : Thread nD τ).loc main_arg2) (ix4 0 ⟨q.val / 256, by omega⟩ ⟨q.val % 256, by omega⟩ j) := by
  have hq : q.val < 256000 := q.isLt
  show StableHlo.after (List.flatten [hostOps0]) (fun b => m (c, b)) (Proc.devRef .tc main_v39) (ix3 q 0 j) = _
  simp only [List.flatten_cons, List.flatten_nil, List.append_nil, hostOps0]
  after_results_simp
  refine (shapeCast_apply (s := S1000x256x512) (t := S256000x1x512) _ shapeCasts_S1000x256x512_S256000x1x512 (ix3 q 0 j)
    (ix3 (⟨q.val / 256, by omega⟩ : Fin 1000) (⟨q.val % 256, by omega⟩ : Fin 256) j) ?_).trans ?_
  · rewrite [Shape.rowMajor_val_three, Shape.rowMajor_val_three]
    show (q.val / 256 * 256 + q.val % 256) * 512 + j.val = (q.val * 1 + 0) * 512 + j.val
    omega
  · refine shapeCast_apply (s := S1x1000x256x512) (t := S1000x256x512) _ shapeCasts_S1x1000x256x512_S1000x256x512
      (ix3 (⟨q.val / 256, by omega⟩ : Fin 1000) (⟨q.val % 256, by omega⟩ : Fin 256) j)
      (ix4 0 ⟨q.val / 256, by omega⟩ ⟨q.val % 256, by omega⟩ j) ?_
    rewrite [Shape.rowMajor_val_four, Shape.rowMajor_val_three]
    show ((0 * 1000 + q.val / 256) * 256 + q.val % 256) * 512 + j.val = (q.val / 256 * 256 + q.val % 256) * 512 + j.val
    omega
theorem V_v40_at (c : Dev nD) (q : Fin 258000) (j : Fin 512) :
    V m c main_v40 (ix3 q 0 j) = m ((c : Thread nD τ).loc main_arg3) (ix4 0 ⟨q.val / 258, by omega⟩ ⟨q.val % 258, by omega⟩ j) := by
  have hq : q.val < 258000 := q.isLt
  show StableHlo.after (List.flatten [hostOps0]) (fun b => m (c, b)) (Proc.devRef .tc main_v40) (ix3 q 0 j) = _
  simp only [List.flatten_cons, List.flatten_nil, List.append_nil, hostOps0]
  after_results_simp
  refine (shapeCast_apply (s := S1000x258x512) (t := S258000x1x512) _ shapeCasts_S1000x258x512_S258000x1x512 (ix3 q 0 j)
    (ix3 (⟨q.val / 258, by omega⟩ : Fin 1000) (⟨q.val % 258, by omega⟩ : Fin 258) j) ?_).trans ?_
  · rewrite [Shape.rowMajor_val_three, Shape.rowMajor_val_three]
    show (q.val / 258 * 258 + q.val % 258) * 512 + j.val = (q.val * 1 + 0) * 512 + j.val
    omega
  · refine shapeCast_apply (s := S1x1000x258x512) (t := S1000x258x512) _ shapeCasts_S1x1000x258x512_S1000x258x512
      (ix3 (⟨q.val / 258, by omega⟩ : Fin 1000) (⟨q.val % 258, by omega⟩ : Fin 258) j)
      (ix4 0 ⟨q.val / 258, by omega⟩ ⟨q.val % 258, by omega⟩ j) ?_
    rewrite [Shape.rowMajor_val_four, Shape.rowMajor_val_three]
    show ((0 * 1000 + q.val / 258) * 258 + q.val % 258) * 512 + j.val = (q.val / 258 * 258 + q.val % 258) * 512 + j.val
    omega
theorem V_v41_at (c : Dev nD) (n : Fin 1000) (j : Fin 10) :
    V m c main_v41 (ix3 n 0 j) = m ((c : Thread nD τ).loc main_arg1) (ix3 0 n j) := by
  show StableHlo.after (List.flatten [hostOps0]) (fun b => m (c, b)) (Proc.devRef .tc main_v41) (ix3 n 0 j) = _
  simp only [List.flatten_cons, List.flatten_nil, List.append_nil, hostOps0]
  after_results_simp
  refine (shapeCast_apply (s := S1000x10) (t := S1000x1x10) _ shapeCasts_S1000x10_S1000x1x10 (ix3 n 0 j) (ix2 n j) ?_).trans ?_
  · rewrite [Shape.rowMajor_val_two, Shape.rowMajor_val_three]
    show n.val * 10 + j.val = (n.val * 1 + 0) * 10 + j.val
    omega
  · refine shapeCast_apply (s := S1x1000x10) (t := S1000x10) _ shapeCasts_S1x1000x10_S1000x10 (ix2 n j) (ix3 0 n j) ?_
    rewrite [Shape.rowMajor_val_three, Shape.rowMajor_val_two]
    show (0 * 1000 + n.val) * 10 + j.val = n.val * 10 + j.val
    omega

end Cert.Kernel.Hand

end
-- ==== Proof.HandK.Frame.lean ====
/-
  The frame. The four arguments are no window's array and no table: they bypass the region. The last reshape writes
  only the result buffer, and the host operations before the region write none of the arguments; so at the end each
  argument holds what it held at launch.
-/
import proofs.«402364_j79723182948737_2_alg».proof.Proof.HandK.Run
import proofs.«402364_j79723182948737_2_alg».proof.Proof.HandK.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.GatherSpec

theorem mem_arg0 : main_arg0 ∈ Pipeline.restRefsP sig pre0 spec0 := by decide
theorem mem_arg1 : main_arg1 ∈ Pipeline.restRefsP sig pre0 spec0 := by decide
theorem mem_arg2 : main_arg2 ∈ Pipeline.restRefsP sig pre0 spec0 := by decide
theorem mem_arg3 : main_arg3 ∈ Pipeline.restRefsP sig pre0 spec0 := by decide

/-- A bypassing buffer that is no table is in particular no window's array. -/
theorem rest_of_bypass {b : Ref sig .tc} (hb : b ∈ Pipeline.restRefsP sig pre0 spec0) : b ∈ Pipeline.restRefs sig spec0 :=
  (Finset.mem_sdiff.mp hb).1

/-- Under the tables' side condition: every execution ends with the arguments unchanged. -/
theorem frame_ok (hO : Ok m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (rest_of_bypass mem_arg0)).trans ((Wf_of_ne m hO c mem_arg0 (by decide)).trans (V_arg0 m c)),
     ((h c).2 main_arg1 (rest_of_bypass mem_arg1)).trans ((Wf_of_ne m hO c mem_arg1 (by decide)).trans (V_arg1 m c)),
     ((h c).2 main_arg2 (rest_of_bypass mem_arg2)).trans ((Wf_of_ne m hO c mem_arg2 (by decide)).trans (V_arg2 m c)),
     ((h c).2 main_arg3 (rest_of_bypass mem_arg3)).trans ((Wf_of_ne m hO c mem_arg3 (by decide)).trans (V_arg3 m c))⟩)
    (run_main m ρ hO)

/-- Inside the index domain: every execution ends with the arguments unchanged. -/
theorem frame (hB : Bounds (cand m)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_ok m ρ (ok_of_bounds m hB)

end Cert.Kernel.Hand

end
-- ==== Proof.lean ====
/-
  The certificate of the row-gather kernel against its jnp reference.

  Both programs build, for each of 1000 positions n, a row of width 3082: six rows of width 512 picked out of two
  tables by the six integer columns of `candidates` (columns 1, 2, 4, 5 name rows of the 256-row table at n, columns 0
  and 3, shifted by two, rows of the 258-row table at n) followed by the ten numeric features of n. The kernel
  flattens each table to rows n * 256 + r (resp. n * 258 + r), computes those row numbers on the host into six index
  tables, and lets the pipeline fetch one row per window and grid point; its body only lays the seven blocks side by
  side. The reference indexes the tables directly. No arithmetic is done on the floats, so the two results are equal
  entry by entry as soon as every row index lies inside its table: that is the precondition's integer conjunct, and
  it is also what keeps every block the kernel's pipeline fetches inside its array, so the frames need it too.

  frame_Kernel, frame_KernelIdeal: the run of the pipeline (Proof/Hand, and its copy at the word-level program,
  Proof/HandK), under the index bounds decoded from the precondition (Proof/PreDecode).
  frame_ReferenceIdeal: the reference's run with the result dropped.
  preserves: the idealization rewrote nothing.
  algebraic: the kernel's result is the specification `G` of the arguments (Proof/Hand/Final), and so is the
  reference's (Proof/RefValue).
-/
import proofs.«402364_j79723182948737_2_alg».proof.Defs
import proofs.«402364_j79723182948737_2_alg».proof.Proof.Gen.Kernel
import proofs.«402364_j79723182948737_2_alg».proof.Proof.Gen.KernelIdeal
import proofs.«402364_j79723182948737_2_alg».proof.Proof.Gen.ReferenceIdeal
import proofs.«402364_j79723182948737_2_alg».proof.Proof.Gen.Pre_finite_inputs
import proofs.«402364_j79723182948737_2_alg».proof.Proof.PreDecode
import proofs.«402364_j79723182948737_2_alg».proof.Proof.RefValue
import proofs.«402364_j79723182948737_2_alg».proof.Proof.Hand.Final
import proofs.«402364_j79723182948737_2_alg».proof.Proof.HandK.Frame
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m g hpre =>
  Cert.Kernel.Hand.frame m g (Cert.PreDecode.bounds_of_pre _ _ _ _ (hpre 0))

/-- The idealized kernel runs and leaves its arguments unchanged. -/
theorem frame_ki : Cert.frame_KernelIdeal := fun m g hpre =>
  Cert.KernelIdeal.Hand.frame m g (Cert.PreDecode.bounds_of_pre _ _ _ _ (hpre 0))

/-- The reference runs and leaves its arguments unchanged: its run, the result dropped. -/
theorem frame_ri : Cert.frame_ReferenceIdeal := fun m g _ =>
  (θ_run Cert.ReferenceIdeal.defs _ _).mono (fun _ h c => (h c).2) (Cert.ReferenceIdeal.Value.run (F := Ideal) m g)

/-- The idealization rewrote no operation. -/
theorem preserves : Cert.preserves_Kernel_KernelIdeal := trivial

/-- Inside the index domain both programs end with the specification `G` of the arguments as their result. -/
theorem algebraic : Cert.algebraic_KernelIdeal_ReferenceIdeal := by
  intro m g m' g' hpre hagree
  have hB : Cert.GatherSpec.Bounds (Cert.KernelIdeal.Hand.cand m) := Cert.PreDecode.bounds_of_pre _ _ _ _ (hpre 0)
  refine ⟨_, Cert.KernelIdeal.Hand.kernel_run (F := Ideal) m g hB, ?_⟩
  have hB' : ∀ c : Dev Cert.ReferenceIdeal.nD, Cert.GatherSpec.Bounds (m' ((c.tc : Thread Cert.ReferenceIdeal.nD Cert.ReferenceIdeal.τ).loc Cert.ReferenceIdeal.main_arg0)) := fun c => by
    obtain rfl : c = 0 := Subsingleton.elim _ _
    rw [(hagree 0).1]; exact hB
  refine (θ_run Cert.ReferenceIdeal.defs _ _).mono (fun _ h c => ⟨(h c).1.trans ?_, (h c).2⟩) (Cert.RefValue.ref_run m' g' hB')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
